-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x256 .f32 .bf16
  ∧ IdealRules.truncf_extf.Statement Cert.KernelIdeal.S256x2560 .f32 .bf16
  ∧ IdealRules.truncf_extf.Statement Cert.KernelIdeal.S256x2560 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x96x320 : Shape := ⟨4, ![8, 128, 96, 320]⟩
abbrev S8x128x128 : Shape := ⟨3, ![8, 128, 128]⟩
abbrev S_ : Shape := ⟨0, ![]⟩

class Facts : Prop where
  bcast_S_S8x128x96x320 : S_.BroadcastsInDim S8x128x96x320 (![] : Fin 0 → Fin S8x128x96x320.rank)
  reducesTo_S8x128x96x320_S_d0_1_2_3 : S8x128x96x320.ReducesTo [0, 1, 2, 3] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S8x128x96x320 .f32) (main_arg1 : FVec F S8x128x128 .f32) : IVec S_ 1 :=
  let main_v0 : FVec F S8x128x96x320 .f32 := Host.absf main_arg0
  let main_cst : FVec F S_ .f32 := constant S_ .f32 0x7F800000#32
  let main_v1 : FVec F S8x128x96x320 .f32 := broadcastInDim S8x128x96x320 ![] bcast_S_S8x128x96x320 main_cst
  let main_v2 : IVec S8x128x96x320 1 := cmpf .olt main_v0 main_v1
  let main_c : IVec S_ 1 := constantI S_ 1 1#1
  let main_v3 : IVec S_ 1 := (fun x v => Host.reduce IntOp.andi x v reducesTo_S8x128x96x320_S_d0_1_2_3 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  main_v8
-- ==== Kernel.lean ====
abbrev S8x128x96x320 : Shape := ⟨4, ![8, 128, 96, 320]⟩
abbrev S8x128x128 : Shape := ⟨3, ![8, 128, 128]⟩
abbrev S8x128x30720 : Shape := ⟨3, ![8, 128, 30720]⟩
abbrev S2x128x2560 : Shape := ⟨3, ![2, 128, 2560]⟩
abbrev S2x128x128 : Shape := ⟨3, ![2, 128, 128]⟩
abbrev S2x128x1 : Shape := ⟨3, ![2, 128, 1]⟩
abbrev S1x128x2560 : Shape := ⟨3, ![1, 128, 2560]⟩
abbrev S128x2560 : Shape := ⟨2, ![128, 2560]⟩
abbrev S1x128x128 : Shape := ⟨3, ![1, 128, 128]⟩
abbrev S128x128 : Shape := ⟨2, ![128, 128]⟩
abbrev S128x256 : Shape := ⟨2, ![128, 256]⟩
abbrev S256x256 : Shape := ⟨2, ![256, 256]⟩
abbrev S256x2560 : Shape := ⟨2, ![256, 2560]⟩
abbrev S1x128x1 : Shape := ⟨3, ![1, 128, 1]⟩
abbrev S128x1 : Shape := ⟨2, ![128, 1]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S8x128x96x320, .f32⟩
  | .hbm, ⟨1, _⟩ => ⟨S8x128x128, .f32⟩
  | .hbm, ⟨2, _⟩ => ⟨S8x128x30720, .f32⟩
  | .hbm, ⟨3, _⟩ => ⟨S8x128x30720, .f32⟩
  | .hbm, ⟨4, _⟩ => ⟨S8x128x128, .f32⟩
  | .hbm, ⟨5, _⟩ => ⟨S8x128x96x320, .f32⟩
  | .local _ .vmem, ⟨0, _⟩ => ⟨S2x128x2560, .f32⟩
  | .local _ .vmem, ⟨1, _⟩ => ⟨S2x128x2560, .f32⟩
  | .local _ .vmem, ⟨2, _⟩ => ⟨S2x128x128, .f32⟩
  | .local _ .vmem, ⟨3, _⟩ => ⟨S2x128x128, .f32⟩
  | .local _ .vmem, ⟨4, _⟩ => ⟨S2x128x2560, .f32⟩
  | .local _ .vmem, ⟨5, _⟩ => ⟨S2x128x2560, .f32⟩
  | .local _ .vmem, ⟨6, _⟩ => ⟨S2x128x128, .f32⟩
  | .local _ .vmem, ⟨7, _⟩ => ⟨S2x128x128, .f32⟩
  | .local _ .vmem, ⟨8, _⟩ => ⟨S2x128x1, .f32⟩
  | .local _ .vmem, ⟨9, _⟩ => ⟨S2x128x1, .f32⟩
  | .local _ .vmem, ⟨10, _⟩ => ⟨S2x128x128, .f32⟩
  | _, _ => ⟨S8x128x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def k0_cond2 (i : grid0.Coords) : BitVec 1 :=
  let arg1 : BitVec 32 := BitVec.ofNat 32 (i 1).val
  let c11_i32 : BitVec 32 := 11#32
  let v110 : BitVec 1 := Scalar.cmpi .eq arg1 c11_i32
  let v111 : BitVec 32 := Scalar.extui v110
  let c0_i32_64 : BitVec 32 := 0#32
  let v112 : BitVec 1 := Scalar.cmpi .ne v111 c0_i32_64
  v112

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x128x96x320_S8x128x30720 : S8x128x96x320.ShapeCasts S8x128x30720
  inb_S2x128x1_S2x128x1_0_0_0 : ∀ a, (![0, 0, 0] : Fin 3 → Nat) a + S2x128x1.size a ≤ S2x128x1.size a
  h_S2x128x1 : 0 < S2x128x1.numel
  shapeCasts_S2x128x1_S2x128x1 : S2x128x1.ShapeCasts S2x128x1
  inb_S2x128x128_S2x128x128_0_0_0 : ∀ a, (![0, 0, 0] : Fin 3 → Nat) a + S2x128x128.size a ≤ S2x128x128.size a
  h_S2x128x128 : 0 < S2x128x128.numel
  shapeCasts_S2x128x128_S2x128x128 : S2x128x128.ShapeCasts S2x128x128
  inb_S2x128x2560_S1x128x2560_0_0_0 : ∀ a, (![0, 0, 0] : Fin 3 → Nat) a + S1x128x2560.size a ≤ S2x128x2560.size a
  h_S1x128x2560 : 0 < S1x128x2560.numel
  shapeCasts_S1x128x2560_S128x2560 : S1x128x2560.ShapeCasts S128x2560
  inb_S2x128x2560_S1x128x2560_1_0_0 : ∀ a, (![1, 0, 0] : Fin 3 → Nat) a + S1x128x2560.size a ≤ S2x128x2560.size a
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  concatenates_S128x128_S128x128_S128x256_d1 : Shape.Concatenates [S128x128, S128x128] S128x256 1
  concatenates_S128x256_S128x256_S256x256_d0 : Shape.Concatenates [S128x256, S128x256] S256x256 0
  concatenates_S128x2560_S128x2560_S256x2560_d0 : Shape.Concatenates [S128x2560, S128x2560] S256x2560 0
  bitsLt_bf16_f32 : FTy.bits .bf16 < FTy.bits .f32
  slices_S256x2560_o0_0_S128x2560 : S256x2560.Slices ![0, 0] S128x2560
  slices_S256x2560_o128_0_S128x2560 : S256x2560.Slices ![128, 0] S128x2560
  shapeCasts_S128x2560_S1x128x2560 : S128x2560.ShapeCasts S1x128x2560
  inb_S2x128x1_S1x128x1_0_0_0 : ∀ a, (![0, 0, 0] : Fin 3 → Nat) a + S1x128x1.size a ≤ S2x128x1.size a
  h_S1x128x1 : 0 < S1x128x1.numel
  shapeCasts_S1x128x1_S128x1 : S1x128x1.ShapeCasts S128x1
  inb_S2x128x1_S1x128x1_1_0_0 : ∀ a, (![1, 0, 0] : Fin 3 → Nat) a + S1x128x1.size a ≤ S2x128x1.size a
  reduces_S128x2560_S128 : S128x2560.Reduces [1] S128
  shapeCasts_S128_S128x1 : S128.ShapeCasts S128x1
  broadcasts_S128x1_S128x2560 : S128x1.Broadcasts S128x2560
  slices_S256x256_o0_0_S128x128 : S256x256.Slices ![0, 0] S128x128
  slices_S256x256_o128_128_S128x128 : S256x256.Slices ![128, 128] S128x128
  broadcasts_S128x1_S128x128 : S128x1.Broadcasts S128x128
  shapeCasts_S128x128_S1x128x128 : S128x128.ShapeCasts S1x128x128
  shapeCasts_S128x1_S1x128x1 : S128x1.ShapeCasts S1x128x1
  shapeCasts_S8x128x30720_S8x128x96x320 : S8x128x30720.ShapeCasts S8x128x96x320
  dot_S256x256_S256x2560_S256x2560_1_0_0_1_n_n_wf : DotDims.WF S256x256 S256x2560 S256x2560 [1] [0] [0] [1] [] []
  dot_S256x2560_S256x2560_S256x256_1_1_0_0_n_n_wf : DotDims.WF S256x2560 S256x2560 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x2560.size a ≤ S8x128x30720.size a
  hwx0_0 : ∀ i : grid0.Coords, EltTy.bits .f32 = 32 ∨ (Rect.block (s := S8x128x30720) S2x128x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x128.size a ≤ S8x128x128.size a
  hwx0_1 : ∀ i : grid0.Coords, EltTy.bits .f32 = 32 ∨ (Rect.block (s := S8x128x128) S2x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x2560.size a ≤ S8x128x30720.size a
  hwx0_2 : ∀ i : grid0.Coords, EltTy.bits .f32 = 32 ∨ (Rect.block (s := S8x128x30720) S2x128x2560.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x128.size a ≤ S8x128x128.size a
  hwx0_3 : ∀ i : grid0.Coords, EltTy.bits .f32 = 32 ∨ (Rect.block (s := S8x128x128) S2x128x128.size (cc0_transform_3 i) (hinb0_3 i)).WholeWords (EltTy.packing .f32)

variable [Facts₀]

def dot_S256x256_S256x2560_S256x2560_1_0_0_1_n_n : DotDims S256x256 S256x2560 S256x2560 where
  lhsContracting := [1]
  rhsContracting := [0]
  lhsNonContracting := [0]
  rhsNonContracting := [1]
  lhsBatch := []
  rhsBatch := []
  wf := dot_S256x256_S256x2560_S256x2560_1_0_0_1_n_n_wf
def dot_S256x2560_S256x2560_S256x256_1_1_0_0_n_n : DotDims S256x2560 S256x2560 S256x256 where
  lhsContracting := [1]
  rhsContracting := [1]
  lhsNonContracting := [0]
  rhsNonContracting := [0]
  lhsBatch := []
  rhsBatch := []
  wf := dot_S256x2560_S256x2560_S256x256_1_1_0_0_n_n_wf

abbrev win0_0 : Pipeline.Window sig grid0 :=
  Pipeline.Window.ofSpec (Memref.whole main_v0) S2x128x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x128x2560.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x128x96x320 : Shape := ⟨4, ![8, 128, 96, 320]⟩
abbrev S8x128x128 : Shape := ⟨3, ![8, 128, 128]⟩
abbrev S8x128x30720 : Shape := ⟨3, ![8, 128, 30720]⟩
abbrev S8x30720x128 : Shape := ⟨3, ![8, 30720, 128]⟩
abbrev S_ : Shape := ⟨0, ![]⟩
abbrev S8x128 : Shape := ⟨2, ![8, 128]⟩
abbrev S8x1x128 : Shape := ⟨3, ![8, 1, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x128x96x320, .f32⟩
  | .hbm, ⟨1, _⟩ => ⟨S8x128x128, .f32⟩
  | .hbm, ⟨2, _⟩ => ⟨S8x128x30720, .f32⟩
  | .hbm, ⟨3, _⟩ => ⟨S8x30720x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S8x1x128, .f32⟩
  | .hbm, ⟨10, _⟩ => ⟨S8x30720x128, .f32⟩
  | .hbm, ⟨11, _⟩ => ⟨S8x30720x128, .f32⟩
  | .hbm, ⟨12, _⟩ => ⟨S8x30720x128, .f32⟩
  | .hbm, ⟨13, _⟩ => ⟨S_, .f32⟩
  | .hbm, ⟨14, _⟩ => ⟨S8x128, .f32⟩
  | .hbm, ⟨15, _⟩ => ⟨S8x1x128, .f32⟩
  | .hbm, ⟨16, _⟩ => ⟨S8x30720x128, .f32⟩
  | .hbm, ⟨17, _⟩ => ⟨S8x30720x128, .f32⟩
  | .hbm, ⟨18, _⟩ => ⟨S8x128x128, .f32⟩
  | .hbm, ⟨19, _⟩ => ⟨S8x128x30720, .f32⟩
  | .hbm, ⟨20, _⟩ => ⟨S8x128x96x320, .f32⟩
  | _, _ => ⟨S8x128x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S8x128x96x320_S8x128x30720 : S8x128x96x320.ShapeCasts S8x128x30720
  reducesTo_S8x30720x128_S8x128_d1 : S8x30720x128.ReducesTo [1] S8x128
  h_S_ : 0 < S_.numel
  bcast_S_S8x128 : S_.BroadcastsInDim S8x128 (![] : Fin 0 → Fin S8x128.rank)
  bcast_S8x128_S8x1x128_0_2 : S8x128.BroadcastsInDim S8x1x128 (![0, 2] : Fin 2 → Fin S8x1x128.rank)
  bcast_S8x1x128_S8x30720x128_0_1_2 : S8x1x128.BroadcastsInDim S8x30720x128 (![0, 1, 2] : Fin 3 → Fin S8x30720x128.rank)
  transposes_S8x30720x128_S8x128x30720_0_2_1 : S8x30720x128.Transposes [0, 2, 1] S8x128x30720
  shapeCasts_S8x128x30720_S8x128x96x320 : S8x128x30720.ShapeCasts S8x128x96x320
  dot_S8x128x30720_S8x128x128_S8x30720x128_1_2_2_1_0_0_wf : DotDims.WF S8x128x30720 S8x128x128 S8x30720x128 [1] [2] [2] [1] [0] [0]
  dot_S8x30720x128_S8x128x30720_S8x128x128_1_2_2_1_0_0_wf : DotDims.WF S8x30720x128 S8x128x30720 S8x128x128 [1] [2] [2] [1] [0] [0]

variable [Facts₀]

def dot_S8x128x30720_S8x128x128_S8x30720x128_1_2_2_1_0_0 : DotDims S8x128x30720 S8x128x128 S8x30720x128 where
  lhsContracting := [1]
  rhsContracting := [2]
  lhsNonContracting := [2]
  rhsNonContracting := [1]
  lhsBatch := [0]
  rhsBatch := [0]
  wf := dot_S8x128x30720_S8x128x128_S8x30720x128_1_2_2_1_0_0_wf
def dot_S8x30720x128_S8x128x30720_S8x128x128_1_2_2_1_0_0 : DotDims S8x30720x128 S8x128x30720 S8x128x128 where
  lhsContracting := [1]
  rhsContracting := [2]
  lhsNonContracting := [2]
  rhsNonContracting := [1]
  lhsBatch := [0]
  rhsBatch := [0]
  wf := dot_S8x30720x128_S8x128x30720_S8x128x128_1_2_2_1_0_0_wf

class Facts : Prop extends Facts₀ where

variable [Facts]
-- ==== Proof.KDefs.lean ====
/-
  One grid point of the kernel, as pure functions of what it finds.

  The body works on two batches at once. It finds a block `x` of features (2 × 128 features × 2560 columns), a block `k` of
  queries (2 × 128 queries × 128 features), and three carried buffers: the running maxima `m` and normalisers `l`
  (2 × 128 × 1) and the running weighted sums `a` (2 × 128 × 128). Half `0` and half `1` of each are the two batches. This
  module names, for each half, what the body computes from them — the score tile, the new maximum, the rescaling factor, the
  exponentials, the new normaliser, the new weighted sum, the final quotient — each as the composition of the body's own
  payload terms over the half-blocks it loads, at any float instance.
-/
import proofs.«403087_j20770461844117_3_alg».proof.Proof.Gen.KernelIdeal.Skeleton
import Idealize.ShloMosaic.Lib.Pipeline.FrameBody

noncomputable section

namespace Cert.KernelIdeal.Step

open Idealize.ShloMosaic Idealize.SL.Sem Cert.KernelIdeal Cert.KernelIdeal.Gen

variable {F : FTy → Type} [FloatOps F]

/-! ## The half-blocks -/

/-- Half `0` / half `1` of a feature block: one batch's 128 × 2560 tile, kept with its leading unit axis. -/
abbrev rX0 : Rect S2x128x2560 := Rect.unit (s := S2x128x2560) ![0, 0, 0] S1x128x2560.size inb_S2x128x2560_S1x128x2560_0_0_0
abbrev rX1 : Rect S2x128x2560 := Rect.unit (s := S2x128x2560) ![1, 0, 0] S1x128x2560.size inb_S2x128x2560_S1x128x2560_1_0_0
/-- Half `0` / half `1` of a 2 × 128 × 128 block (queries; weighted sums; the summary block). -/
abbrev rK0 : Rect S2x128x128 := Rect.unit (s := S2x128x128) ![0, 0, 0] S1x128x128.size inb_S2x128x128_S1x128x128_0_0_0
abbrev rK1 : Rect S2x128x128 := Rect.unit (s := S2x128x128) ![1, 0, 0] S1x128x128.size inb_S2x128x128_S1x128x128_1_0_0
/-- Half `0` / half `1` of a 2 × 128 × 1 column (maxima; normalisers). -/
abbrev rS0 : Rect S2x128x1 := Rect.unit (s := S2x128x1) ![0, 0, 0] S1x128x1.size inb_S2x128x1_S1x128x1_0_0_0
abbrev rS1 : Rect S2x128x1 := Rect.unit (s := S2x128x1) ![1, 0, 0] S1x128x1.size inb_S2x128x1_S1x128x1_1_0_0

abbrev X0 (x : Vec F S2x128x2560 .f32) : Vec F S1x128x2560 .f32 := View.ld x rX0
abbrev X1 (x : Vec F S2x128x2560 .f32) : Vec F S1x128x2560 .f32 := View.ld x rX1
abbrev K0 (k : Vec F S2x128x128 .f32) : Vec F S1x128x128 .f32 := View.ld k rK0
abbrev K1 (k : Vec F S2x128x128 .f32) : Vec F S1x128x128 .f32 := View.ld k rK1

/-! ## Half 0 -/

/-- The score tile of batch 0: 128 queries × 2560 columns. -/
def y0 (x : Vec F S2x128x2560 .f32) (k : Vec F S2x128x128 .f32) : FVec F S128x2560 .f32 := k0_pay12 (X0 x) (X1 x) (K0 k) (K1 k)
/-- The new running maximum. -/
def m0 (x : Vec F S2x128x2560 .f32) (k : Vec F S2x128x128 .f32) (m : Vec F S2x128x1 .f32) : FVec F S128x1 .f32 := k0_pay21 (y0 x k) (View.ld m rS0)
/-- The rescaling factor `exp (old maximum - new maximum)`. -/
def al0 (x : Vec F S2x128x2560 .f32) (k : Vec F S2x128x128 .f32) (m : Vec F S2x128x1 .f32) : FVec F S128x1 .f32 := k0_pay23 (y0 x k) (View.ld m rS0)
/-- The tile's exponentials `exp (score - new maximum)`. -/
def p0 (x : Vec F S2x128x2560 .f32) (k : Vec F S2x128x128 .f32) (m : Vec F S2x128x1 .f32) : FVec F S128x2560 .f32 := k0_pay25 (y0 x k) (View.ld m rS0)
/-- The new running normaliser. -/
def l0 (x : Vec F S2x128x2560 .f32) (k : Vec F S2x128x128 .f32) (m l : Vec F S2x128x1 .f32) : FVec F S128x1 .f32 :=
  k0_pay29 (k0_pay27 (y0 x k) (View.ld m rS0) (View.ld l rS0)) (k0_pay28 (y0 x k) (View.ld m rS0))

/-! ## Half 1 -/

def y1 (x : Vec F S2x128x2560 .f32) (k : Vec F S2x128x128 .f32) : FVec F S128x2560 .f32 := k0_pay13 (X0 x) (X1 x) (K0 k) (K1 k)
def m1 (x : Vec F S2x128x2560 .f32) (k : Vec F S2x128x128 .f32) (m : Vec F S2x128x1 .f32) : FVec F S128x1 .f32 := k0_pay22 (y1 x k) (View.ld m rS1)
def al1 (x : Vec F S2x128x2560 .f32) (k : Vec F S2x128x128 .f32) (m : Vec F S2x128x1 .f32) : FVec F S128x1 .f32 := k0_pay24 (y1 x k) (View.ld m rS1)
def p1 (x : Vec F S2x128x2560 .f32) (k : Vec F S2x128x128 .f32) (m : Vec F S2x128x1 .f32) : FVec F S128x2560 .f32 := k0_pay26 (y1 x k) (View.ld m rS1)
def l1 (x : Vec F S2x128x2560 .f32) (k : Vec F S2x128x128 .f32) (m l : Vec F S2x128x1 .f32) : FVec F S128x1 .f32 :=
  k0_pay30 (k0_pay19 (View.ld l rS1)) (al1 x k m) (p1 x k m)

/-! ## The weighted sums: both halves come out of one product over both batches' exponentials -/

def a0 (x : Vec F S2x128x2560 .f32) (k : Vec F S2x128x128 .f32) (m : Vec F S2x128x1 .f32) (a : Vec F S2x128x128 .f32) : FVec F S1x128x128 .f32 :=
  k0_pay32 (k0_pay9 (X0 x) (X1 x)) (k0_pay10 (X0 x) (X1 x)) (k0_pay17 (View.ld a rK0)) (al0 x k m) (p0 x k m) (p1 x k m)
def a1 (x : Vec F S2x128x2560 .f32) (k : Vec F S2x128x128 .f32) (m : Vec F S2x128x1 .f32) (a : Vec F S2x128x128 .f32) : FVec F S1x128x128 .f32 :=
  k0_pay33 (k0_pay9 (X0 x) (X1 x)) (k0_pay10 (X0 x) (X1 x)) (k0_pay20 (View.ld a rK1)) (al1 x k m) (p0 x k m) (p1 x k m)

/-! ## What each store writes (the payloads kept with their leading unit axis) -/

/-- The two halves of the energy block. -/
def e0 (x : Vec F S2x128x2560 .f32) (k : Vec F S2x128x128 .f32) : FVec F S1x128x2560 .f32 := k0_pay14 (X0 x) (X1 x) (K0 k) (K1 k)
def e1 (x : Vec F S2x128x2560 .f32) (k : Vec F S2x128x128 .f32) : FVec F S1x128x2560 .f32 := k0_pay15 (y1 x k)
/-- The two halves of the new maxima and of the new normalisers. -/
def sm0 (x : Vec F S2x128x2560 .f32) (k : Vec F S2x128x128 .f32) (m : Vec F S2x128x1 .f32) : FVec F S1x128x1 .f32 := k0_pay34 (m0 x k m)
def sm1 (x : Vec F S2x128x2560 .f32) (k : Vec F S2x128x128 .f32) (m : Vec F S2x128x1 .f32) : FVec F S1x128x1 .f32 := k0_pay35 (m1 x k m)
def sl0 (x : Vec F S2x128x2560 .f32) (k : Vec F S2x128x128 .f32) (m l : Vec F S2x128x1 .f32) : FVec F S1x128x1 .f32 := k0_pay1 (l0 x k m l)
def sl1 (x : Vec F S2x128x2560 .f32) (k : Vec F S2x128x128 .f32) (m l : Vec F S2x128x1 .f32) : FVec F S1x128x1 .f32 := k0_pay2 (l1 x k m l)
/-- The two halves of the summary block, written after the last tile: new weighted sum over new normaliser. -/
def q0 (x : Vec F S2x128x2560 .f32) (k : Vec F S2x128x128 .f32) (m l : Vec F S2x128x1 .f32) (a : Vec F S2x128x128 .f32) : FVec F S1x128x128 .f32 :=
  k0_pay3 (a0 x k m a) (sl0 x k m l)
def q1 (x : Vec F S2x128x2560 .f32) (k : Vec F S2x128x128 .f32) (m l : Vec F S2x128x1 .f32) (a : Vec F S2x128x128 .f32) : FVec F S1x128x128 .f32 :=
  k0_pay4 (a1 x k m a) (sl1 x k m l)

/-- What the first tile's reset leaves in the carried buffers: `-∞`, `0`, `0`. -/
abbrev mInit : Vec F S2x128x1 .f32 := k0_pay5
abbrev lInit : Vec F S2x128x1 .f32 := k0_pay6
abbrev aInit : Vec F S2x128x128 .f32 := k0_pay7

end Cert.KernelIdeal.Step

end
-- ==== Proof.LibHalves.lean ====
/-
  A buffer of shape 2 × n₁ × n₂ written as two halves.

  A body that treats the two leading slabs of a buffer separately stores slab `1` and slab `0` through the unit rectangles at
  offsets (1,0,0) and (0,0,0) of size 1 × n₁ × n₂, and loads them through the same rectangles. What the two stores leave
  (whatever was stored before them) is the JOIN of the two payloads; a load of slab `h` reads the buffer at (h, ·, ·).

  How the file is built. A unit-stride rectangle places its local index `x` at `offset + x`, axis by axis; so the
  slab-`h` rectangle places (0, q, z) at (h, q, z) (`emb_half0`, `emb_half1`), and an index (0, q, z) is outside
  slab `1`'s rectangle because its leading coordinate 0 is below that rectangle's first leading coordinate 1
  (`not_mem_half1`). A list of stores is read newest first: under the newest store's rectangle its payload, off it
  whatever the rest of the list leaves. With these the two-store list is read at (1, q, z) and at (0, q, z)
  (`canon_cons_half1`, `canon_cons_half1_zero`, `canon_cons_half0`), and every index of the buffer is one of the two.
-/
import Idealize.ShloMosaic.Lib.Pipeline.Value
import Idealize.ShloMosaic.Lib.ValueIdx

noncomputable section

namespace Idealize.ShloMosaic.Halves

open Idealize.ShloMosaic Idealize.ShloMosaic.ValueIdx

variable {α : Type} {n1 n2 : ℕ}

/-- The 2 × n₁ × n₂ function whose slab `0` is `w0` and slab `1` is `w1` (each given with its leading unit axis). -/
def join2 (w0 w1 : (⟨3, ![1, n1, n2]⟩ : Shape).Idx → α) : (⟨3, ![2, n1, n2]⟩ : Shape).Idx → α :=
  fun i => if (i 0).val = 0 then w0 (ix3 0 (i 1) (i 2)) else w1 (ix3 0 (i 1) (i 2))

/-- The join at (0, q, z) is slab `0`'s payload at (0, q, z): the leading coordinate is 0, the first branch. -/
theorem join2_zero (w0 w1 : (⟨3, ![1, n1, n2]⟩ : Shape).Idx → α) (q : Fin n1) (z : Fin n2) :
    join2 w0 w1 (ix3 0 q z) = w0 (ix3 0 q z) := by
  unfold join2
  exact if_pos rfl

/-- The join at (1, q, z) is slab `1`'s payload at (0, q, z): the leading coordinate is 1 ≠ 0, the second branch. -/
theorem join2_one (w0 w1 : (⟨3, ![1, n1, n2]⟩ : Shape).Idx → α) (q : Fin n1) (z : Fin n2) :
    join2 w0 w1 (ix3 1 q z) = w1 (ix3 0 q z) := by
  unfold join2
  exact if_neg Nat.one_ne_zero

/-! ## Where the two slab rectangles place their indices -/

/-- Slab `0`'s rectangle (offsets (0,0,0), unit strides) places its local index (0, q, z) at (0, q, z):
    on each axis the coordinate is `0 + 1 · x`. -/
theorem emb_half0
    (inb : ∀ a, (![0, 0, 0] : Fin 3 → ℕ) a + (![1, n1, n2] : Fin 3 → ℕ) a ≤ (⟨3, ![2, n1, n2]⟩ : Shape).size a)
    (q : Fin n1) (z : Fin n2) :
    (Rect.unit (s := ⟨3, ![2, n1, n2]⟩) ![0, 0, 0] ![1, n1, n2] inb).emb (ix3 0 q z) = ix3 0 q z :=
  funext fun a => Fin.ext <| match a with
    | ⟨0, _⟩ => by show 0 + 1 * 0 = 0; omega
    | ⟨1, _⟩ => by show 0 + 1 * q.val = q.val; omega
    | ⟨2, _⟩ => by show 0 + 1 * z.val = z.val; omega

/-- Slab `1`'s rectangle (offsets (1,0,0), unit strides) places its local index (0, q, z) at (1, q, z):
    the leading coordinate is `1 + 1 · 0`, the others `0 + 1 · x`. -/
theorem emb_half1
    (inb : ∀ a, (![1, 0, 0] : Fin 3 → ℕ) a + (![1, n1, n2] : Fin 3 → ℕ) a ≤ (⟨3, ![2, n1, n2]⟩ : Shape).size a)
    (q : Fin n1) (z : Fin n2) :
    (Rect.unit (s := ⟨3, ![2, n1, n2]⟩) ![1, 0, 0] ![1, n1, n2] inb).emb (ix3 0 q z) = ix3 1 q z :=
  funext fun a => Fin.ext <| match a with
    | ⟨0, _⟩ => by show 1 + 1 * 0 = 1; omega
    | ⟨1, _⟩ => by show 0 + 1 * q.val = q.val; omega
    | ⟨2, _⟩ => by show 0 + 1 * z.val = z.val; omega

/-- An index (0, q, z) is not under slab `1`'s rectangle: membership would put its leading coordinate, 0, at or above
    the rectangle's leading offset, 1. -/
theorem not_mem_half1
    (inb : ∀ a, (![1, 0, 0] : Fin 3 → ℕ) a + (![1, n1, n2] : Fin 3 → ℕ) a ≤ (⟨3, ![2, n1, n2]⟩ : Shape).size a)
    (q : Fin n1) (z : Fin n2) :
    (ix3 0 q z : (⟨3, ![2, n1, n2]⟩ : Shape).Idx) ∉ (Rect.unit (s := ⟨3, ![2, n1, n2]⟩) ![1, 0, 0] ![1, n1, n2] inb).set := by
  intro hm
  have h0 : (1 : ℕ) ≤ 0 := (Rect.mem_set_unit.mp hm 0).1
  omega

/-- Every index of the 1 × n₁ × n₂ slab shape is (0, q, z): its leading coordinate lies below 1. -/
theorem exists_ix3_slab (j : (⟨3, ![1, n1, n2]⟩ : Shape).Idx) : ∃ (q : Fin n1) (z : Fin n2), j = ix3 0 q z := by
  have hlt : (j 0).val < 1 := (j 0).isLt
  refine ⟨j 1, j 2, funext fun a => ?_⟩
  match a with
  | ⟨0, _⟩ => exact Fin.ext (by show (j 0).val = 0; omega)
  | ⟨1, _⟩ => rfl
  | ⟨2, _⟩ => rfl

/-- Every index of the 2 × n₁ × n₂ buffer is (0, q, z) or (1, q, z): its leading coordinate lies below 2. -/
theorem exists_ix3_halves (i : (⟨3, ![2, n1, n2]⟩ : Shape).Idx) :
    ∃ (q : Fin n1) (z : Fin n2), i = ix3 0 q z ∨ i = ix3 1 q z := by
  have hlt : (i 0).val < 2 := (i 0).isLt
  refine ⟨i 1, i 2, ?_⟩
  rcases Nat.lt_or_ge (i 0).val 1 with h | h
  · refine Or.inl (funext fun a => ?_)
    match a with
    | ⟨0, _⟩ => exact Fin.ext (by show (i 0).val = 0; omega)
    | ⟨1, _⟩ => rfl
    | ⟨2, _⟩ => rfl
  · refine Or.inr (funext fun a => ?_)
    match a with
    | ⟨0, _⟩ => exact Fin.ext (by show (i 0).val = 1; omega)
    | ⟨1, _⟩ => rfl
    | ⟨2, _⟩ => rfl

variable {Val : EltTy → Type} {e : EltTy}

/-- A load of slab `0` reads the buffer at (0, ·, ·). -/
theorem ld_half0_apply (X : (⟨3, ![2, n1, n2]⟩ : Shape).Idx → Val e)
    (inb : ∀ a, (![0, 0, 0] : Fin 3 → ℕ) a + (![1, n1, n2] : Fin 3 → ℕ) a ≤ (⟨3, ![2, n1, n2]⟩ : Shape).size a)
    (q : Fin n1) (z : Fin n2) :
    View.ld X (Rect.unit (s := ⟨3, ![2, n1, n2]⟩) ![0, 0, 0] ![1, n1, n2] inb) (ix3 0 q z) = X (ix3 0 q z) :=
  -- a load through a rectangle reads the contents at the place the rectangle gives the local index
  congrArg X (emb_half0 inb q z)

/-- A load of slab `1` reads the buffer at (1, ·, ·). -/
theorem ld_half1_apply (X : (⟨3, ![2, n1, n2]⟩ : Shape).Idx → Val e)
    (inb : ∀ a, (![1, 0, 0] : Fin 3 → ℕ) a + (![1, n1, n2] : Fin 3 → ℕ) a ≤ (⟨3, ![2, n1, n2]⟩ : Shape).size a)
    (q : Fin n1) (z : Fin n2) :
    View.ld X (Rect.unit (s := ⟨3, ![2, n1, n2]⟩) ![1, 0, 0] ![1, n1, n2] inb) (ix3 0 q z) = X (ix3 1 q z) :=
  congrArg X (emb_half1 inb q z)

/-! ## The two slab stores read at an index -/

/-- A newest store through slab `1`'s rectangle is read at (1, q, z), the place of its local index (0, q, z): its payload. -/
theorem canon_cons_half1 [∀ e, Nonempty (Val e)]
    (inb1 : ∀ a, (![1, 0, 0] : Fin 3 → ℕ) a + (![1, n1, n2] : Fin 3 → ℕ) a ≤ (⟨3, ![2, n1, n2]⟩ : Shape).size a)
    (w1 : (⟨3, ![1, n1, n2]⟩ : Shape).Idx → Val e) (L : List (View.Piece Val (⟨3, ![2, n1, n2]⟩ : Shape) e))
    (q : Fin n1) (z : Fin n2) :
    View.canon ((⟨Rect.unit (s := ⟨3, ![2, n1, n2]⟩) ![1, 0, 0] ![1, n1, n2] inb1, w1⟩ : View.Piece Val _ e) :: L)
      (ix3 1 q z) = w1 (ix3 0 q z) := by
  rw [← emb_half1 inb1 q z]
  exact View.canon_cons_emb (Rect.unit (s := ⟨3, ![2, n1, n2]⟩) ![1, 0, 0] ![1, n1, n2] inb1) w1 L _

/-- A newest store through slab `0`'s rectangle is read at (0, q, z), the place of its local index (0, q, z): its payload. -/
theorem canon_cons_half0 [∀ e, Nonempty (Val e)]
    (inb0 : ∀ a, (![0, 0, 0] : Fin 3 → ℕ) a + (![1, n1, n2] : Fin 3 → ℕ) a ≤ (⟨3, ![2, n1, n2]⟩ : Shape).size a)
    (w0 : (⟨3, ![1, n1, n2]⟩ : Shape).Idx → Val e) (L : List (View.Piece Val (⟨3, ![2, n1, n2]⟩ : Shape) e))
    (q : Fin n1) (z : Fin n2) :
    View.canon ((⟨Rect.unit (s := ⟨3, ![2, n1, n2]⟩) ![0, 0, 0] ![1, n1, n2] inb0, w0⟩ : View.Piece Val _ e) :: L)
      (ix3 0 q z) = w0 (ix3 0 q z) := by
  rw [← emb_half0 inb0 q z]
  exact View.canon_cons_emb (Rect.unit (s := ⟨3, ![2, n1, n2]⟩) ![0, 0, 0] ![1, n1, n2] inb0) w0 L _

/-- A newest store through slab `1`'s rectangle leaves (0, q, z) alone: there the earlier stores are read. -/
theorem canon_cons_half1_zero [∀ e, Nonempty (Val e)]
    (inb1 : ∀ a, (![1, 0, 0] : Fin 3 → ℕ) a + (![1, n1, n2] : Fin 3 → ℕ) a ≤ (⟨3, ![2, n1, n2]⟩ : Shape).size a)
    (w1 : (⟨3, ![1, n1, n2]⟩ : Shape).Idx → Val e) (L : List (View.Piece Val (⟨3, ![2, n1, n2]⟩ : Shape) e))
    (q : Fin n1) (z : Fin n2) :
    View.canon ((⟨Rect.unit (s := ⟨3, ![2, n1, n2]⟩) ![1, 0, 0] ![1, n1, n2] inb1, w1⟩ : View.Piece Val _ e) :: L)
      (ix3 0 q z) = View.canon L (ix3 0 q z) :=
  View.canon_cons_of_not_mem
    (⟨Rect.unit (s := ⟨3, ![2, n1, n2]⟩) ![1, 0, 0] ![1, n1, n2] inb1, w1⟩ : View.Piece Val _ e) L (not_mem_half1 inb1 q z)

/-- The two slab stores, slab `1` last, leave the join of their payloads, whatever was stored before. -/
theorem canon_halves [∀ e, Nonempty (Val e)]
    (inb1 : ∀ a, (![1, 0, 0] : Fin 3 → ℕ) a + (![1, n1, n2] : Fin 3 → ℕ) a ≤ (⟨3, ![2, n1, n2]⟩ : Shape).size a)
    (inb0 : ∀ a, (![0, 0, 0] : Fin 3 → ℕ) a + (![1, n1, n2] : Fin 3 → ℕ) a ≤ (⟨3, ![2, n1, n2]⟩ : Shape).size a)
    (w1 w0 : (⟨3, ![1, n1, n2]⟩ : Shape).Idx → Val e) (L : List (View.Piece Val (⟨3, ![2, n1, n2]⟩ : Shape) e)) :
    View.canon ((⟨Rect.unit (s := ⟨3, ![2, n1, n2]⟩) ![1, 0, 0] ![1, n1, n2] inb1, w1⟩ : View.Piece Val _ e)
        :: (⟨Rect.unit (s := ⟨3, ![2, n1, n2]⟩) ![0, 0, 0] ![1, n1, n2] inb0, w0⟩ : View.Piece Val _ e) :: L)
      = join2 w0 w1 := by
  funext i
  -- the index is (0, q, z) or (1, q, z); on each slab both sides are that slab's payload at (0, q, z)
  obtain ⟨q, z, hi | hi⟩ := exists_ix3_halves i
  · -- slab 0: the newest store (slab 1's) misses the index, the next one (slab 0's) covers it
    rw [hi, canon_cons_half1_zero inb1 w1 _ q z, canon_cons_half0 inb0 w0 L q z, join2_zero]
  · -- slab 1: the newest store covers the index
    rw [hi, canon_cons_half1 inb1 w1 _ q z, join2_one]

/-- A load of slab `1` straight after the two slab stores reads slab `1`'s payload; -/
theorem readCov_halves_one [∀ e, Nonempty (Val e)] {sig : RefSig} {κ : Kind} {sp : Space}
    (v : View sig κ sp (⟨3, ![2, n1, n2]⟩ : Shape) e)
    (inb1 : ∀ a, (![1, 0, 0] : Fin 3 → ℕ) a + (![1, n1, n2] : Fin 3 → ℕ) a ≤ (⟨3, ![2, n1, n2]⟩ : Shape).size a)
    (inb0 : ∀ a, (![0, 0, 0] : Fin 3 → ℕ) a + (![1, n1, n2] : Fin 3 → ℕ) a ≤ (⟨3, ![2, n1, n2]⟩ : Shape).size a)
    (w1 w0 : (⟨3, ![1, n1, n2]⟩ : Shape).Idx → Val e) (L : List (View.Piece Val (⟨3, ![2, n1, n2]⟩ : Shape) e)) :
    v.readCov ((⟨Rect.unit (s := ⟨3, ![2, n1, n2]⟩) ![1, 0, 0] ![1, n1, n2] inb1, w1⟩ : View.Piece Val _ e)
        :: (⟨Rect.unit (s := ⟨3, ![2, n1, n2]⟩) ![0, 0, 0] ![1, n1, n2] inb0, w0⟩ : View.Piece Val _ e) :: L)
      (Rect.unit (s := ⟨3, ![2, n1, n2]⟩) ![1, 0, 0] ![1, n1, n2] inb1).toLoadRect = w1 :=
  -- the load goes through the newest store's own rectangle
  View.readCov_cons_toLoadRect v (Rect.unit (s := ⟨3, ![2, n1, n2]⟩) ![1, 0, 0] ![1, n1, n2] inb1) w1 _

/-- and a load of slab `0` reads slab `0`'s. -/
theorem readCov_halves_zero [∀ e, Nonempty (Val e)] {sig : RefSig} {κ : Kind} {sp : Space}
    (v : View sig κ sp (⟨3, ![2, n1, n2]⟩ : Shape) e)
    (inb1 : ∀ a, (![1, 0, 0] : Fin 3 → ℕ) a + (![1, n1, n2] : Fin 3 → ℕ) a ≤ (⟨3, ![2, n1, n2]⟩ : Shape).size a)
    (inb0 : ∀ a, (![0, 0, 0] : Fin 3 → ℕ) a + (![1, n1, n2] : Fin 3 → ℕ) a ≤ (⟨3, ![2, n1, n2]⟩ : Shape).size a)
    (w1 w0 : (⟨3, ![1, n1, n2]⟩ : Shape).Idx → Val e) (L : List (View.Piece Val (⟨3, ![2, n1, n2]⟩ : Shape) e)) :
    v.readCov ((⟨Rect.unit (s := ⟨3, ![2, n1, n2]⟩) ![1, 0, 0] ![1, n1, n2] inb1, w1⟩ : View.Piece Val _ e)
        :: (⟨Rect.unit (s := ⟨3, ![2, n1, n2]⟩) ![0, 0, 0] ![1, n1, n2] inb0, w0⟩ : View.Piece Val _ e) :: L)
      (Rect.unit (s := ⟨3, ![2, n1, n2]⟩) ![0, 0, 0] ![1, n1, n2] inb0).toLoadRect = w0 := by
  -- the load reads the two stores' join at the places slab 0's rectangle gives: (0, q, z), where the join is w0
  rw [View.readCov_eq_canon', canon_halves]
  funext j
  obtain ⟨q, z, rfl⟩ := exists_ix3_slab j
  exact (congrArg (join2 w0 w1) (emb_half0 inb0 q z)).trans (join2_zero w0 w1 q z)

/-- A load of slab `h` after ONE whole-buffer store reads that store's payload through the slab's rectangle. -/
theorem readCov_whole_half [∀ e, Nonempty (Val e)] {sig : RefSig} {κ : Kind} {sp : Space}
    (v : View sig κ sp (⟨3, ![2, n1, n2]⟩ : Shape) e) (off : Fin 3 → ℕ)
    (inbw : ∀ a, (![0, 0, 0] : Fin 3 → ℕ) a + (⟨3, ![2, n1, n2]⟩ : Shape).size a ≤ (⟨3, ![2, n1, n2]⟩ : Shape).size a)
    (inb : ∀ a, off a + (![1, n1, n2] : Fin 3 → ℕ) a ≤ (⟨3, ![2, n1, n2]⟩ : Shape).size a)
    (w : (⟨3, ![2, n1, n2]⟩ : Shape).Idx → Val e) :
    v.readCov [(⟨Rect.unit (s := ⟨3, ![2, n1, n2]⟩) ![0, 0, 0] (⟨3, ![2, n1, n2]⟩ : Shape).size inbw, w⟩ : View.Piece Val _ e)]
      (Rect.unit (s := ⟨3, ![2, n1, n2]⟩) off ![1, n1, n2] inb).toLoadRect
      = View.ld w (Rect.unit (s := ⟨3, ![2, n1, n2]⟩) off ![1, n1, n2] inb) := by
  -- the offsets (0,0,0) are the zero offsets, so the one store covers the whole buffer and leaves its payload everywhere
  have hz : (![0, 0, 0] : Fin 3 → ℕ) = fun _ => 0 :=
    funext fun a => match a with | ⟨0, _⟩ => rfl | ⟨1, _⟩ => rfl | ⟨2, _⟩ => rfl
  rw [View.readCov_eq_canon', View.canon_unit_zero hz]

end Idealize.ShloMosaic.Halves

end
-- ==== Proof.KPieces.lean ====
/-
  What one grid point leaves in each buffer, read off the body's run.

  In every case of the body's two conditionals the stores into a buffer are the two slab stores (slab 1 last), over, at the first
  tile of a batch pair, the whole-buffer reset; so each buffer ends as the join of two slab payloads, the payloads being the
  point's pure functions of the blocks it loaded (`Step`). At the first tile the carried buffers are read back from the reset,
  so the same functions apply at the reset's contents (`-∞`, `0`, `0`). After the last tile the summary block's two slabs are the
  quotients of the new weighted sums by the new normalisers, both read back from this point's own stores.

  Every proof below has the same three steps. (1) The stores the run makes into the buffer cover it, so what the buffer holds
  afterwards does not depend on what it held before: it is the canonical reading of the list of stores, the last store at each
  position. (2) The run is opened to exhibit that list: slab 1's store, then slab 0's, then (first tile only) the reset; the
  payloads are the body's payload terms applied to the loaded half-blocks, which is how the `Step` functions are defined.
  Where a payload depends on a load made after earlier stores of the same point (the reset at the first tile; the two slab
  stores before the summary), that load is evaluated against those stores. (3) Two slab stores leave the join of their payloads.
-/
import proofs.«403087_j20770461844117_3_alg».proof.Proof.Gen.KernelIdeal.Frame
import proofs.«403087_j20770461844117_3_alg».proof.Proof.KDefs
import proofs.«403087_j20770461844117_3_alg».proof.Proof.LibHalves
import Idealize.ShloMosaic.Lib.Tactic

set_option maxRecDepth 16384

noncomputable section

namespace Cert.KernelIdeal.Pieces

open Idealize.ShloMosaic Idealize.ShloMosaic.TcCoe Idealize.SL.Sem Idealize.ShloMosaic.Halves
open Cert.KernelIdeal Cert.KernelIdeal.Gen Cert.KernelIdeal.Step

variable {F : FTy → Type} [FloatOps F]

/-! ## The first tile of a batch pair (the reset is taken, the summary is not written) -/

/-- The energy block: the two score tiles. -/
theorem energy_A (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : cond0_0 i) (hc1 : ¬cond0_1 i)
    (x : Vec F S2x128x2560 .f32) (k : Vec F S2x128x128 .f32) :
    out0_A_2 c i a2 h2 a3 h3 a4 h4 a5 h5 a6 h6 a7 h7 a8 h8 hc0 hc1 x k = join2 (e0 x k) (e1 x k) := by
  -- The run's stores into the energy block cover it, so what it holds is their canonical reading: at each position, the last store there.
  unfold out0_A_2
  rw [View.read_writes_eq_canon _ _ _ (cover0_A_2 c i a2 h2 a3 h3 a4 h4 a5 h5 a6 h6 a7 h7 a8 h8 hc0 hc1 x k)]
  -- The list of those stores, last first. A load from a whole buffer the point has not yet stored into reads the buffer's contents.
  unfold kernelRun0_A
  dsimp only
  sl_unfold_words
  simp only [View.readAt_eq_ld, h2.read_unread, h3.read_unread]
  -- Slab 1's store over slab 0's, with payloads `e1 x k` and `e0 x k`: they leave the join.
  exact canon_halves _ _ _ _ []
/-- The running maxima, from the reset's `-∞`. -/
theorem max_A (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : cond0_0 i) (hc1 : ¬cond0_1 i)
    (x : Vec F S2x128x2560 .f32) (k : Vec F S2x128x128 .f32) :
    sout0_A_0 c i a2 h2 a3 h3 a4 h4 a5 h5 a6 h6 a7 h7 a8 h8 hc0 hc1 x k = join2 (sm0 x k mInit) (sm1 x k mInit) := by
  -- The run's stores into the buffer of maxima cover it, so what it holds is their canonical reading: at each position, the last store there.
  unfold sout0_A_0
  rw [View.read_writes_eq_canon _ _ _ (scover0_A_0 c i a2 h2 a3 h3 a4 h4 a5 h5 a6 h6 a7 h7 a8 h8 hc0 hc1 x k)]
  -- The list of those stores, last first. A load from a whole buffer the point has not yet stored into reads the buffer's contents.
  unfold kernelRun0_A
  dsimp only
  sl_unfold_words
  simp only [View.readAt_eq_ld, h2.read_unread, h3.read_unread]
  -- The old maxima are loaded after the reset alone: each slab load reads the reset's `-∞` through the slab's rectangle.
  rw [readCov_whole_half, readCov_whole_half]
  -- Slab 1's store over slab 0's over the reset, with payloads `sm1 x k mInit` and `sm0 x k mInit`: they leave the join,
  -- whatever lies under them.
  exact canon_halves _ _ _ _ [_]
/-- The running normalisers, from the reset's `0`. -/
theorem norm_A (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : cond0_0 i) (hc1 : ¬cond0_1 i)
    (x : Vec F S2x128x2560 .f32) (k : Vec F S2x128x128 .f32) :
    sout0_A_1 c i a2 h2 a3 h3 a4 h4 a5 h5 a6 h6 a7 h7 a8 h8 hc0 hc1 x k = join2 (sl0 x k mInit lInit) (sl1 x k mInit lInit) := by
  -- The run's stores into the buffer of normalisers cover it, so what it holds is their canonical reading: at each position, the last store there.
  unfold sout0_A_1
  rw [View.read_writes_eq_canon _ _ _ (scover0_A_1 c i a2 h2 a3 h3 a4 h4 a5 h5 a6 h6 a7 h7 a8 h8 hc0 hc1 x k)]
  -- The list of those stores, last first. A load from a whole buffer the point has not yet stored into reads the buffer's contents.
  unfold kernelRun0_A
  dsimp only
  sl_unfold_words
  simp only [View.readAt_eq_ld, h2.read_unread, h3.read_unread]
  -- The old maxima and normalisers are loaded after the resets alone: each of the four slab loads reads the reset's
  -- `-∞` or `0` through the slab's rectangle.
  rw [readCov_whole_half, readCov_whole_half, readCov_whole_half, readCov_whole_half]
  -- Slab 1's store over slab 0's over the reset, with payloads `sl1 x k mInit lInit` and `sl0 x k mInit lInit`.
  exact canon_halves _ _ _ _ [_]
/-- The running weighted sums, from the reset's `0`. -/
theorem acc_A (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : cond0_0 i) (hc1 : ¬cond0_1 i)
    (x : Vec F S2x128x2560 .f32) (k : Vec F S2x128x128 .f32) :
    sout0_A_2 c i a2 h2 a3 h3 a4 h4 a5 h5 a6 h6 a7 h7 a8 h8 hc0 hc1 x k = join2 (a0 x k mInit aInit) (a1 x k mInit aInit) := by
  -- The run's stores into the buffer of weighted sums cover it, so what it holds is their canonical reading: at each position, the last store there.
  unfold sout0_A_2
  rw [View.read_writes_eq_canon _ _ _ (scover0_A_2 c i a2 h2 a3 h3 a4 h4 a5 h5 a6 h6 a7 h7 a8 h8 hc0 hc1 x k)]
  -- The list of those stores, last first. A load from a whole buffer the point has not yet stored into reads the buffer's contents.
  unfold kernelRun0_A
  dsimp only
  sl_unfold_words
  simp only [View.readAt_eq_ld, h2.read_unread, h3.read_unread]
  -- The old maxima and weighted sums are loaded after the resets alone: each of the four slab loads reads the reset's
  -- `-∞` or `0` through the slab's rectangle.
  rw [readCov_whole_half, readCov_whole_half, readCov_whole_half, readCov_whole_half]
  -- Slab 1's store over slab 0's over the reset, with payloads `a1 x k mInit aInit` and `a0 x k mInit aInit`.
  exact canon_halves _ _ _ _ [_]

/-! ## A middle tile -/

/-- The energy block. -/
theorem energy_B (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : ¬cond0_1 i)
    (x : Vec F S2x128x2560 .f32) (k : Vec F S2x128x128 .f32) (m l : Vec F S2x128x1 .f32) (a : Vec F S2x128x128 .f32) :
    out0_B_2 c i a2 h2 a3 h3 a4 h4 a5 h5 a6 h6 a7 h7 a8 h8 hc0 hc1 x k m l a = join2 (e0 x k) (e1 x k) := by
  -- The run's stores into the energy block cover it, so what it holds is their canonical reading: at each position, the last store there.
  unfold out0_B_2
  rw [View.read_writes_eq_canon _ _ _ (cover0_B_2 c i a2 h2 a3 h3 a4 h4 a5 h5 a6 h6 a7 h7 a8 h8 hc0 hc1 x k m l a)]
  -- The list of those stores, last first. A load from a whole buffer the point has not yet stored into reads the buffer's contents.
  unfold kernelRun0_B
  dsimp only
  sl_unfold_words
  simp only [View.readAt_eq_ld, h2.read_unread, h3.read_unread, h6.read_unread, h7.read_unread, h8.read_unread]
  -- Slab 1's store over slab 0's, with payloads `e1 x k` and `e0 x k`: they leave the join.
  exact canon_halves _ _ _ _ []
/-- The running maxima, from what the tile before left. -/
theorem max_B (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : ¬cond0_1 i)
    (x : Vec F S2x128x2560 .f32) (k : Vec F S2x128x128 .f32) (m l : Vec F S2x128x1 .f32) (a : Vec F S2x128x128 .f32) :
    sout0_B_0 c i a2 h2 a3 h3 a4 h4 a5 h5 a6 h6 a7 h7 a8 h8 hc0 hc1 x k m l a = join2 (sm0 x k m) (sm1 x k m) := by
  -- The run's stores into the buffer of maxima cover it, so what it holds is their canonical reading: at each position, the last store there.
  unfold sout0_B_0
  rw [View.read_writes_eq_canon _ _ _ (scover0_B_0 c i a2 h2 a3 h3 a4 h4 a5 h5 a6 h6 a7 h7 a8 h8 hc0 hc1 x k m l a)]
  -- The list of those stores, last first. A load from a whole buffer the point has not yet stored into reads the buffer's contents.
  unfold kernelRun0_B
  dsimp only
  sl_unfold_words
  simp only [View.readAt_eq_ld, h2.read_unread, h3.read_unread, h6.read_unread, h7.read_unread, h8.read_unread]
  -- Slab 1's store over slab 0's, with payloads `sm1 x k m` and `sm0 x k m`: they leave the join.
  exact canon_halves _ _ _ _ []
/-- The running normalisers. -/
theorem norm_B (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : ¬cond0_1 i)
    (x : Vec F S2x128x2560 .f32) (k : Vec F S2x128x128 .f32) (m l : Vec F S2x128x1 .f32) (a : Vec F S2x128x128 .f32) :
    sout0_B_1 c i a2 h2 a3 h3 a4 h4 a5 h5 a6 h6 a7 h7 a8 h8 hc0 hc1 x k m l a = join2 (sl0 x k m l) (sl1 x k m l) := by
  -- The run's stores into the buffer of normalisers cover it, so what it holds is their canonical reading: at each position, the last store there.
  unfold sout0_B_1
  rw [View.read_writes_eq_canon _ _ _ (scover0_B_1 c i a2 h2 a3 h3 a4 h4 a5 h5 a6 h6 a7 h7 a8 h8 hc0 hc1 x k m l a)]
  -- The list of those stores, last first. A load from a whole buffer the point has not yet stored into reads the buffer's contents.
  unfold kernelRun0_B
  dsimp only
  sl_unfold_words
  simp only [View.readAt_eq_ld, h2.read_unread, h3.read_unread, h6.read_unread, h7.read_unread, h8.read_unread]
  -- Slab 1's store over slab 0's, with payloads `sl1 x k m l` and `sl0 x k m l`: they leave the join.
  exact canon_halves _ _ _ _ []
/-- The running weighted sums. -/
theorem acc_B (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : ¬cond0_1 i)
    (x : Vec F S2x128x2560 .f32) (k : Vec F S2x128x128 .f32) (m l : Vec F S2x128x1 .f32) (a : Vec F S2x128x128 .f32) :
    sout0_B_2 c i a2 h2 a3 h3 a4 h4 a5 h5 a6 h6 a7 h7 a8 h8 hc0 hc1 x k m l a = join2 (a0 x k m a) (a1 x k m a) := by
  -- The run's stores into the buffer of weighted sums cover it, so what it holds is their canonical reading: at each position, the last store there.
  unfold sout0_B_2
  rw [View.read_writes_eq_canon _ _ _ (scover0_B_2 c i a2 h2 a3 h3 a4 h4 a5 h5 a6 h6 a7 h7 a8 h8 hc0 hc1 x k m l a)]
  -- The list of those stores, last first. A load from a whole buffer the point has not yet stored into reads the buffer's contents.
  unfold kernelRun0_B
  dsimp only
  sl_unfold_words
  simp only [View.readAt_eq_ld, h2.read_unread, h3.read_unread, h6.read_unread, h7.read_unread, h8.read_unread]
  -- Slab 1's store over slab 0's, with payloads `a1 x k m a` and `a0 x k m a`: they leave the join.
  exact canon_halves _ _ _ _ []

/-! ## The last tile (the summary is written) -/

/-- The energy block. -/
theorem energy_C (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : cond0_1 i)
    (x : Vec F S2x128x2560 .f32) (k : Vec F S2x128x128 .f32) (m l : Vec F S2x128x1 .f32) (a : Vec F S2x128x128 .f32) :
    out0_C_2 c i a2 h2 a3 h3 a4 h4 a5 h5 a6 h6 a7 h7 a8 h8 hc0 hc1 x k m l a = join2 (e0 x k) (e1 x k) := by
  -- The run's stores into the energy block cover it, so what it holds is their canonical reading: at each position, the last store there.
  unfold out0_C_2
  rw [View.read_writes_eq_canon _ _ _ (cover0_C_2 c i a2 h2 a3 h3 a4 h4 a5 h5 a6 h6 a7 h7 a8 h8 hc0 hc1 x k m l a)]
  -- The list of those stores, last first. A load from a whole buffer the point has not yet stored into reads the buffer's contents.
  unfold kernelRun0_C
  dsimp only
  sl_unfold_words
  simp only [View.readAt_eq_ld, h2.read_unread, h3.read_unread, h6.read_unread, h7.read_unread, h8.read_unread]
  -- Slab 1's store over slab 0's, with payloads `e1 x k` and `e0 x k`: they leave the join.
  exact canon_halves _ _ _ _ []
/-- The summary block: new weighted sums over new normalisers. -/
theorem summary_C (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : cond0_1 i)
    (x : Vec F S2x128x2560 .f32) (k : Vec F S2x128x128 .f32) (m l : Vec F S2x128x1 .f32) (a : Vec F S2x128x128 .f32) :
    out0_C_3 c i a2 h2 a3 h3 a4 h4 a5 h5 a6 h6 a7 h7 a8 h8 hc0 hc1 x k m l a = join2 (q0 x k m l a) (q1 x k m l a) := by
  -- The run's stores into the summary block cover it, so what it holds is their canonical reading: at each position, the last store there.
  unfold out0_C_3
  rw [View.read_writes_eq_canon _ _ _ (cover0_C_3 c i a2 h2 a3 h3 a4 h4 a5 h5 a6 h6 a7 h7 a8 h8 hc0 hc1 x k m l a)]
  -- The list of those stores, last first. A load from a whole buffer the point has not yet stored into reads the buffer's contents.
  unfold kernelRun0_C
  dsimp only
  sl_unfold_words
  simp only [View.readAt_eq_ld, h2.read_unread, h3.read_unread, h6.read_unread, h7.read_unread, h8.read_unread]
  -- The quotients' operands are loaded after this point's own slab stores into the weighted sums and the normalisers:
  -- a load of slab 1 reads slab 1's payload (`a1 x k m a`, `sl1 x k m l`), a load of slab 0 slab 0's (`a0 x k m a`, `sl0 x k m l`).
  rw [readCov_halves_one, readCov_halves_one, readCov_halves_zero, readCov_halves_zero]
  -- Slab 1's store over slab 0's, with payloads `q1 x k m l a` and `q0 x k m l a`: they leave the join.
  exact canon_halves _ _ _ _ []
/-- The running maxima. -/
theorem max_C (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : cond0_1 i)
    (x : Vec F S2x128x2560 .f32) (k : Vec F S2x128x128 .f32) (m l : Vec F S2x128x1 .f32) (a : Vec F S2x128x128 .f32) :
    sout0_C_0 c i a2 h2 a3 h3 a4 h4 a5 h5 a6 h6 a7 h7 a8 h8 hc0 hc1 x k m l a = join2 (sm0 x k m) (sm1 x k m) := by
  -- The run's stores into the buffer of maxima cover it, so what it holds is their canonical reading: at each position, the last store there.
  unfold sout0_C_0
  rw [View.read_writes_eq_canon _ _ _ (scover0_C_0 c i a2 h2 a3 h3 a4 h4 a5 h5 a6 h6 a7 h7 a8 h8 hc0 hc1 x k m l a)]
  -- The list of those stores, last first. A load from a whole buffer the point has not yet stored into reads the buffer's contents.
  unfold kernelRun0_C
  dsimp only
  sl_unfold_words
  simp only [View.readAt_eq_ld, h2.read_unread, h3.read_unread, h6.read_unread, h7.read_unread, h8.read_unread]
  -- Slab 1's store over slab 0's, with payloads `sm1 x k m` and `sm0 x k m`: they leave the join.
  exact canon_halves _ _ _ _ []
/-- The running normalisers. -/
theorem norm_C (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : cond0_1 i)
    (x : Vec F S2x128x2560 .f32) (k : Vec F S2x128x128 .f32) (m l : Vec F S2x128x1 .f32) (a : Vec F S2x128x128 .f32) :
    sout0_C_1 c i a2 h2 a3 h3 a4 h4 a5 h5 a6 h6 a7 h7 a8 h8 hc0 hc1 x k m l a = join2 (sl0 x k m l) (sl1 x k m l) := by
  -- The run's stores into the buffer of normalisers cover it, so what it holds is their canonical reading: at each position, the last store there.
  unfold sout0_C_1
  rw [View.read_writes_eq_canon _ _ _ (scover0_C_1 c i a2 h2 a3 h3 a4 h4 a5 h5 a6 h6 a7 h7 a8 h8 hc0 hc1 x k m l a)]
  -- The list of those stores, last first. A load from a whole buffer the point has not yet stored into reads the buffer's contents.
  unfold kernelRun0_C
  dsimp only
  sl_unfold_words
  simp only [View.readAt_eq_ld, h2.read_unread, h3.read_unread, h6.read_unread, h7.read_unread, h8.read_unread]
  -- Slab 1's store over slab 0's, with payloads `sl1 x k m l` and `sl0 x k m l`: they leave the join.
  exact canon_halves _ _ _ _ []
/-- The running weighted sums. -/
theorem acc_C (c : Dev nD) (i : grid0.Coords) (a2 : Memref sig .tc .vmem S2x128x2560 .f32) (h2 : a2.IsWhole) (a3 : Memref sig .tc .vmem S2x128x128 .f32) (h3 : a3.IsWhole) (a4 : Memref sig .tc .vmem S2x128x2560 .f32) (h4 : a4.IsWhole) (a5 : Memref sig .tc .vmem S2x128x128 .f32) (h5 : a5.IsWhole) (a6 : Memref sig .tc .vmem S2x128x1 .f32) (h6 : a6.IsWhole) (a7 : Memref sig .tc .vmem S2x128x1 .f32) (h7 : a7.IsWhole) (a8 : Memref sig .tc .vmem S2x128x128 .f32) (h8 : a8.IsWhole) (hc0 : ¬cond0_0 i) (hc1 : cond0_1 i)
    (x : Vec F S2x128x2560 .f32) (k : Vec F S2x128x128 .f32) (m l : Vec F S2x128x1 .f32) (a : Vec F S2x128x128 .f32) :
    sout0_C_2 c i a2 h2 a3 h3 a4 h4 a5 h5 a6 h6 a7 h7 a8 h8 hc0 hc1 x k m l a = join2 (a0 x k m a) (a1 x k m a) := by
  -- The run's stores into the buffer of weighted sums cover it, so what it holds is their canonical reading: at each position, the last store there.
  unfold sout0_C_2
  rw [View.read_writes_eq_canon _ _ _ (scover0_C_2 c i a2 h2 a3 h3 a4 h4 a5 h5 a6 h6 a7 h7 a8 h8 hc0 hc1 x k m l a)]
  -- The list of those stores, last first. A load from a whole buffer the point has not yet stored into reads the buffer's contents.
  unfold kernelRun0_C
  dsimp only
  sl_unfold_words
  simp only [View.readAt_eq_ld, h2.read_unread, h3.read_unread, h6.read_unread, h7.read_unread, h8.read_unread]
  -- Slab 1's store over slab 0's, with payloads `a1 x k m a` and `a0 x k m a`: they leave the join.
  exact canon_halves _ _ _ _ []

end Cert.KernelIdeal.Pieces

end
-- ==== Proof.Online.lean ====
/-
  The online form of a softmax-weighted sum, and the closed form it telescopes to.

  A row of scores arrives in `T` tiles of `C` columns. The streaming computation keeps three numbers: the largest score
  seen so far `m`, the sum `l` of `exp (score - m)` over the columns seen so far, and the sum `a` of
  `exp (score - m) * value`. A new tile with largest entry `μ` moves `m` to `m' = max m μ`, and rescales what was
  gathered by `exp (m - m')` before adding the tile's own terms, because `exp (s - m) * exp (m - m') = exp (s - m')`.
  From `m = -∞, l = 0, a = 0` the first tile's rescaling multiplies zero, so after the last tile
  `l = Σ exp (s - M)` and `a = Σ exp (s - M) * v` over ALL columns, `M` the largest score of the row, and `a / l` is the
  softmax-weighted sum `Σ (exp (s - M) / Σ exp (s' - M)) * v`: the quotient distributes over the finite sum because
  every term is a real number and the denominator is at least `exp 0 = 1`.
-/
import Idealize.ShloMosaic.PureOps.Ideal

noncomputable section

namespace OnlineSoftmax

open Idealize.ShloMosaic

variable {T C : ℕ}

/-- The largest entry of one tile, from `-∞`. -/
def tileMax (yt : Fin C → EReal) : EReal := (Finset.univ : Finset (Fin C)).fold max ⊥ yt

/-- The running maximum after one more tile. -/
def stepM (m : EReal) (yt : Fin C → EReal) : EReal := max m (tileMax yt)

/-- The running normaliser after one more tile: what was gathered, rescaled to the new maximum, plus the tile's terms. -/
def stepL (m l : EReal) (yt : Fin C → EReal) : EReal :=
  Ideal.exp (m - stepM m yt) * l + ∑ j : Fin C, Ideal.exp (yt j - stepM m yt)

/-- The running weighted sum after one more tile. -/
def stepA (m a : EReal) (yt xt : Fin C → EReal) : EReal :=
  Ideal.exp (m - stepM m yt) * a + ∑ j : Fin C, Ideal.exp (yt j - stepM m yt) * xt j

/-- The running maximum after tiles `0 … n`, started from `-∞`. -/
def runM (y : Fin T → Fin C → EReal) : (n : ℕ) → n < T → EReal
  | 0, h => stepM ⊥ (y ⟨0, h⟩)
  | n + 1, h => stepM (runM y n (Nat.lt_of_succ_lt h)) (y ⟨n + 1, h⟩)

/-- The running normaliser after tiles `0 … n`, started from `0`. -/
def runL (y : Fin T → Fin C → EReal) : (n : ℕ) → n < T → EReal
  | 0, h => stepL ⊥ 0 (y ⟨0, h⟩)
  | n + 1, h => stepL (runM y n (Nat.lt_of_succ_lt h)) (runL y n (Nat.lt_of_succ_lt h)) (y ⟨n + 1, h⟩)

/-- The running weighted sum after tiles `0 … n`, started from `0`. -/
def runA (y x : Fin T → Fin C → EReal) : (n : ℕ) → n < T → EReal
  | 0, h => stepA ⊥ 0 (y ⟨0, h⟩) (x ⟨0, h⟩)
  | n + 1, h => stepA (runM y n (Nat.lt_of_succ_lt h)) (runA y x n (Nat.lt_of_succ_lt h)) (y ⟨n + 1, h⟩) (x ⟨n + 1, h⟩)

/-! ### The maximum of a nonempty finite family of reals, taken from `-∞` -/

/-- A maximum taken from `-∞` over a nonempty finite family of reals is attained and bounds the family. -/
theorem fold_max_spec {ι : Type} [Fintype ι] [Nonempty ι] (f : ι → ℝ) :
    (∀ i, (f i : EReal) ≤ max ⊥ ((Finset.univ : Finset ι).fold max ⊥ fun i => (f i : EReal)))
      ∧ ∃ i, max ⊥ ((Finset.univ : Finset ι).fold max ⊥ fun i => (f i : EReal)) = (f i : EReal) := by
  -- `-∞` is the neutral element of `max`, so the outer `max ⊥ ·` is the identity.
  simp only [max_bot_left]
  constructor
  · -- Each member is one of the folded values, and a fold of `max` is above every value it folds.
    intro i
    exact (Finset.le_fold_max _).mpr (Or.inr ⟨i, Finset.mem_univ i, le_rfl⟩)
  · -- A nonempty finite family of reals has a largest member `f i₀`. The fold is below it because the start
    -- `-∞` and every folded value are, and above it because it folds `f i₀` itself.
    obtain ⟨i₀, -, hi₀⟩ := Finset.exists_max_image Finset.univ f Finset.univ_nonempty
    refine ⟨i₀, le_antisymm ?_ ?_⟩
    · exact (Finset.fold_max_le _).mpr ⟨bot_le, fun i hi => EReal.coe_le_coe_iff.mpr (hi₀ i hi)⟩
    · exact (Finset.le_fold_max _).mpr (Or.inr ⟨i₀, Finset.mem_univ i₀, le_rfl⟩)

/-! ### Real numbers inside the extended reals -/

/-- The inclusion of the reals in the extended reals is additive, so it carries a finite sum of reals to the sum of
    their inclusions (induction on the index set; the inductive step is additivity for two summands). -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest entry of a nonempty tile of real scores is one of the scores: it is a real number that bounds the tile
    and is attained in it. -/
private theorem tileMax_coe (hC : 0 < C) (yt : Fin C → ℝ) :
    ∃ μ : ℝ, tileMax (fun j => (yt j : EReal)) = (μ : EReal) ∧ (∀ j, yt j ≤ μ) ∧ ∃ j, μ = yt j := by
  haveI : Nonempty (Fin C) := ⟨⟨0, hC⟩⟩
  obtain ⟨hub, j₀, hj₀⟩ := fold_max_spec yt
  simp only [max_bot_left] at hub hj₀
  refine ⟨yt j₀, hj₀, fun j => ?_, j₀, rfl⟩
  have h := hub j
  rw [hj₀] at h
  exact EReal.coe_le_coe_iff.mp h

/-! ### One step of the streaming computation on real data -/

/-- THE FIRST TILE. From the empty state `m = -∞, l = 0, a = 0` the new maximum is the tile's own largest score `m'`
    (`max (-∞) μ = μ`); the rescaling factor is `exp (-∞ - m') = exp (-∞) = 0` and it multiplies the zero that was
    gathered, so only the tile's own terms remain. -/
private theorem step_bot (hC : 0 < C) (yt xt : Fin C → ℝ) :
    ∃ m' : ℝ, stepM ⊥ (fun j => (yt j : EReal)) = (m' : EReal)
      ∧ (∀ j, yt j ≤ m') ∧ (∃ j, m' = yt j)
      ∧ stepL ⊥ 0 (fun j => (yt j : EReal)) = ((∑ j, Real.exp (yt j - m') : ℝ) : EReal)
      ∧ stepA ⊥ 0 (fun j => (yt j : EReal)) (fun j => (xt j : EReal))
          = ((∑ j, Real.exp (yt j - m') * xt j : ℝ) : EReal) := by
  obtain ⟨μ, hμ, hub, hatt⟩ := tileMax_coe hC yt
  have hM : stepM ⊥ (fun j => (yt j : EReal)) = (μ : EReal) := by
    rw [stepM, hμ, max_bot_left]
  refine ⟨μ, hM, hub, hatt, ?_, ?_⟩
  · rw [stepL, hM, EReal.bot_sub, Ideal.exp_bot, mul_zero, zero_add]
    simp only [← EReal.coe_sub, Ideal.exp_coe, ← coe_sum]
  · rw [stepA, hM, EReal.bot_sub, Ideal.exp_bot, mul_zero, zero_add]
    simp only [← EReal.coe_sub, Ideal.exp_coe, ← EReal.coe_mul, ← coe_sum]

/-- A LATER TILE. From a real state `(m, l, a)` the new maximum `m' = max m μ` is again real, it is at least `m` and
    at least every score of the tile, and it is either the old maximum or a score of the tile. Every difference that
    is exponentiated is then a difference of reals, so the new `l` and `a` are the real numbers
    `exp (m - m') * l + Σ exp (y - m')` and `exp (m - m') * a + Σ exp (y - m') * x`. -/
private theorem step_coe (hC : 0 < C) (m l a : ℝ) (yt xt : Fin C → ℝ) :
    ∃ m' : ℝ, stepM (m : EReal) (fun j => (yt j : EReal)) = (m' : EReal)
      ∧ m ≤ m' ∧ (∀ j, yt j ≤ m') ∧ (m' = m ∨ ∃ j, m' = yt j)
      ∧ stepL (m : EReal) (l : EReal) (fun j => (yt j : EReal))
          = ((Real.exp (m - m') * l + ∑ j, Real.exp (yt j - m') : ℝ) : EReal)
      ∧ stepA (m : EReal) (a : EReal) (fun j => (yt j : EReal)) (fun j => (xt j : EReal))
          = ((Real.exp (m - m') * a + ∑ j, Real.exp (yt j - m') * xt j : ℝ) : EReal) := by
  obtain ⟨μ, hμ, hub, j₀, hj₀⟩ := tileMax_coe hC yt
  -- the inclusion of the reals is monotone, so it commutes with `max`
  have hM : stepM (m : EReal) (fun j => (yt j : EReal)) = ((max m μ : ℝ) : EReal) := by
    rw [stepM, hμ, EReal.coe_strictMono.monotone.map_max]
  refine ⟨max m μ, hM, le_max_left _ _, fun j => (hub j).trans (le_max_right _ _), ?_, ?_, ?_⟩
  · rcases le_total m μ with h | h
    · exact Or.inr ⟨j₀, by rw [max_eq_right h, hj₀]⟩
    · exact Or.inl (max_eq_left h)
  · rw [stepL, hM]
    simp only [← EReal.coe_sub, Ideal.exp_coe, ← EReal.coe_mul, ← coe_sum, ← EReal.coe_add]
  · rw [stepA, hM]
    simp only [← EReal.coe_sub, Ideal.exp_coe, ← EReal.coe_mul, ← coe_sum, ← EReal.coe_add]

/-! ### The rescaling law -/

/-- `exp (m - m') * exp (s - m) = exp (s - m')`: the exponential turns the sum `(m - m') + (s - m) = s - m'` into a
    product. This is why a term gathered against an old maximum `m` is moved to a new maximum `m'` by one factor. -/
private theorem exp_rescale (m m' s : ℝ) : Real.exp (m - m') * Real.exp (s - m) = Real.exp (s - m') := by
  rw [← Real.exp_add]
  congr 1
  ring

/-- The rescaling law summed over any set of tiles: the one factor distributes over the double sum. -/
private theorem rescale_sumL {ι : Type*} (s : Finset ι) (m m' : ℝ) (y : ι → Fin C → ℝ) :
    Real.exp (m - m') * ∑ t ∈ s, ∑ j, Real.exp (y t j - m) = ∑ t ∈ s, ∑ j, Real.exp (y t j - m') := by
  simp only [Finset.mul_sum, exp_rescale]

/-- The same with each term carrying its value as a further factor. -/
private theorem rescale_sumA {ι : Type*} (s : Finset ι) (m m' : ℝ) (y x : ι → Fin C → ℝ) :
    Real.exp (m - m') * ∑ t ∈ s, ∑ j, Real.exp (y t j - m) * x t j
      = ∑ t ∈ s, ∑ j, Real.exp (y t j - m') * x t j := by
  simp only [Finset.mul_sum, ← mul_assoc, exp_rescale]

/-! ### The tiles seen so far -/

/-- The tiles `0 … n` of a row of `T` tiles. -/
private def upTo (T n : ℕ) : Finset (Fin T) := Finset.univ.filter fun t => t.val ≤ n

/-- Only tile `0` is seen after the first step. -/
private theorem upTo_zero (h : 0 < T) : upTo T 0 = {⟨0, h⟩} := by
  ext t
  simp [upTo, Fin.ext_iff]

/-- One more step sees one more tile. -/
private theorem upTo_succ {n : ℕ} (h : n + 1 < T) : upTo T (n + 1) = insert ⟨n + 1, h⟩ (upTo T n) := by
  ext t
  simp only [upTo, Finset.mem_filter, Finset.mem_univ, true_and, Finset.mem_insert, Fin.ext_iff]
  omega

/-- The tile about to be read has not been seen. -/
private theorem not_mem_upTo {n : ℕ} (h : n + 1 < T) : (⟨n + 1, h⟩ : Fin T) ∉ upTo T n := by
  simp [upTo]

/-- After the last step every tile has been seen. -/
private theorem upTo_last (hT : 0 < T) : upTo T (T - 1) = Finset.univ := by
  ext t
  have := t.isLt
  simp only [upTo, Finset.mem_filter, Finset.mem_univ, true_and, iff_true]
  omega

/-! ### The closed form of the running state -/

/-- THE INVARIANT. After tiles `0 … n` the running maximum is a real `m` that bounds every score seen and is one of them,
    and the running sums are `l = Σ exp (s - m)` and `a = Σ exp (s - m) * v` over the scores `s` (values `v`) seen so far.
    Induction on `n`: the first tile is `step_bot`; a later tile is `step_coe`, whose factor `exp (m - m')` moves the sums
    gathered against `m` to the new maximum `m'` by the rescaling law, and whose own terms are the new tile's summand. -/
private theorem run_closed (hC : 0 < C) (Y X : Fin T → Fin C → ℝ) (n : ℕ) (h : n < T) :
    ∃ m : ℝ,
      runM (fun t j => (Y t j : EReal)) n h = (m : EReal)
      ∧ (∀ t : Fin T, t.val ≤ n → ∀ j, Y t j ≤ m)
      ∧ (∃ t : Fin T, t.val ≤ n ∧ ∃ j, m = Y t j)
      ∧ runL (fun t j => (Y t j : EReal)) n h = ((∑ t ∈ upTo T n, ∑ j, Real.exp (Y t j - m) : ℝ) : EReal)
      ∧ runA (fun t j => (Y t j : EReal)) (fun t j => (X t j : EReal)) n h
          = ((∑ t ∈ upTo T n, ∑ j, Real.exp (Y t j - m) * X t j : ℝ) : EReal) := by
  induction n with
  | zero =>
    obtain ⟨m, hM, hub, ⟨j₀, hj₀⟩, hL, hA⟩ := step_bot hC (Y ⟨0, h⟩) (X ⟨0, h⟩)
    refine ⟨m, hM, ?_, ⟨⟨0, h⟩, le_rfl, j₀, hj₀⟩, ?_, ?_⟩
    · intro t ht j
      have ht0 : t = ⟨0, h⟩ := Fin.ext (Nat.le_zero.mp ht)
      rw [ht0]
      exact hub j
    · rw [upTo_zero h, Finset.sum_singleton]
      exact hL
    · rw [upTo_zero h, Finset.sum_singleton]
      exact hA
  | succ n ih =>
    obtain ⟨m, hM, hub, ⟨t₀, ht₀, j₀, hj₀⟩, hL, hA⟩ := ih (Nat.lt_of_succ_lt h)
    obtain ⟨m', hM', hmm', hub', hatt', hL', hA'⟩ :=
      step_coe hC m (∑ t ∈ upTo T n, ∑ j, Real.exp (Y t j - m))
        (∑ t ∈ upTo T n, ∑ j, Real.exp (Y t j - m) * X t j) (Y ⟨n + 1, h⟩) (X ⟨n + 1, h⟩)
    refine ⟨m', ?_, ?_, ?_, ?_, ?_⟩
    · rw [runM, hM]
      exact hM'
    · -- a tile seen earlier is below the old maximum, which is below the new one; the new tile is below the new one
      intro t ht j
      rcases Nat.lt_or_ge n t.val with hlt | hle
      · have ht1 : t = ⟨n + 1, h⟩ := Fin.ext (by simp only; omega)
        rw [ht1]
        exact hub' j
      · exact (hub t hle j).trans hmm'
    · -- the new maximum is the old one, attained earlier, or a score of the new tile
      rcases hatt' with hm | ⟨j, hj⟩
      · exact ⟨t₀, Nat.le_succ_of_le ht₀, j₀, hm.trans hj₀⟩
      · exact ⟨⟨n + 1, h⟩, le_rfl, j, hj⟩
    · rw [runL, hM, hL, upTo_succ h, Finset.sum_insert (not_mem_upTo h), ← rescale_sumL (upTo T n) m m', add_comm (∑ j, Real.exp (Y ⟨n + 1, h⟩ j - m'))]
      exact hL'
    · rw [runA, hM, hA, upTo_succ h, Finset.sum_insert (not_mem_upTo h), ← rescale_sumA (upTo T n) m m',
        add_comm (∑ j, Real.exp (Y ⟨n + 1, h⟩ j - m') * X ⟨n + 1, h⟩ j)]
      exact hA'

/-! ### The quotient -/

/-- THE TELESCOPING. For real scores `Y` and real values `X`, with `M` the largest score of the row (it bounds every
    score and is one of them), the streaming quotient after the last tile is the softmax-weighted sum of the values. -/
theorem run_div_eq_softmax (hT : 0 < T) (hC : 0 < C) (Y X : Fin T → Fin C → ℝ) (M : EReal)
    (hub : ∀ t j, (Y t j : EReal) ≤ M) (hatt : ∃ t j, M = (Y t j : EReal)) :
    Ideal.div (runA (fun t j => (Y t j : EReal)) (fun t j => (X t j : EReal)) (T - 1) (Nat.sub_lt hT Nat.one_pos))
        (runL (fun t j => (Y t j : EReal)) (T - 1) (Nat.sub_lt hT Nat.one_pos))
      = ∑ t : Fin T, ∑ j : Fin C,
          Ideal.div (Ideal.exp ((Y t j : EReal) - M)) (0 + ∑ t' : Fin T, ∑ j' : Fin C, Ideal.exp ((Y t' j' : EReal) - M))
            * (X t j : EReal) := by
  -- The state after the last tile, in closed form over all tiles.
  obtain ⟨m, -, hub', ⟨t₁, -, j₁, hj₁⟩, hL, hA⟩ := run_closed hC Y X (T - 1) (Nat.sub_lt hT Nat.one_pos)
  rw [upTo_last hT] at hL hA
  -- The running maximum IS `M`: each of the two bounds every score and is a score, so each is below the other.
  obtain ⟨t₀, j₀, hM₀⟩ := hatt
  have hMm : M = (m : EReal) := by
    apply le_antisymm
    · rw [hM₀]
      exact EReal.coe_le_coe_iff.mpr (hub' t₀ (Nat.le_sub_one_of_lt t₀.isLt) j₀)
    · rw [hj₁]
      exact hub t₁ j₁
  -- The normaliser is a positive real: a nonempty sum of exponentials.
  have hLpos : 0 < ∑ t : Fin T, ∑ j : Fin C, Real.exp (Y t j - m) :=
    Finset.sum_pos (fun t _ => Finset.sum_pos (fun j _ => Real.exp_pos _) ⟨⟨0, hC⟩, Finset.mem_univ _⟩)
      ⟨⟨0, hT⟩, Finset.mem_univ _⟩
  -- The reference's normaliser is the same real.
  have hden : (0 : EReal) + ∑ t' : Fin T, ∑ j' : Fin C, Ideal.exp ((Y t' j' : EReal) - M)
      = ((∑ t : Fin T, ∑ j : Fin C, Real.exp (Y t j - m) : ℝ) : EReal) := by
    rw [zero_add, hMm]
    simp only [← EReal.coe_sub, Ideal.exp_coe, ← coe_sum]
  rw [hL, hA, hden, hMm]
  -- Division by a nonzero real is multiplication by its reciprocal; everything is now a real number.
  simp only [Ideal.div_coe hLpos.ne', ← EReal.coe_sub, Ideal.exp_coe, ← EReal.coe_mul, ← coe_sum]
  -- In the reals the reciprocal distributes over the double sum, term by term.
  rw [EReal.coe_eq_coe_iff, Finset.sum_mul]
  refine Finset.sum_congr rfl fun t _ => ?_
  rw [Finset.sum_mul]
  refine Finset.sum_congr rfl fun j _ => ?_
  ring

end OnlineSoftmax

end
-- ==== Proof.Spec.lean ====
/-
  What the two results are, as functions of the flattened feature map `xf` (8 batches × 128 features × 30720 columns) and the
  queries `K` (8 × 128 queries × 128 features).

  The ENERGY at (b, q, s) is the score of query `q` against column `s`: `Σ_e K[b,q,e] · xf[b,e,s]`.
  The SUMMARY at (b, q, e) is the softmax-over-columns weighted sum of feature `e`, written here the way it is gathered: the
  30720 columns come in 12 tiles of 2560, and the streaming maximum / normaliser / weighted sum of `OnlineSoftmax` are run over
  the tiles; the summary is the last weighted sum over the last normaliser. (That this equals the textbook
  `Σ_s softmax_s(score) · xf[b,e,s]` for real inputs is `OnlineSoftmax.run_div_eq_softmax`.)
-/
import proofs.«403087_j20770461844117_3_alg».proof.Proof.Online
import Idealize.ShloMosaic.Lib.ValueIdx

noncomputable section

namespace AttnSpec

open Idealize.ShloMosaic Idealize.ShloMosaic.ValueIdx

/-- Every entry is a real number (no `±∞`). -/
def RealValued {S : Shape} (f : S.Idx → EReal) : Prop := ∀ i, ∃ r : ℝ, f i = (r : EReal)

abbrev SXF : Shape := ⟨3, ![8, 128, 30720]⟩
abbrev SK : Shape := ⟨3, ![8, 128, 128]⟩

/-- Column `2560 · t + j`: column `j` of tile `t`. -/
def col (t : Fin 12) (j : Fin 2560) : Fin 30720 := ⟨2560 * t.val + j.val, by have := t.isLt; have := j.isLt; omega⟩

/-- The score of query `q` of batch `b` against column `s`. -/
def score (xf : SXF.Idx → EReal) (k : SK.Idx → EReal) (b : Fin 8) (q : Fin 128) (s : Fin 30720) : EReal :=
  ∑ e : Fin 128, k (ix3 b q e) * xf (ix3 b e s)

/-- The energy array. -/
def energy (xf : SXF.Idx → EReal) (k : SK.Idx → EReal) : SXF.Idx → EReal := fun i => score xf k (i 0) (i 1) (i 2)

/-- A row's scores, and one feature's values, tile by tile. -/
def scoreTiles (xf : SXF.Idx → EReal) (k : SK.Idx → EReal) (b : Fin 8) (q : Fin 128) : Fin 12 → Fin 2560 → EReal :=
  fun t j => score xf k b q (col t j)
def valueTiles (xf : SXF.Idx → EReal) (b : Fin 8) (e : Fin 128) : Fin 12 → Fin 2560 → EReal :=
  fun t j => xf (ix3 b e (col t j))

/-- The summary array: the streaming weighted sum over the streaming normaliser, after the twelfth tile. -/
def summary (xf : SXF.Idx → EReal) (k : SK.Idx → EReal) : SK.Idx → EReal := fun i =>
  Ideal.div (OnlineSoftmax.runA (scoreTiles xf k (i 0) (i 1)) (valueTiles xf (i 0) (i 2)) 11 (by decide))
    (OnlineSoftmax.runL (scoreTiles xf k (i 0) (i 1)) 11 (by decide))

/-! ## One block of two batches -/

/-- Within a block of two batches: the score of query `q` of half `h` against column `j` of the block. -/
def sc (x : (⟨3, ![2, 128, 2560]⟩ : Shape).Idx → EReal) (k : (⟨3, ![2, 128, 128]⟩ : Shape).Idx → EReal)
    (h : Fin 2) (q : Fin 128) (j : Fin 2560) : EReal :=
  ∑ e : Fin 128, k (ix3 h q e) * x (ix3 h e j)

end AttnSpec

end
-- ==== Proof.KPayScore.lean ====
/-
  The score tile, read at an index.

  The body stacks the two batches' query matrices into a block-diagonal 256 × 256 matrix (zeros off the diagonal), stacks the
  two feature tiles into 256 × 2560, splits each into a leading part and a remainder (at the extended reals the leading part
  is the value itself and the remainder is `v - v = 0` for a real `v`), and adds three products: leading × leading, leading ×
  remainder, remainder × leading. For real entries the last two vanish and the zero blocks contribute `0 · x = 0`, so rows
  0–127 of the sum are batch 0's scores `Σ_e K₀[q,e] · X₀[e,j]` and rows 128–255 batch 1's.
-/
import proofs.«403087_j20770461844117_3_alg».proof.Proof.Gen.KernelIdeal.Skeleton
import proofs.«403087_j20770461844117_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayScore

open Idealize.ShloMosaic Idealize.ShloMosaic.ValueIdx Idealize.SL.Sem
open Cert.KernelIdeal Cert.KernelIdeal.Gen AttnSpec OnlineSoftmax

/-! ## The operand indices of the 256 × 256 by 256 × 2560 product

The product contracts the left operand's axis 1 with the right operand's axis 0 and has no batch axes: at output index
(r, c) and contraction index k the left operand is read at (r, k) and the right at (k, c). -/

theorem lhs_dot_0 (i : S256x2560.Idx) (q : dot_S256x256_S256x2560_S256x2560_1_0_0_1_n_n.contr.Idx) :
    (dot_S256x256_S256x2560_S256x2560_1_0_0_1_n_n.lhsIdx i q 0).val = (i 0).val := by
  unfold DotDims.lhsIdx
  rw [dif_neg (show ¬(0 : Fin S256x256.rank) ∈ dot_S256x256_S256x2560_S256x2560_1_0_0_1_n_n.lhsBatch by decide),
    dif_pos (show (0 : Fin S256x256.rank) ∈ dot_S256x256_S256x2560_S256x2560_1_0_0_1_n_n.lhsNonContracting by decide)]
  rfl

theorem lhs_dot_1 (i : S256x2560.Idx) (q : dot_S256x256_S256x2560_S256x2560_1_0_0_1_n_n.contr.Idx) :
    (dot_S256x256_S256x2560_S256x2560_1_0_0_1_n_n.lhsIdx i q 1).val = (q ⟨0, by decide⟩).val :=
  dot_S256x256_S256x2560_S256x2560_1_0_0_1_n_n.lhsIdx_val_of_single rfl i q

theorem rhs_dot_0 (i : S256x2560.Idx) (q : dot_S256x256_S256x2560_S256x2560_1_0_0_1_n_n.contr.Idx) :
    (dot_S256x256_S256x2560_S256x2560_1_0_0_1_n_n.rhsIdx i q 0).val = (q ⟨0, by decide⟩).val :=
  dot_S256x256_S256x2560_S256x2560_1_0_0_1_n_n.rhsIdx_val_of_single rfl i q

theorem rhs_dot_1 (i : S256x2560.Idx) (q : dot_S256x256_S256x2560_S256x2560_1_0_0_1_n_n.contr.Idx) :
    (dot_S256x256_S256x2560_S256x2560_1_0_0_1_n_n.rhsIdx i q 1).val = (i 1).val := by
  unfold DotDims.rhsIdx
  rw [dif_neg (show ¬(1 : Fin S256x2560.rank) ∈ dot_S256x256_S256x2560_S256x2560_1_0_0_1_n_n.rhsBatch by decide),
    dif_pos (show (1 : Fin S256x2560.rank) ∈ dot_S256x256_S256x2560_S256x2560_1_0_0_1_n_n.rhsNonContracting by decide)]
  rfl

/-- The product into the zero accumulator, read at (r, c): the sum over the 256 contraction positions of the left operand's
    row r times the right operand's column c. -/
theorem matmul_ix2 {φ₁ φ₂ : FTy} (A : FVec Ideal S256x256 φ₁) (B : FVec Ideal S256x2560 φ₂) (r : Fin 256) (c : Fin 2560) :
    matmul dot_S256x256_S256x2560_S256x2560_1_0_0_1_n_n none A B (constant (F := Ideal) S256x2560 .f32 0x00000000#32) (ix2 r c)
      = ∑ k : Fin 256, A (ix2 r k) * B (ix2 k c) := by
  simp only [matmul]
  rw [Ideal.matmul_constant_zero_apply,
    ← Equiv.sum_comp (ValueIdx.contrEquiv1 dot_S256x256_S256x2560_S256x2560_1_0_0_1_n_n 256 rfl rfl).symm]
  refine Finset.sum_congr rfl fun k _ => ?_
  have hk := ValueIdx.contrEquiv1_symm_val dot_S256x256_S256x2560_S256x2560_1_0_0_1_n_n 256 rfl rfl k
  have el : dot_S256x256_S256x2560_S256x2560_1_0_0_1_n_n.lhsIdx (ix2 r c)
      ((ValueIdx.contrEquiv1 dot_S256x256_S256x2560_S256x2560_1_0_0_1_n_n 256 rfl rfl).symm k) = ix2 r k :=
    funext fun a => Fin.ext (by
      match a with
      | ⟨0, _⟩ => exact lhs_dot_0 _ _
      | ⟨1, _⟩ => exact (lhs_dot_1 _ _).trans hk)
  have er : dot_S256x256_S256x2560_S256x2560_1_0_0_1_n_n.rhsIdx (ix2 r c)
      ((ValueIdx.contrEquiv1 dot_S256x256_S256x2560_S256x2560_1_0_0_1_n_n 256 rfl rfl).symm k) = ix2 k c :=
    funext fun a => Fin.ext (by
      match a with
      | ⟨0, _⟩ => exact (rhs_dot_0 _ _).trans hk
      | ⟨1, _⟩ => exact rhs_dot_1 _ _)
  rw [el, er]

/-! ## The two stacked operands -/

/-- The f32 zero the body pads the query blocks with is the extended real `0`. -/
theorem zero_splat_apply (i : S128x128.Idx) :
    broadcast S128x128 (Scalar.ofBits (F := Ideal) .f32 0x00000000#32) i = (0 : EReal) := by
  rw [broadcast_apply]
  exact Ideal.ofBits_zero_f32

/-- The upper 128 × 256 block row: batch 0's queries, then 128 zero columns. -/
def krow0 (K0 : Vec Ideal S1x128x128 .f32) : FVec Ideal S128x256 .f32 :=
  concatenate S128x256 1 [⟨S128x128, shapeCast S128x128 K0 shapeCasts_S1x128x128_S128x128⟩,
    ⟨S128x128, broadcast S128x128 (Scalar.ofBits (F := Ideal) .f32 0x00000000#32)⟩] concatenates_S128x128_S128x128_S128x256_d1

/-- The lower 128 × 256 block row: 128 zero columns, then batch 1's queries. -/
def krow1 (K1 : Vec Ideal S1x128x128 .f32) : FVec Ideal S128x256 .f32 :=
  concatenate S128x256 1 [⟨S128x128, broadcast S128x128 (Scalar.ofBits (F := Ideal) .f32 0x00000000#32)⟩,
    ⟨S128x128, shapeCast S128x128 K1 shapeCasts_S1x128x128_S128x128⟩] concatenates_S128x128_S128x128_S128x256_d1

/-- The block-diagonal 256 × 256 query matrix: the upper block row above the lower. -/
def kblock (K0 K1 : Vec Ideal S1x128x128 .f32) : FVec Ideal S256x256 .f32 :=
  concatenate S256x256 0 [⟨S128x256, krow0 K0⟩, ⟨S128x256, krow1 K1⟩] concatenates_S128x256_S128x256_S256x256_d0

/-- Columns 0–127 of the upper block row are batch 0's queries. -/
theorem krow0_left (K0 : Vec Ideal S1x128x128 .f32) (q : Fin 128) (k : Fin 256) (e : Fin 128) (hk : k.val = e.val) :
    krow0 K0 (ix2 q k) = K0 (ix3 0 q e) := by
  unfold krow0
  refine (concatenate_pair_apply_left (t := S128x256) (s₁ := S128x128) (s₂ := S128x128) 1 _ _ concatenates_S128x128_S128x128_S128x256_d1 (ix2 q k) rfl (ix2 q e)
    (fun b => match b with
      | ⟨0, _⟩ => rfl
      | ⟨1, _⟩ => hk.symm)).trans ?_
  exact shapeCast_1ab_ab_apply K0 shapeCasts_S1x128x128_S128x128 q e

/-- Columns 128–255 of the upper block row are zero. -/
theorem krow0_right (K0 : Vec Ideal S1x128x128 .f32) (q : Fin 128) (k : Fin 256) (e : Fin 128) (hk : k.val = 128 + e.val) :
    krow0 K0 (ix2 q k) = 0 := by
  unfold krow0
  refine (concatenate_pair_apply_right (t := S128x256) (s₁ := S128x128) (s₂ := S128x128) 1 _ _ concatenates_S128x128_S128x128_S128x256_d1 (ix2 q k) rfl rfl (ix2 q e)
    (fun b => match b with
      | ⟨0, _⟩ => fun _ => rfl
      | ⟨1, _⟩ => fun h => absurd rfl h)
    (by show e.val + 128 = k.val; omega)).trans ?_
  exact zero_splat_apply _

/-- Columns 0–127 of the lower block row are zero. -/
theorem krow1_left (K1 : Vec Ideal S1x128x128 .f32) (q : Fin 128) (k : Fin 256) (e : Fin 128) (hk : k.val = e.val) :
    krow1 K1 (ix2 q k) = 0 := by
  unfold krow1
  refine (concatenate_pair_apply_left (t := S128x256) (s₁ := S128x128) (s₂ := S128x128) 1 _ _ concatenates_S128x128_S128x128_S128x256_d1 (ix2 q k) rfl (ix2 q e)
    (fun b => match b with
      | ⟨0, _⟩ => rfl
      | ⟨1, _⟩ => hk.symm)).trans ?_
  exact zero_splat_apply _

/-- Columns 128–255 of the lower block row are batch 1's queries. -/
theorem krow1_right (K1 : Vec Ideal S1x128x128 .f32) (q : Fin 128) (k : Fin 256) (e : Fin 128) (hk : k.val = 128 + e.val) :
    krow1 K1 (ix2 q k) = K1 (ix3 0 q e) := by
  unfold krow1
  refine (concatenate_pair_apply_right (t := S128x256) (s₁ := S128x128) (s₂ := S128x128) 1 _ _ concatenates_S128x128_S128x128_S128x256_d1 (ix2 q k) rfl rfl (ix2 q e)
    (fun b => match b with
      | ⟨0, _⟩ => fun _ => rfl
      | ⟨1, _⟩ => fun h => absurd rfl h)
    (by show e.val + 128 = k.val; omega)).trans ?_
  exact shapeCast_1ab_ab_apply K1 shapeCasts_S1x128x128_S128x128 q e

/-- Rows 0–127 of the block matrix are the upper block row. -/
theorem kblock_top (K0 K1 : Vec Ideal S1x128x128 .f32) (r : Fin 256) (q : Fin 128) (hr : r.val = q.val) (k : Fin 256) :
    kblock K0 K1 (ix2 r k) = krow0 K0 (ix2 q k) := by
  unfold kblock
  exact concatenate_pair_apply_left (t := S256x256) (s₁ := S128x256) (s₂ := S128x256) 0 _ _ concatenates_S128x256_S128x256_S256x256_d0 (ix2 r k) rfl (ix2 q k)
    (fun b => match b with
      | ⟨0, _⟩ => hr.symm
      | ⟨1, _⟩ => rfl)

/-- Rows 128–255 of the block matrix are the lower block row. -/
theorem kblock_bot (K0 K1 : Vec Ideal S1x128x128 .f32) (r : Fin 256) (q : Fin 128) (hr : r.val = 128 + q.val) (k : Fin 256) :
    kblock K0 K1 (ix2 r k) = krow1 K1 (ix2 q k) := by
  unfold kblock
  exact concatenate_pair_apply_right (t := S256x256) (s₁ := S128x256) (s₂ := S128x256) 0 _ _ concatenates_S128x256_S128x256_S256x256_d0 (ix2 r k) rfl rfl (ix2 q k)
    (fun b => match b with
      | ⟨0, _⟩ => fun h => absurd rfl h
      | ⟨1, _⟩ => fun _ => rfl)
    (by show q.val + 128 = r.val; omega)

/-- Rows 0–127 of the stacked feature tile are batch 0's features. -/
theorem pay8_top (X0 X1 : Vec Ideal S1x128x2560 .f32) (k : Fin 256) (e : Fin 128) (hk : k.val = e.val) (c : Fin 2560) :
    k0_pay8 X0 X1 (ix2 k c) = X0 (ix3 0 e c) := by
  unfold k0_pay8
  refine (concatenate_pair_apply_left (t := S256x2560) (s₁ := S128x2560) (s₂ := S128x2560) 0 _ _ concatenates_S128x2560_S128x2560_S256x2560_d0 (ix2 k c) rfl (ix2 e c)
    (fun b => match b with
      | ⟨0, _⟩ => hk.symm
      | ⟨1, _⟩ => rfl)).trans ?_
  exact shapeCast_1ab_ab_apply X0 shapeCasts_S1x128x2560_S128x2560 e c

/-- Rows 128–255 of the stacked feature tile are batch 1's features. -/
theorem pay8_bot (X0 X1 : Vec Ideal S1x128x2560 .f32) (k : Fin 256) (e : Fin 128) (hk : k.val = 128 + e.val) (c : Fin 2560) :
    k0_pay8 X0 X1 (ix2 k c) = X1 (ix3 0 e c) := by
  unfold k0_pay8
  refine (concatenate_pair_apply_right (t := S256x2560) (s₁ := S128x2560) (s₂ := S128x2560) 0 _ _ concatenates_S128x2560_S128x2560_S256x2560_d0 (ix2 k c) rfl rfl (ix2 e c)
    (fun b => match b with
      | ⟨0, _⟩ => fun h => absurd rfl h
      | ⟨1, _⟩ => fun _ => rfl)
    (by show e.val + 128 = k.val; omega)).trans ?_
  exact shapeCast_1ab_ab_apply X1 shapeCasts_S1x128x2560_S128x2560 e c

/-! ## The three products, and what is left of them at real entries -/

/-- Position `e` among the first 128, and among the last 128, of the 256 contraction positions. -/
abbrev lo (e : Fin 128) : Fin 256 := ⟨e.val, by have := e.isLt; omega⟩
abbrev hi (e : Fin 128) : Fin 256 := ⟨128 + e.val, by have := e.isLt; omega⟩

/-- A sum over the 256 contraction positions is the sum over the first 128 plus the sum over the last 128. -/
theorem sum_fin256 (f : Fin 256 → EReal) : ∑ k : Fin 256, f k = ∑ e : Fin 128, f (lo e) + ∑ e : Fin 128, f (hi e) :=
  Fin.sum_univ_add (a := 128) (b := 128) f

/-- A real number less itself is zero (at `±∞` the difference would not be). -/
theorem sub_self_of_real (x : EReal) (h : ∃ r : ℝ, x = (r : EReal)) : x - x = 0 := by
  obtain ⟨r, rfl⟩ := h
  rw [← EReal.coe_sub, sub_self, EReal.coe_zero]

/-- The stacked feature tile has real entries when both batches' tiles do. -/
theorem pay8_real (X0 X1 : Vec Ideal S1x128x2560 .f32) (hX0 : RealValued X0) (hX1 : RealValued X1) (k : Fin 256) (c : Fin 2560) :
    ∃ x : ℝ, k0_pay8 X0 X1 (ix2 k c) = (x : EReal) := by
  by_cases h : k.val < 128
  · rw [pay8_top X0 X1 k ⟨k.val, h⟩ rfl c]
    exact hX0 _
  · rw [pay8_bot X0 X1 k ⟨k.val - 128, by have := k.isLt; omega⟩ (by show k.val = 128 + (k.val - 128); omega) c]
    exact hX1 _

/-- The block-diagonal query matrix has real entries when both batches' queries do: each entry is a query entry or zero. -/
theorem kblock_real (K0 K1 : Vec Ideal S1x128x128 .f32) (hK0 : RealValued K0) (hK1 : RealValued K1) (r k : Fin 256) :
    ∃ x : ℝ, kblock K0 K1 (ix2 r k) = (x : EReal) := by
  have hk' := k.isLt
  have hr' := r.isLt
  by_cases hr : r.val < 128
  · rw [kblock_top K0 K1 r ⟨r.val, hr⟩ rfl k]
    by_cases hk : k.val < 128
    · rw [krow0_left K0 _ k ⟨k.val, hk⟩ rfl]
      exact hK0 _
    · rw [krow0_right K0 _ k ⟨k.val - 128, by omega⟩ (by show k.val = 128 + (k.val - 128); omega)]
      exact ⟨0, EReal.coe_zero.symm⟩
  · rw [kblock_bot K0 K1 r ⟨r.val - 128, by omega⟩ (by show r.val = 128 + (r.val - 128); omega) k]
    by_cases hk : k.val < 128
    · rw [krow1_left K1 _ k ⟨k.val, hk⟩ rfl]
      exact ⟨0, EReal.coe_zero.symm⟩
    · rw [krow1_right K1 _ k ⟨k.val - 128, by omega⟩ (by show k.val = 128 + (k.val - 128); omega)]
      exact hK1 _

/-- The score payload spelt over the two stacked operands: the leading parts' product, plus the leading query part times the
    feature remainder, plus the query remainder times the leading feature part. -/
theorem pay11_eq (X0 X1 : Vec Ideal S1x128x2560 .f32) (K0 K1 : Vec Ideal S1x128x128 .f32) :
    k0_pay11 X0 X1 K0 K1
      = addf (addf
          (matmul dot_S256x256_S256x2560_S256x2560_1_0_0_1_n_n none (truncf .bf16 (kblock K0 K1) bitsLt_bf16_f32)
            (k0_pay9 X0 X1) (constant (F := Ideal) S256x2560 .f32 0x00000000#32))
          (matmul dot_S256x256_S256x2560_S256x2560_1_0_0_1_n_n none (truncf .bf16 (kblock K0 K1) bitsLt_bf16_f32)
            (k0_pay10 X0 X1) (constant (F := Ideal) S256x2560 .f32 0x00000000#32)))
          (matmul dot_S256x256_S256x2560_S256x2560_1_0_0_1_n_n none
            (truncf .bf16 (subf (kblock K0 K1) (kblock K0 K1)) bitsLt_bf16_f32)
            (k0_pay9 X0 X1) (constant (F := Ideal) S256x2560 .f32 0x00000000#32)) := rfl

/-- The leading part of the feature tile is the tile itself; -/
theorem pay9_apply (X0 X1 : Vec Ideal S1x128x2560 .f32) (i : S256x2560.Idx) : k0_pay9 X0 X1 i = k0_pay8 X0 X1 i := rfl

/-- its remainder is the tile less itself. -/
theorem pay10_apply (X0 X1 : Vec Ideal S1x128x2560 .f32) (i : S256x2560.Idx) :
    k0_pay10 X0 X1 i = k0_pay8 X0 X1 i - k0_pay8 X0 X1 i := rfl

/-- At real entries both remainders vanish, so the two mixed products are sums of zeros and the payload at (r, c) is the one
    product `Σ_k kblock[r, k] · stacked features[k, c]`. -/
theorem pay11_apply (X0 X1 : Vec Ideal S1x128x2560 .f32) (K0 K1 : Vec Ideal S1x128x128 .f32)
    (hX0 : RealValued X0) (hX1 : RealValued X1) (hK0 : RealValued K0) (hK1 : RealValued K1) (r : Fin 256) (c : Fin 2560) :
    k0_pay11 X0 X1 K0 K1 (ix2 r c) = ∑ k : Fin 256, kblock K0 K1 (ix2 r k) * k0_pay8 X0 X1 (ix2 k c) := by
  rw [pay11_eq, addf_apply, addf_apply, matmul_ix2, matmul_ix2, matmul_ix2]
  have h2 : ∑ k : Fin 256, (truncf .bf16 (kblock K0 K1) bitsLt_bf16_f32 : FVec Ideal S256x256 .bf16) (ix2 r k)
      * k0_pay10 X0 X1 (ix2 k c) = 0 :=
    Finset.sum_eq_zero fun k _ => by
      rw [pay10_apply, sub_self_of_real _ (pay8_real X0 X1 hX0 hX1 k c), mul_zero]
  have h3 : ∑ k : Fin 256, (truncf .bf16 (subf (kblock K0 K1) (kblock K0 K1)) bitsLt_bf16_f32 : FVec Ideal S256x256 .bf16) (ix2 r k)
      * k0_pay9 X0 X1 (ix2 k c) = 0 :=
    Finset.sum_eq_zero fun k _ => by
      rw [truncf_apply, subf_apply, sub_self_of_real _ (kblock_real K0 K1 hK0 hK1 r k), zero_mul]
  rw [h2, h3, add_zero, add_zero]
  rfl

/-! ## The two row halves -/

/-- Rows 0–127: batch 0's scores. -/
theorem pay12_apply (X0 X1 : Vec Ideal S1x128x2560 .f32) (K0 K1 : Vec Ideal S1x128x128 .f32)
    (hX0 : RealValued X0) (hX1 : RealValued X1) (hK0 : RealValued K0) (hK1 : RealValued K1) (q : Fin 128) (j : Fin 2560) :
    k0_pay12 X0 X1 K0 K1 (ix2 q j) = ∑ e : Fin 128, K0 (ix3 0 q e) * X0 (ix3 0 e j) := by
  unfold k0_pay12
  refine (slice2_axis0_apply 0 (k0_pay11 X0 X1 K0 K1) slices_S256x2560_o0_0_S128x2560 q j (lo q) (Nat.zero_add _).symm).trans ?_
  rw [pay11_apply X0 X1 K0 K1 hX0 hX1 hK0 hK1, sum_fin256]
  -- the first 128 positions meet batch 0's queries and features
  have h1 : ∑ e : Fin 128, kblock K0 K1 (ix2 (lo q) (lo e)) * k0_pay8 X0 X1 (ix2 (lo e) j)
      = ∑ e : Fin 128, K0 (ix3 0 q e) * X0 (ix3 0 e j) :=
    Finset.sum_congr rfl fun e _ => by
      rw [kblock_top K0 K1 (lo q) q rfl, krow0_left K0 q (lo e) e rfl, pay8_top X0 X1 (lo e) e rfl]
  -- the last 128 meet the zero block
  have h2 : ∑ e : Fin 128, kblock K0 K1 (ix2 (lo q) (hi e)) * k0_pay8 X0 X1 (ix2 (hi e) j) = 0 :=
    Finset.sum_eq_zero fun e _ => by
      rw [kblock_top K0 K1 (lo q) q rfl, krow0_right K0 q (hi e) e rfl, zero_mul]
  rw [h1, h2, add_zero]

/-- Rows 128–255: batch 1's scores. -/
theorem pay13_apply (X0 X1 : Vec Ideal S1x128x2560 .f32) (K0 K1 : Vec Ideal S1x128x128 .f32)
    (hX0 : RealValued X0) (hX1 : RealValued X1) (hK0 : RealValued K0) (hK1 : RealValued K1) (q : Fin 128) (j : Fin 2560) :
    k0_pay13 X0 X1 K0 K1 (ix2 q j) = ∑ e : Fin 128, K1 (ix3 0 q e) * X1 (ix3 0 e j) := by
  unfold k0_pay13
  refine (slice2_axis0_apply 128 (k0_pay11 X0 X1 K0 K1) slices_S256x2560_o128_0_S128x2560 q j (hi q) rfl).trans ?_
  rw [pay11_apply X0 X1 K0 K1 hX0 hX1 hK0 hK1, sum_fin256]
  -- the first 128 positions meet the zero block
  have h1 : ∑ e : Fin 128, kblock K0 K1 (ix2 (hi q) (lo e)) * k0_pay8 X0 X1 (ix2 (lo e) j) = 0 :=
    Finset.sum_eq_zero fun e _ => by
      rw [kblock_bot K0 K1 (hi q) q rfl, krow1_left K1 q (lo e) e rfl, zero_mul]
  -- the last 128 meet batch 1's queries and features
  have h2 : ∑ e : Fin 128, kblock K0 K1 (ix2 (hi q) (hi e)) * k0_pay8 X0 X1 (ix2 (hi e) j)
      = ∑ e : Fin 128, K1 (ix3 0 q e) * X1 (ix3 0 e j) :=
    Finset.sum_congr rfl fun e _ => by
      rw [kblock_bot K0 K1 (hi q) q rfl, krow1_right K1 q (hi e) e rfl, pay8_bot X0 X1 (hi e) e rfl]
  rw [h1, h2, zero_add]

/-- The energy payloads are the score tiles with a leading unit axis. -/
theorem pay14_apply (X0 X1 : Vec Ideal S1x128x2560 .f32) (K0 K1 : Vec Ideal S1x128x128 .f32) (q : Fin 128) (j : Fin 2560) :
    k0_pay14 X0 X1 K0 K1 (ix3 0 q j) = k0_pay12 X0 X1 K0 K1 (ix2 q j) := by
  unfold k0_pay14
  exact shapeCast_ab_1ab_apply (k0_pay12 X0 X1 K0 K1) shapeCasts_S128x2560_S1x128x2560 0 q j

theorem pay15_apply (y : FVec Ideal S128x2560 .f32) (q : Fin 128) (j : Fin 2560) :
    k0_pay15 y (ix3 0 q j) = y (ix2 q j) := by
  unfold k0_pay15
  exact shapeCast_ab_1ab_apply y shapeCasts_S128x2560_S1x128x2560 0 q j

end Cert.KernelIdeal.PayScore

end
-- ==== Proof.KPaySoft.lean ====
/-
  The streaming-softmax step of one half, read at an index, over an abstract score tile `y` (128 queries × 2560 columns).

  With `M`, `L` the half's carried maxima and normalisers (1 × 128 × 1): the new maximum of row `q` is
  `max M[q] (max_j y[q,j])` (the row maximum taken from `-∞`), the rescaling factor `exp (M[q] - new)`, the exponentials
  `exp (y[q,j] - new)`, the new normaliser `factor · L[q] + Σ_j exp (y[q,j] - new)` — `OnlineSoftmax.stepM` / `stepL` of the row.
  The two halves run the same operations under different payload names. An exponential of a real score minus a maximum that
  is at least that score is a real number in [0, 1], whatever the carried maximum was.
-/
import proofs.«403087_j20770461844117_3_alg».proof.Proof.Gen.KernelIdeal.Skeleton
import proofs.«403087_j20770461844117_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PaySoft

open Idealize.ShloMosaic Idealize.ShloMosaic.ValueIdx Idealize.SL.Sem
open Cert.KernelIdeal Cert.KernelIdeal.Gen AttnSpec OnlineSoftmax

/-- The scores of row `q`, as a tile. -/
abbrev row (y : FVec Ideal S128x2560 .f32) (q : Fin 128) : Fin 2560 → EReal := fun j => y (ix2 q j)

/-! ## Columns: a vector stood up as a column, a column spread over a row, a leading unit axis -/

section Layout
variable {α : Type}

/-- A vector of `a` entries cast to a column `[a, 1]` reads, at `(i, u)`, the vector's entry `i`: both sit at row-major
    position `i`, since `i · 1 + 0 = i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column's entry of row `i`: the row
    coordinate is kept (also when `a = 1`, where it can only be `0`), the unit axis is read at `0`. -/
private theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The carried column of a half, `[1, 128, 1]` viewed `[128, 1]`: entry `(q, 0)` is entry `(0, q, 0)`. -/
private theorem carried_apply (M : Vec Ideal S1x128x1 .f32) (q : Fin 128) :
    shapeCast S128x1 M shapeCasts_S1x128x1_S128x1 (ix2 q 0) = M (ix3 0 q 0) :=
  shapeCast_1ab_ab_apply M shapeCasts_S1x128x1_S128x1 q 0

/-! ## The two accumulator words, and the two row reductions -/

/-- The word `0xFF800000`: sign set, exponent all ones, fraction zero — the single-precision `-∞`. -/
private theorem negInf_f32 : Ideal.ofBits .f32 0xFF800000#32 = (⊥ : EReal) := by
  simp [Ideal.ofBits, Ideal.ieee]

/-- The reduced index `q` with column `k` put back is `(q, k)`. -/
private theorem lift_row (q : Fin 128) (k : Fin 2560) : reduces_S128x2560_S128.lift (ix1 q) k = ix2 q k :=
  funext fun a => Fin.ext (by match a with | ⟨0, _⟩ => rfl | ⟨1, _⟩ => rfl)

/-- The maximum over the columns, started from `-∞`, at row `q`: the largest entry of the row. -/
private theorem rowMax_apply (y : FVec Ideal S128x2560 .f32) (q : Fin 128) :
    multiReduction (F := Ideal) .maximumf [1] S128 y 0xFF800000#32 reduces_S128x2560_S128 (.inl rfl) rfl (ix1 q)
      = tileMax (row y q) := by
  refine (Ideal.multiReduction_maximumf_single y _ reduces_S128x2560_S128 _ _ (ix1 q)).trans ?_
  rw [Ideal.ofBits_def, negInf_f32]
  show Finset.fold max ⊥ (y ∘ reduces_S128x2560_S128.lift (ix1 q)) (Finset.univ : Finset (Fin 2560))
    = Finset.fold max ⊥ (row y q) Finset.univ
  exact congrArg (fun f => Finset.fold max ⊥ f (Finset.univ : Finset (Fin 2560))) (funext fun k => congrArg y (lift_row q k))

/-- The sum over the columns, started from `0`, at row `q`: the sum of the row's entries. -/
private theorem rowSum_apply (e : FVec Ideal S128x2560 .f32) (q : Fin 128) :
    multiReduction (F := Ideal) .add [1] S128 e 0x00000000#32 reduces_S128x2560_S128 (.inl rfl) rfl (ix1 q)
      = ∑ j : Fin 2560, e (ix2 q j) := by
  refine (Ideal.multiReduction_add_single e _ reduces_S128x2560_S128 _ _ (ix1 q)).trans ?_
  show ∑ k : Fin 2560, e (reduces_S128x2560_S128.lift (ix1 q) k) = ∑ j : Fin 2560, e (ix2 q j)
  exact Finset.sum_congr rfl fun k _ => congrArg e (lift_row q k)

/-! ## The new maximum, the rescaling factor, the exponentials -/

/-- The new maximum of row `q`: the larger of the carried one and the row's largest score. -/
theorem pay21_apply (y : FVec Ideal S128x2560 .f32) (M : Vec Ideal S1x128x1 .f32) (q : Fin 128) :
    k0_pay21 y M (ix2 q 0) = stepM (M (ix3 0 q 0)) (row y q) := by
  show max (shapeCast S128x1 M shapeCasts_S1x128x1_S128x1 (ix2 q 0))
      (shapeCast S128x1 (multiReduction (F := Ideal) .maximumf [1] S128 y 0xFF800000#32 reduces_S128x2560_S128 (.inl rfl) rfl)
        shapeCasts_S128_S128x1 (ix2 q 0))
    = max (M (ix3 0 q 0)) (tileMax (row y q))
  rw [carried_apply, shapeCast_a_a1_apply, rowMax_apply]
theorem pay22_apply (y : FVec Ideal S128x2560 .f32) (M : Vec Ideal S1x128x1 .f32) (q : Fin 128) :
    k0_pay22 y M (ix2 q 0) = stepM (M (ix3 0 q 0)) (row y q) := by
  show max (shapeCast S128x1 M shapeCasts_S1x128x1_S128x1 (ix2 q 0))
      (shapeCast S128x1 (multiReduction (F := Ideal) .maximumf [1] S128 y 0xFF800000#32 reduces_S128x2560_S128 (.inl rfl) rfl)
        shapeCasts_S128_S128x1 (ix2 q 0))
    = max (M (ix3 0 q 0)) (tileMax (row y q))
  rw [carried_apply, shapeCast_a_a1_apply, rowMax_apply]

/-- The rescaling factor of row `q`: the exponential of the carried maximum minus the new one. -/
theorem pay23_apply (y : FVec Ideal S128x2560 .f32) (M : Vec Ideal S1x128x1 .f32) (q : Fin 128) :
    k0_pay23 y M (ix2 q 0) = Ideal.exp (M (ix3 0 q 0) - stepM (M (ix3 0 q 0)) (row y q)) := by
  show Ideal.exp (shapeCast S128x1 M shapeCasts_S1x128x1_S128x1 (ix2 q 0) - k0_pay21 y M (ix2 q 0)) = _
  rw [carried_apply, pay21_apply]
theorem pay24_apply (y : FVec Ideal S128x2560 .f32) (M : Vec Ideal S1x128x1 .f32) (q : Fin 128) :
    k0_pay24 y M (ix2 q 0) = Ideal.exp (M (ix3 0 q 0) - stepM (M (ix3 0 q 0)) (row y q)) := by
  show Ideal.exp (shapeCast S128x1 M shapeCasts_S1x128x1_S128x1 (ix2 q 0) - k0_pay22 y M (ix2 q 0)) = _
  rw [carried_apply, pay22_apply]

/-- The exponentials: each score minus its row's new maximum (the column of maxima spread over the row), exponentiated. -/
theorem pay25_apply (y : FVec Ideal S128x2560 .f32) (M : Vec Ideal S1x128x1 .f32) (q : Fin 128) (j : Fin 2560) :
    k0_pay25 y M (ix2 q j) = Ideal.exp (y (ix2 q j) - stepM (M (ix3 0 q 0)) (row y q)) := by
  show Ideal.exp (y (ix2 q j) - broadcastTo S128x2560 (k0_pay21 y M) broadcasts_S128x1_S128x2560 (ix2 q j)) = _
  rw [broadcastTo_a1_ab_apply, pay21_apply]
theorem pay26_apply (y : FVec Ideal S128x2560 .f32) (M : Vec Ideal S1x128x1 .f32) (q : Fin 128) (j : Fin 2560) :
    k0_pay26 y M (ix2 q j) = Ideal.exp (y (ix2 q j) - stepM (M (ix3 0 q 0)) (row y q)) := by
  show Ideal.exp (y (ix2 q j) - broadcastTo S128x2560 (k0_pay22 y M) broadcasts_S128x1_S128x2560 (ix2 q j)) = _
  rw [broadcastTo_a1_ab_apply, pay22_apply]

/-- Every score of a row is at most the row's new maximum: it is at most the row's largest score. -/
private theorem le_stepM (m : EReal) (yt : Fin 2560 → EReal) (j : Fin 2560) : yt j ≤ stepM m yt :=
  le_max_of_le_right ((Finset.le_fold_max (yt j)).2 (Or.inr ⟨j, Finset.mem_univ j, le_rfl⟩))

/-- The exponential of a real number `r` minus a bound `m ≥ r` is real: `m` is not `-∞`; if it is `+∞` the difference is
    `-∞`, whose exponential is `0`; if it is a real number the difference is real and so is its exponential. -/
private theorem exp_sub_real (r : ℝ) (m : EReal) (h : (r : EReal) ≤ m) : ∃ s : ℝ, Ideal.exp ((r : EReal) - m) = (s : EReal) := by
  induction m using EReal.rec with
  | bot => exact absurd (le_bot_iff.1 h) (EReal.coe_ne_bot r)
  | top => exact ⟨0, by rw [EReal.sub_top, Ideal.exp_bot, EReal.coe_zero]⟩
  | coe c => exact ⟨Real.exp (r - c), by rw [← EReal.coe_sub, Ideal.exp_coe]⟩

/-- For a real score tile, the exponential of a score minus its row's new maximum is real, whatever the carried maximum:
    the new maximum is at least the score. -/
private theorem exp_row_real (y : FVec Ideal S128x2560 .f32) (hy : RealValued y) (m : EReal) (q : Fin 128) (j : Fin 2560) :
    ∃ r : ℝ, Ideal.exp (y (ix2 q j) - stepM m (row y q)) = (r : EReal) := by
  obtain ⟨r, hr⟩ := hy (ix2 q j)
  have hle : y (ix2 q j) ≤ stepM m (row y q) := le_stepM m (row y q) j
  rw [hr] at hle ⊢
  exact exp_sub_real r _ hle

/-- The exponentials of a real score tile are real, whatever the carried maxima. -/
theorem pay25_real (y : FVec Ideal S128x2560 .f32) (M : Vec Ideal S1x128x1 .f32) (hy : RealValued y) : RealValued (k0_pay25 y M) := by
  intro i
  obtain ⟨r, hr⟩ := exp_row_real y hy (M (ix3 0 (i 0) 0)) (i 0) (i 1)
  refine ⟨r, ?_⟩
  rw [eq_ix2 (n0 := 128) (n1 := 2560) i]
  exact (pay25_apply y M (i 0) (i 1)).trans hr
theorem pay26_real (y : FVec Ideal S128x2560 .f32) (M : Vec Ideal S1x128x1 .f32) (hy : RealValued y) : RealValued (k0_pay26 y M) := by
  intro i
  obtain ⟨r, hr⟩ := exp_row_real y hy (M (ix3 0 (i 0) 0)) (i 0) (i 1)
  refine ⟨r, ?_⟩
  rw [eq_ix2 (n0 := 128) (n1 := 2560) i]
  exact (pay26_apply y M (i 0) (i 1)).trans hr

/-! ## The new normaliser -/

/-- Half 0's spelling. -/
theorem norm0_apply (y : FVec Ideal S128x2560 .f32) (M L : Vec Ideal S1x128x1 .f32) (q : Fin 128) :
    k0_pay29 (k0_pay27 y M L) (k0_pay28 y M) (ix2 q 0) = stepL (M (ix3 0 q 0)) (L (ix3 0 q 0)) (row y q) := by
  show k0_pay23 y M (ix2 q 0) * shapeCast S128x1 L shapeCasts_S1x128x1_S128x1 (ix2 q 0)
      + shapeCast S128x1 (multiReduction (F := Ideal) .add [1] S128 (k0_pay25 y M) 0x00000000#32 reduces_S128x2560_S128 (.inl rfl) rfl)
          shapeCasts_S128_S128x1 (ix2 q 0)
    = Ideal.exp (M (ix3 0 q 0) - stepM (M (ix3 0 q 0)) (row y q)) * L (ix3 0 q 0)
      + ∑ j : Fin 2560, Ideal.exp (y (ix2 q j) - stepM (M (ix3 0 q 0)) (row y q))
  rw [pay23_apply, carried_apply, shapeCast_a_a1_apply, rowSum_apply]
  exact congrArg (_ + ·) (Finset.sum_congr rfl fun j _ => pay25_apply y M q j)
/-- Half 1's spelling. -/
theorem norm1_apply (y : FVec Ideal S128x2560 .f32) (M L : Vec Ideal S1x128x1 .f32) (q : Fin 128) :
    k0_pay30 (k0_pay19 L) (k0_pay24 y M) (k0_pay26 y M) (ix2 q 0) = stepL (M (ix3 0 q 0)) (L (ix3 0 q 0)) (row y q) := by
  show k0_pay24 y M (ix2 q 0) * shapeCast S128x1 L shapeCasts_S1x128x1_S128x1 (ix2 q 0)
      + shapeCast S128x1 (multiReduction (F := Ideal) .add [1] S128 (k0_pay26 y M) 0x00000000#32 reduces_S128x2560_S128 (.inl rfl) rfl)
          shapeCasts_S128_S128x1 (ix2 q 0)
    = Ideal.exp (M (ix3 0 q 0) - stepM (M (ix3 0 q 0)) (row y q)) * L (ix3 0 q 0)
      + ∑ j : Fin 2560, Ideal.exp (y (ix2 q j) - stepM (M (ix3 0 q 0)) (row y q))
  rw [pay24_apply, carried_apply, shapeCast_a_a1_apply, rowSum_apply]
  exact congrArg (_ + ·) (Finset.sum_congr rfl fun j _ => pay26_apply y M q j)

/-! ## The stores' payloads: the same columns with a leading unit axis -/

theorem pay34_apply (v : FVec Ideal S128x1 .f32) (q : Fin 128) : k0_pay34 v (ix3 0 q 0) = v (ix2 q 0) :=
  shapeCast_ab_1ab_apply v shapeCasts_S128x1_S1x128x1 0 q 0
theorem pay35_apply (v : FVec Ideal S128x1 .f32) (q : Fin 128) : k0_pay35 v (ix3 0 q 0) = v (ix2 q 0) :=
  shapeCast_ab_1ab_apply v shapeCasts_S128x1_S1x128x1 0 q 0
theorem pay1_apply (v : FVec Ideal S128x1 .f32) (q : Fin 128) : k0_pay1 v (ix3 0 q 0) = v (ix2 q 0) :=
  shapeCast_ab_1ab_apply v shapeCasts_S128x1_S1x128x1 0 q 0
theorem pay2_apply (v : FVec Ideal S128x1 .f32) (q : Fin 128) : k0_pay2 v (ix3 0 q 0) = v (ix2 q 0) :=
  shapeCast_ab_1ab_apply v shapeCasts_S128x1_S1x128x1 0 q 0

/-! ## The reset: `-∞`, `0`, `0` -/

/-- A splat read through a cast to its own shape is the splatted word's value at every index. -/
theorem pay5_apply (i : S2x128x1.Idx) : (k0_pay5 (F := Ideal)) i = (⊥ : EReal) :=
  (show (k0_pay5 (F := Ideal)) i = Ideal.ofBits .f32 0xFF800000#32 from rfl).trans negInf_f32
theorem pay6_apply (i : S2x128x1.Idx) : (k0_pay6 (F := Ideal)) i = (0 : EReal) :=
  (show (k0_pay6 (F := Ideal)) i = Ideal.ofBits .f32 0x00000000#32 from rfl).trans Ideal.ofBits_zero_f32
theorem pay7_apply (i : S2x128x128.Idx) : (k0_pay7 (F := Ideal)) i = (0 : EReal) :=
  (show (k0_pay7 (F := Ideal)) i = Ideal.ofBits .f32 0x00000000#32 from rfl).trans Ideal.ofBits_zero_f32

end Cert.KernelIdeal.PaySoft

end
-- ==== Proof.KPayAcc.lean ====
/-
  The weighted sums and the final quotient, read at an index.

  The body stacks the two halves' exponentials into 256 × 2560, splits the stack into a leading part and a remainder as it did
  the features (for real entries the remainder is `0`), and adds three products against the stacked feature tiles, contracting
  the 2560 columns: a 256 × 256 matrix whose top-left 128 × 128 block is `Σ_j p₀[q,j] · X₀[e,j]` and whose bottom-right block
  is `Σ_j p₁[q,j] · X₁[e,j]` (the off-diagonal blocks, cross terms of the two batches, are dropped). The new weighted sum of a
  half is its rescaling factor times the carried one plus its block. The final quotient divides a half's weighted sums by its
  normaliser, row by row.
-/
import proofs.«403087_j20770461844117_3_alg».proof.Proof.Gen.KernelIdeal.Skeleton
import proofs.«403087_j20770461844117_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAcc

open Idealize.ShloMosaic Idealize.ShloMosaic.ValueIdx Idealize.SL.Sem
open Cert.KernelIdeal Cert.KernelIdeal.Gen AttnSpec OnlineSoftmax

/-! ## The product's two operand indices

The products contract axis 1 of the left operand with axis 1 of the right one; there is no batch axis. At output index
`(r, c)` and contraction position `k` the left operand is read at `(r, k)` and the right one at `(c, k)`. -/

private theorem lhs_axis0 (i : S256x256.Idx) (q : dot_S256x2560_S256x2560_S256x256_1_1_0_0_n_n.contr.Idx) :
    (dot_S256x2560_S256x2560_S256x256_1_1_0_0_n_n.lhsIdx i q 0).val = (i 0).val := by
  unfold DotDims.lhsIdx
  rw [dif_neg (show ¬(0 : Fin S256x2560.rank) ∈ dot_S256x2560_S256x2560_S256x256_1_1_0_0_n_n.lhsBatch by decide), dif_pos (show (0 : Fin S256x2560.rank) ∈ dot_S256x2560_S256x2560_S256x256_1_1_0_0_n_n.lhsNonContracting by decide)]
  rfl
private theorem lhs_axis1 (i : S256x256.Idx) (q : dot_S256x2560_S256x2560_S256x256_1_1_0_0_n_n.contr.Idx) :
    (dot_S256x2560_S256x2560_S256x256_1_1_0_0_n_n.lhsIdx i q 1).val = (q ⟨0, by decide⟩).val :=
  dot_S256x2560_S256x2560_S256x256_1_1_0_0_n_n.lhsIdx_val_of_single rfl i q
private theorem rhs_axis0 (i : S256x256.Idx) (q : dot_S256x2560_S256x2560_S256x256_1_1_0_0_n_n.contr.Idx) :
    (dot_S256x2560_S256x2560_S256x256_1_1_0_0_n_n.rhsIdx i q 0).val = (i 1).val := by
  unfold DotDims.rhsIdx
  rw [dif_neg (show ¬(0 : Fin S256x2560.rank) ∈ dot_S256x2560_S256x2560_S256x256_1_1_0_0_n_n.rhsBatch by decide), dif_pos (show (0 : Fin S256x2560.rank) ∈ dot_S256x2560_S256x2560_S256x256_1_1_0_0_n_n.rhsNonContracting by decide)]
  rfl
private theorem rhs_axis1 (i : S256x256.Idx) (q : dot_S256x2560_S256x2560_S256x256_1_1_0_0_n_n.contr.Idx) :
    (dot_S256x2560_S256x2560_S256x256_1_1_0_0_n_n.rhsIdx i q 1).val = (q ⟨0, by decide⟩).val :=
  dot_S256x2560_S256x2560_S256x256_1_1_0_0_n_n.rhsIdx_val_of_single rfl i q

/-- A product into the zero accumulator, read at `(r, c)`: `Σ_j L[r,j] · R[c,j]`. -/
private theorem matmul_read {φ₁ φ₂ : FTy} (L : FVec Ideal S256x2560 φ₁) (R : FVec Ideal S256x2560 φ₂) (r c : Fin 256) :
    matmul dot_S256x2560_S256x2560_S256x256_1_1_0_0_n_n none L R (constant S256x256 .f32 0x00000000#32) (ix2 r c)
      = ∑ j : Fin 2560, L (ix2 r j) * R (ix2 c j) := by
  simp only [matmul]
  rw [Ideal.matmul_constant_zero_apply, ← Equiv.sum_comp (ValueIdx.contrEquiv1 dot_S256x2560_S256x2560_S256x256_1_1_0_0_n_n 2560 rfl rfl).symm]
  refine Finset.sum_congr rfl fun k _ => ?_
  have hk := ValueIdx.contrEquiv1_symm_val dot_S256x2560_S256x2560_S256x256_1_1_0_0_n_n 2560 rfl rfl k
  have el : dot_S256x2560_S256x2560_S256x256_1_1_0_0_n_n.lhsIdx (ix2 r c) ((ValueIdx.contrEquiv1 dot_S256x2560_S256x2560_S256x256_1_1_0_0_n_n 2560 rfl rfl).symm k) = ix2 r k := funext fun a => Fin.ext (by
    match a with
    | ⟨0, _⟩ => exact lhs_axis0 _ _
    | ⟨1, _⟩ => exact (lhs_axis1 _ _).trans hk)
  have er : dot_S256x2560_S256x2560_S256x256_1_1_0_0_n_n.rhsIdx (ix2 r c) ((ValueIdx.contrEquiv1 dot_S256x2560_S256x2560_S256x256_1_1_0_0_n_n 2560 rfl rfl).symm k) = ix2 c k := funext fun a => Fin.ext (by
    match a with
    | ⟨0, _⟩ => exact rhs_axis0 _ _
    | ⟨1, _⟩ => exact (rhs_axis1 _ _).trans hk)
  rw [el, er]

/-! ## The stacks

Two 128-row arrays stacked along the rows: row `q` of the stack is row `q` of the first piece, row `128 + q` is row `q` of
the second. -/

/-- Row `q` of the upper half of a 256-row stack. -/
private def lo (q : Fin 128) : Fin 256 := ⟨q.val, by have := q.isLt; omega⟩
/-- Row `128 + q`: row `q` of the lower half. -/
private def hi (q : Fin 128) : Fin 256 := ⟨128 + q.val, by have := q.isLt; omega⟩

/-- Every index of a 256 × 2560 stack lies in a row of the upper half or in a row of the lower half. -/
private theorem rows_cases (i : S256x2560.Idx) :
    (∃ (q : Fin 128) (j : Fin 2560), i = ix2 (lo q) j) ∨ (∃ (q : Fin 128) (j : Fin 2560), i = ix2 (hi q) j) := by
  by_cases h : (i 0).val < 128
  · exact Or.inl ⟨⟨(i 0).val, h⟩, i 1, funext fun c => by match c with | ⟨0, _⟩ => exact Fin.ext rfl | ⟨1, _⟩ => rfl⟩
  · have h2 : (i 0).val < 256 := (i 0).isLt
    exact Or.inr ⟨⟨(i 0).val - 128, by omega⟩, i 1, funext fun c => by
      match c with
      | ⟨0, _⟩ => exact Fin.ext (by show (i 0).val = 128 + ((i 0).val - 128); omega)
      | ⟨1, _⟩ => rfl⟩

/-- The stack of two 128 × 2560 arrays along the rows. -/
private abbrev stack (a b : FVec Ideal S128x2560 .f32) : FVec Ideal S256x2560 .f32 :=
  concatenate S256x2560 0 [⟨S128x2560, a⟩, ⟨S128x2560, b⟩] concatenates_S128x2560_S128x2560_S256x2560_d0

private theorem stack_lo (a b : FVec Ideal S128x2560 .f32) (q : Fin 128) (j : Fin 2560) : stack a b (ix2 (lo q) j) = a (ix2 q j) :=
  concatenate_pair_apply_left (0 : Fin S256x2560.rank) a b concatenates_S128x2560_S128x2560_S256x2560_d0 (ix2 (lo q) j) rfl (ix2 q j)
    (fun c => by match c with | ⟨0, _⟩ => rfl | ⟨1, _⟩ => rfl)

private theorem stack_hi (a b : FVec Ideal S128x2560 .f32) (q : Fin 128) (j : Fin 2560) : stack a b (ix2 (hi q) j) = b (ix2 q j) :=
  concatenate_pair_apply_right (0 : Fin S256x2560.rank) a b concatenates_S128x2560_S128x2560_S256x2560_d0 (ix2 (hi q) j) rfl rfl (ix2 q j)
    (fun c hc => by match c with | ⟨0, _⟩ => exact absurd rfl hc | ⟨1, _⟩ => rfl)
    (by show q.val + 128 = 128 + q.val; omega)

/-- A stack of two real-valued arrays is real-valued. -/
private theorem stack_real (a b : FVec Ideal S128x2560 .f32) (ha : RealValued a) (hb : RealValued b) : RealValued (stack a b) := by
  intro i
  rcases rows_cases i with ⟨q, j, rfl⟩ | ⟨q, j, rfl⟩
  · rw [stack_lo]; exact ha _
  · rw [stack_hi]; exact hb _

/-! ## The stacked features and their remainder -/

/-- A real number less itself is `0` (on the extended reals `x - x = 0` fails only at `±∞`). -/
private theorem real_sub_self {x : EReal} (h : ∃ r : ℝ, x = (r : EReal)) : x - x = 0 := by
  obtain ⟨r, rfl⟩ := h
  rw [← EReal.coe_sub, sub_self, EReal.coe_zero]

/-- The stacked feature tiles `[X₀; X₁]`: row `e` is feature `e` of half 0 … -/
private theorem pay8_lo (X0 X1 : Vec Ideal S1x128x2560 .f32) (e : Fin 128) (j : Fin 2560) :
    k0_pay8 X0 X1 (ix2 (lo e) j) = X0 (ix3 0 e j) :=
  (stack_lo _ _ e j).trans (shapeCast_1ab_ab_apply X0 shapeCasts_S1x128x2560_S128x2560 e j)
/-- … and row `128 + e` is feature `e` of half 1. -/
private theorem pay8_hi (X0 X1 : Vec Ideal S1x128x2560 .f32) (e : Fin 128) (j : Fin 2560) :
    k0_pay8 X0 X1 (ix2 (hi e) j) = X1 (ix3 0 e j) :=
  (stack_hi _ _ e j).trans (shapeCast_1ab_ab_apply X1 shapeCasts_S1x128x2560_S128x2560 e j)

/-- The stacked features are real where both halves are. -/
private theorem pay8_real (X0 X1 : Vec Ideal S1x128x2560 .f32) (hX0 : RealValued X0) (hX1 : RealValued X1) :
    ∀ i, ∃ r : ℝ, k0_pay8 X0 X1 i = (r : EReal) := by
  intro i
  rcases rows_cases i with ⟨q, j, rfl⟩ | ⟨q, j, rfl⟩
  · rw [pay8_lo]; exact hX0 _
  · rw [pay8_hi]; exact hX1 _

/-- The leading part of the stacked features is the stack itself: the format change is the identity. -/
private theorem pay9_apply (X0 X1 : Vec Ideal S1x128x2560 .f32) (i : S256x2560.Idx) : k0_pay9 X0 X1 i = k0_pay8 X0 X1 i := rfl

/-- The remainder of the stacked features, the stack less its leading part, is `0` where the features are real. -/
private theorem pay10_apply (X0 X1 : Vec Ideal S1x128x2560 .f32) (hX0 : RealValued X0) (hX1 : RealValued X1) (i : S256x2560.Idx) :
    k0_pay10 X0 X1 i = 0 :=
  real_sub_self (pay8_real X0 X1 hX0 hX1 i)

/-! ## The three products -/

/-- The sum of the three products at `(r, c)`, over any two right operands: the stacked exponentials against the first,
    against the second, and their remainder against the first. -/
private theorem pay31_sums (v21 v24 : FVec Ideal S256x2560 .bf16) (p0 p1 : FVec Ideal S128x2560 .f32) (r c : Fin 256) :
    k0_pay31 v21 v24 p0 p1 (ix2 r c)
      = (∑ j : Fin 2560, stack p0 p1 (ix2 r j) * v21 (ix2 c j)) + (∑ j : Fin 2560, stack p0 p1 (ix2 r j) * v24 (ix2 c j))
        + ∑ j : Fin 2560, (stack p0 p1 (ix2 r j) - stack p0 p1 (ix2 r j)) * v21 (ix2 c j) := by
  unfold k0_pay31
  simp only [addf_apply, matmul_read, truncf_apply, subf_apply]

/-- With real entries the two remainders vanish, a product with `0` is `0` on every extended real, and what is left is the
    one sum `Σ_j [p₀; p₁][r, j] · [X₀; X₁][c, j]`. -/
private theorem pay31_apply (X0 X1 : Vec Ideal S1x128x2560 .f32) (p0 p1 : FVec Ideal S128x2560 .f32)
    (hX0 : RealValued X0) (hX1 : RealValued X1) (hp0 : RealValued p0) (hp1 : RealValued p1) (r c : Fin 256) :
    k0_pay31 (k0_pay9 X0 X1) (k0_pay10 X0 X1) p0 p1 (ix2 r c)
      = ∑ j : Fin 2560, stack p0 p1 (ix2 r j) * k0_pay8 X0 X1 (ix2 c j) := by
  rw [pay31_sums]
  have h2 : ∑ j : Fin 2560, stack p0 p1 (ix2 r j) * k0_pay10 X0 X1 (ix2 c j) = 0 :=
    Finset.sum_eq_zero fun j _ => by rw [pay10_apply X0 X1 hX0 hX1, mul_zero]
  have h3 : ∑ j : Fin 2560, (stack p0 p1 (ix2 r j) - stack p0 p1 (ix2 r j)) * k0_pay9 X0 X1 (ix2 c j) = 0 :=
    Finset.sum_eq_zero fun j _ => by rw [real_sub_self (stack_real p0 p1 hp0 hp1 _), zero_mul]
  rw [h2, h3, add_zero, add_zero]
  exact Finset.sum_congr rfl fun j _ => by rw [pay9_apply]

/-! ## The two diagonal blocks and the new weighted sums -/

/-- The rescaling factor, one per query, broadcast along the features. -/
private theorem factor_apply (al : FVec Ideal S128x1 .f32) (q e : Fin 128) :
    broadcastTo S128x128 al broadcasts_S128x1_S128x128 (ix2 q e) = al (ix2 q 0) :=
  broadcastTo_apply al broadcasts_S128x1_S128x128 (ix2 q e) (ix2 q 0)
    (fun a => by match a with | ⟨0, _⟩ => rfl | ⟨1, _⟩ => rfl)

/-- The top-left block at `(q, e)` is the full matrix at `(q, e)`. -/
private theorem block_lo (M : FVec Ideal S256x256 .f32) (q e : Fin 128) :
    extractStridedSlice S128x128 ![0, 0] M slices_S256x256_o0_0_S128x128 (ix2 q e) = M (ix2 (lo q) (lo e)) :=
  extractStridedSlice_apply ![0, 0] M slices_S256x256_o0_0_S128x128 (ix2 q e) (ix2 (lo q) (lo e))
    (fun a => by
      match a with
      | ⟨0, _⟩ => show q.val = 0 + q.val; omega
      | ⟨1, _⟩ => show e.val = 0 + e.val; omega)

/-- The bottom-right block at `(q, e)` is the full matrix at `(128 + q, 128 + e)`. -/
private theorem block_hi (M : FVec Ideal S256x256 .f32) (q e : Fin 128) :
    extractStridedSlice S128x128 ![128, 128] M slices_S256x256_o128_128_S128x128 (ix2 q e) = M (ix2 (hi q) (hi e)) :=
  extractStridedSlice_apply ![128, 128] M slices_S256x256_o128_128_S128x128 (ix2 q e) (ix2 (hi q) (hi e))
    (fun a => by
      match a with
      | ⟨0, _⟩ => show 128 + q.val = 128 + q.val; rfl
      | ⟨1, _⟩ => show 128 + e.val = 128 + e.val; rfl)

/-- Half 0: `factor · carried + Σ_j p₀ · X₀`. -/
theorem pay32_apply (X0 X1 : Vec Ideal S1x128x2560 .f32) (A : Vec Ideal S1x128x128 .f32) (al : FVec Ideal S128x1 .f32)
    (p0 p1 : FVec Ideal S128x2560 .f32) (hX0 : RealValued X0) (hX1 : RealValued X1) (hp0 : RealValued p0) (hp1 : RealValued p1)
    (q e : Fin 128) :
    k0_pay32 (k0_pay9 X0 X1) (k0_pay10 X0 X1) (k0_pay17 A) al p0 p1 (ix3 0 q e)
      = al (ix2 q 0) * A (ix3 0 q e) + ∑ j : Fin 2560, p0 (ix2 q j) * X0 (ix3 0 e j) := by
  unfold k0_pay32
  -- the leading unit axis of the stored block, then the sum and the product entry by entry
  refine (shapeCast_ab_1ab_apply _ shapeCasts_S128x128_S1x128x128 0 q e).trans ?_
  rw [addf_apply, mulf_apply, factor_apply, block_lo, pay31_apply X0 X1 p0 p1 hX0 hX1 hp0 hp1]
  -- the carried weighted sum without its unit axis
  have hA : k0_pay17 A (ix2 q e) = A (ix3 0 q e) := shapeCast_1ab_ab_apply A shapeCasts_S1x128x128_S128x128 q e
  rw [hA]
  -- rows `q` and `e` of the upper halves of the two stacks
  exact congrArg (al (ix2 q 0) * A (ix3 0 q e) + ·) (Finset.sum_congr rfl fun j _ => by rw [stack_lo, pay8_lo])

/-- Half 1: `factor · carried + Σ_j p₁ · X₁`. -/
theorem pay33_apply (X0 X1 : Vec Ideal S1x128x2560 .f32) (A : Vec Ideal S1x128x128 .f32) (al : FVec Ideal S128x1 .f32)
    (p0 p1 : FVec Ideal S128x2560 .f32) (hX0 : RealValued X0) (hX1 : RealValued X1) (hp0 : RealValued p0) (hp1 : RealValued p1)
    (q e : Fin 128) :
    k0_pay33 (k0_pay9 X0 X1) (k0_pay10 X0 X1) (k0_pay20 A) al p0 p1 (ix3 0 q e)
      = al (ix2 q 0) * A (ix3 0 q e) + ∑ j : Fin 2560, p1 (ix2 q j) * X1 (ix3 0 e j) := by
  unfold k0_pay33
  refine (shapeCast_ab_1ab_apply _ shapeCasts_S128x128_S1x128x128 0 q e).trans ?_
  rw [addf_apply, mulf_apply, factor_apply, block_hi, pay31_apply X0 X1 p0 p1 hX0 hX1 hp0 hp1]
  have hA : k0_pay20 A (ix2 q e) = A (ix3 0 q e) := shapeCast_1ab_ab_apply A shapeCasts_S1x128x128_S128x128 q e
  rw [hA]
  -- rows `128 + q` and `128 + e`: rows `q` and `e` of the lower halves
  exact congrArg (al (ix2 q 0) * A (ix3 0 q e) + ·) (Finset.sum_congr rfl fun j _ => by rw [stack_hi, pay8_hi])

/-! ## The final quotient -/

/-- The normaliser, one per query, without its unit axis and broadcast along the features. -/
private theorem normaliser_apply (Lb : Vec Ideal S1x128x1 .f32) (q e : Fin 128) :
    broadcastTo S128x128 (shapeCast S128x1 Lb shapeCasts_S1x128x1_S128x1) broadcasts_S128x1_S128x128 (ix2 q e) = Lb (ix3 0 q 0) :=
  (factor_apply _ q e).trans (shapeCast_1ab_ab_apply Lb shapeCasts_S1x128x1_S128x1 q 0)

/-- The final quotient of a half: weighted sum over normaliser, the normaliser broadcast along the features. -/
theorem pay3_apply (Ab : Vec Ideal S1x128x128 .f32) (Lb : Vec Ideal S1x128x1 .f32) (q e : Fin 128) :
    k0_pay3 Ab Lb (ix3 0 q e) = Ideal.div (Ab (ix3 0 q e)) (Lb (ix3 0 q 0)) := by
  unfold k0_pay3
  refine (shapeCast_ab_1ab_apply _ shapeCasts_S128x128_S1x128x128 0 q e).trans ?_
  rw [divf_apply, normaliser_apply]
  exact congrArg (Ideal.div · (Lb (ix3 0 q 0))) (shapeCast_1ab_ab_apply Ab shapeCasts_S1x128x128_S128x128 q e)
theorem pay4_apply (Ab : Vec Ideal S1x128x128 .f32) (Lb : Vec Ideal S1x128x1 .f32) (q e : Fin 128) :
    k0_pay4 Ab Lb (ix3 0 q e) = Ideal.div (Ab (ix3 0 q e)) (Lb (ix3 0 q 0)) := by
  unfold k0_pay4
  refine (shapeCast_ab_1ab_apply _ shapeCasts_S128x128_S1x128x128 0 q e).trans ?_
  rw [divf_apply, normaliser_apply]
  exact congrArg (Ideal.div · (Lb (ix3 0 q 0))) (shapeCast_1ab_ab_apply Ab shapeCasts_S1x128x128_S128x128 q e)

end Cert.KernelIdeal.PayAcc

end
-- ==== Proof.KStep.lean ====
/-
  One grid point's step, per half, in its final form: with real feature and query blocks, what the point leaves at
  (h, q, ·) is one step of the streaming softmax of row `q` of half `h`, on that half's score tile `sc x k h q` and, for the
  weighted sum of feature `e`, that half's feature row `x[h, e, ·]`.

  Each statement is the composition of three readings: the join of two slab payloads at slab `h` is slab `h`'s payload; that
  payload at an index is the textbook expression in the half-blocks the body loaded; and a loaded half-block at (0, ·, ·) is the
  block at (h, ·, ·).
-/
import proofs.«403087_j20770461844117_3_alg».proof.Proof.KDefs
import proofs.«403087_j20770461844117_3_alg».proof.Proof.LibHalves
import proofs.«403087_j20770461844117_3_alg».proof.Proof.KPayScore
import proofs.«403087_j20770461844117_3_alg».proof.Proof.KPaySoft
import proofs.«403087_j20770461844117_3_alg».proof.Proof.KPayAcc

noncomputable section

namespace Cert.KernelIdeal.StepAt

open Idealize.ShloMosaic Idealize.ShloMosaic.ValueIdx Idealize.ShloMosaic.Halves Idealize.SL.Sem
open Cert.KernelIdeal Cert.KernelIdeal.Gen Cert.KernelIdeal.Step AttnSpec OnlineSoftmax

variable (x : Vec Ideal S2x128x2560 .f32) (k : Vec Ideal S2x128x128 .f32)

/-! ## The loaded half-blocks: real where the block is, and the block at slab `h` -/

theorem real_ld {S : Shape} (f : Vec Ideal S .f32) (r : Rect S) (hf : RealValued f) :
    RealValued (S := r.shape) (View.ld (Val := Elt Ideal) (e' := .f32) f r) := fun i => hf _

theorem X0_apply (e : Fin 128) (j : Fin 2560) : X0 x (ix3 0 e j) = x (ix3 0 e j) := ld_half0_apply x _ e j
theorem X1_apply (e : Fin 128) (j : Fin 2560) : X1 x (ix3 0 e j) = x (ix3 1 e j) := ld_half1_apply x _ e j
theorem K0_apply (q e : Fin 128) : K0 k (ix3 0 q e) = k (ix3 0 q e) := ld_half0_apply k _ q e
theorem K1_apply (q e : Fin 128) : K1 k (ix3 0 q e) = k (ix3 1 q e) := ld_half1_apply k _ q e

/-- The two score tiles are the block's scores of the two halves. -/
theorem y0_apply (hx : RealValued x) (hk : RealValued k) (q : Fin 128) (j : Fin 2560) : y0 x k (ix2 q j) = sc x k 0 q j := by
  unfold y0 sc
  rw [PayScore.pay12_apply (X0 x) (X1 x) (K0 k) (K1 k) (real_ld x _ hx) (real_ld x _ hx) (real_ld k _ hk) (real_ld k _ hk) q j]
  exact Finset.sum_congr rfl fun e _ => by rw [K0_apply, X0_apply]

theorem y1_apply (hx : RealValued x) (hk : RealValued k) (q : Fin 128) (j : Fin 2560) : y1 x k (ix2 q j) = sc x k 1 q j := by
  unfold y1 sc
  rw [PayScore.pay13_apply (X0 x) (X1 x) (K0 k) (K1 k) (real_ld x _ hx) (real_ld x _ hx) (real_ld k _ hk) (real_ld k _ hk) q j]
  exact Finset.sum_congr rfl fun e _ => by rw [K1_apply, X1_apply]

theorem row_y0 (hx : RealValued x) (hk : RealValued k) (q : Fin 128) : PaySoft.row (y0 x k) q = sc x k 0 q :=
  funext fun j => y0_apply x k hx hk q j
theorem row_y1 (hx : RealValued x) (hk : RealValued k) (q : Fin 128) : PaySoft.row (y1 x k) q = sc x k 1 q :=
  funext fun j => y1_apply x k hx hk q j

/-- A score tile of real blocks is real: a finite sum of products of reals. -/
theorem real_sum_mul (f g : Fin 128 → EReal) (hf : ∀ e, ∃ r : ℝ, f e = r) (hg : ∀ e, ∃ r : ℝ, g e = r) :
    ∃ r : ℝ, ∑ e : Fin 128, f e * g e = (r : EReal) := by
  choose fr hfr using hf
  choose gr hgr using hg
  refine ⟨∑ e : Fin 128, fr e * gr e, ?_⟩
  have : ∀ s : Finset (Fin 128), ∑ e ∈ s, f e * g e = ((∑ e ∈ s, fr e * gr e : ℝ) : EReal) := fun s => by
    induction s using Finset.induction_on with
    | empty => simp
    | insert a s ha ih => rw [Finset.sum_insert ha, Finset.sum_insert ha, ih, hfr, hgr, EReal.coe_add, EReal.coe_mul]
  exact this Finset.univ

theorem real_y0 (hx : RealValued x) (hk : RealValued k) : RealValued (y0 x k) := fun i => by
  obtain ⟨q, j, rfl⟩ : ∃ (q : Fin 128) (j : Fin 2560), i = ix2 q j := ⟨i 0, i 1, eq_ix2 i⟩
  rw [y0_apply x k hx hk]
  exact real_sum_mul _ _ (fun e => hk _) (fun e => hx _)
theorem real_y1 (hx : RealValued x) (hk : RealValued k) : RealValued (y1 x k) := fun i => by
  obtain ⟨q, j, rfl⟩ : ∃ (q : Fin 128) (j : Fin 2560), i = ix2 q j := ⟨i 0, i 1, eq_ix2 i⟩
  rw [y1_apply x k hx hk]
  exact real_sum_mul _ _ (fun e => hk _) (fun e => hx _)

/-! ## The five buffers after the point, at slab `h` -/

/-- The energy block is the block's scores. -/
theorem energy_apply (hx : RealValued x) (hk : RealValued k) (h : Fin 2) (q : Fin 128) (j : Fin 2560) :
    join2 (e0 x k) (e1 x k) (ix3 h q j) = sc x k h q j := by
  match h with
  | ⟨0, _⟩ =>
    show join2 (e0 x k) (e1 x k) (ix3 0 q j) = sc x k 0 q j
    rw [join2_zero]
    unfold e0
    rw [PayScore.pay14_apply]
    exact y0_apply x k hx hk q j
  | ⟨1, _⟩ =>
    show join2 (e0 x k) (e1 x k) (ix3 1 q j) = sc x k 1 q j
    rw [join2_one]
    unfold e1
    rw [PayScore.pay15_apply]
    exact y1_apply x k hx hk q j

/-- A loaded half-column at (0, q, 0) is the column at (h, q, 0). -/
theorem S0_apply (m : Vec Ideal S2x128x1 .f32) (q : Fin 128) : View.ld m rS0 (ix3 0 q 0) = m (ix3 0 q 0) := ld_half0_apply m _ q 0
theorem S1_apply (m : Vec Ideal S2x128x1 .f32) (q : Fin 128) : View.ld m rS1 (ix3 0 q 0) = m (ix3 1 q 0) := ld_half1_apply m _ q 0
theorem A0_apply (a : Vec Ideal S2x128x128 .f32) (q e : Fin 128) : View.ld a rK0 (ix3 0 q e) = a (ix3 0 q e) := ld_half0_apply a _ q e
theorem A1_apply (a : Vec Ideal S2x128x128 .f32) (q e : Fin 128) : View.ld a rK1 (ix3 0 q e) = a (ix3 1 q e) := ld_half1_apply a _ q e

/-- The new maximum of a half, as a column. -/
theorem m0_apply (hx : RealValued x) (hk : RealValued k) (m : Vec Ideal S2x128x1 .f32) (q : Fin 128) :
    m0 x k m (ix2 q 0) = stepM (m (ix3 0 q 0)) (sc x k 0 q) := by
  unfold m0; rw [PaySoft.pay21_apply, S0_apply, row_y0 x k hx hk]
theorem m1_apply (hx : RealValued x) (hk : RealValued k) (m : Vec Ideal S2x128x1 .f32) (q : Fin 128) :
    m1 x k m (ix2 q 0) = stepM (m (ix3 1 q 0)) (sc x k 1 q) := by
  unfold m1; rw [PaySoft.pay22_apply, S1_apply, row_y1 x k hx hk]

/-- The new maxima. -/
theorem max_apply (hx : RealValued x) (hk : RealValued k) (m : Vec Ideal S2x128x1 .f32) (h : Fin 2) (q : Fin 128) :
    join2 (sm0 x k m) (sm1 x k m) (ix3 h q 0) = stepM (m (ix3 h q 0)) (sc x k h q) := by
  match h with
  | ⟨0, _⟩ =>
    show join2 (sm0 x k m) (sm1 x k m) (ix3 0 q 0) = stepM (m (ix3 0 q 0)) (sc x k 0 q)
    rw [join2_zero]; unfold sm0; rw [PaySoft.pay34_apply]; exact m0_apply x k hx hk m q
  | ⟨1, _⟩ =>
    show join2 (sm0 x k m) (sm1 x k m) (ix3 1 q 0) = stepM (m (ix3 1 q 0)) (sc x k 1 q)
    rw [join2_one]; unfold sm1; rw [PaySoft.pay35_apply]; exact m1_apply x k hx hk m q

/-- The new normalisers. -/
theorem norm_apply (hx : RealValued x) (hk : RealValued k) (m l : Vec Ideal S2x128x1 .f32) (h : Fin 2) (q : Fin 128) :
    join2 (sl0 x k m l) (sl1 x k m l) (ix3 h q 0) = stepL (m (ix3 h q 0)) (l (ix3 h q 0)) (sc x k h q) := by
  match h with
  | ⟨0, _⟩ =>
    show join2 (sl0 x k m l) (sl1 x k m l) (ix3 0 q 0) = stepL (m (ix3 0 q 0)) (l (ix3 0 q 0)) (sc x k 0 q)
    rw [join2_zero]; unfold sl0 l0
    rw [PaySoft.pay1_apply, PaySoft.norm0_apply, S0_apply, S0_apply, row_y0 x k hx hk]
  | ⟨1, _⟩ =>
    show join2 (sl0 x k m l) (sl1 x k m l) (ix3 1 q 0) = stepL (m (ix3 1 q 0)) (l (ix3 1 q 0)) (sc x k 1 q)
    rw [join2_one]; unfold sl1 l1 al1 p1
    rw [PaySoft.pay2_apply, PaySoft.norm1_apply, S1_apply, S1_apply, row_y1 x k hx hk]

/-- The new weighted sum of half 0, with its leading unit axis. -/
theorem a0_apply (hx : RealValued x) (hk : RealValued k) (m : Vec Ideal S2x128x1 .f32) (a : Vec Ideal S2x128x128 .f32) (q e : Fin 128) :
    a0 x k m a (ix3 0 q e) = stepA (m (ix3 0 q 0)) (a (ix3 0 q e)) (sc x k 0 q) (fun j => x (ix3 0 e j)) := by
  unfold a0
  rw [PayAcc.pay32_apply (X0 x) (X1 x) (View.ld a rK0) (al0 x k m) (p0 x k m) (p1 x k m) (real_ld x _ hx) (real_ld x _ hx)
    (PaySoft.pay25_real _ _ (real_y0 x k hx hk)) (PaySoft.pay26_real _ _ (real_y1 x k hx hk)) q e]
  unfold al0 p0 stepA
  rw [PaySoft.pay23_apply, S0_apply, row_y0 x k hx hk, A0_apply]
  refine congrArg (_ + ·) (Finset.sum_congr rfl fun j _ => ?_)
  rw [PaySoft.pay25_apply, S0_apply, row_y0 x k hx hk, y0_apply x k hx hk, X0_apply]

theorem a1_apply (hx : RealValued x) (hk : RealValued k) (m : Vec Ideal S2x128x1 .f32) (a : Vec Ideal S2x128x128 .f32) (q e : Fin 128) :
    a1 x k m a (ix3 0 q e) = stepA (m (ix3 1 q 0)) (a (ix3 1 q e)) (sc x k 1 q) (fun j => x (ix3 1 e j)) := by
  unfold a1
  rw [PayAcc.pay33_apply (X0 x) (X1 x) (View.ld a rK1) (al1 x k m) (p0 x k m) (p1 x k m) (real_ld x _ hx) (real_ld x _ hx)
    (PaySoft.pay25_real _ _ (real_y0 x k hx hk)) (PaySoft.pay26_real _ _ (real_y1 x k hx hk)) q e]
  unfold al1 p1 stepA
  rw [PaySoft.pay24_apply, S1_apply, row_y1 x k hx hk, A1_apply]
  refine congrArg (_ + ·) (Finset.sum_congr rfl fun j _ => ?_)
  rw [PaySoft.pay26_apply, S1_apply, row_y1 x k hx hk, y1_apply x k hx hk, X1_apply]

/-- The new weighted sums. -/
theorem acc_apply (hx : RealValued x) (hk : RealValued k) (m : Vec Ideal S2x128x1 .f32) (a : Vec Ideal S2x128x128 .f32)
    (h : Fin 2) (q e : Fin 128) :
    join2 (a0 x k m a) (a1 x k m a) (ix3 h q e)
      = stepA (m (ix3 h q 0)) (a (ix3 h q e)) (sc x k h q) (fun j => x (ix3 h e j)) := by
  match h with
  | ⟨0, _⟩ =>
    show join2 (a0 x k m a) (a1 x k m a) (ix3 0 q e) = stepA (m (ix3 0 q 0)) (a (ix3 0 q e)) (sc x k 0 q) (fun j => x (ix3 0 e j))
    rw [join2_zero]; exact a0_apply x k hx hk m a q e
  | ⟨1, _⟩ =>
    show join2 (a0 x k m a) (a1 x k m a) (ix3 1 q e) = stepA (m (ix3 1 q 0)) (a (ix3 1 q e)) (sc x k 1 q) (fun j => x (ix3 1 e j))
    rw [join2_one]; exact a1_apply x k hx hk m a q e

/-- The summary block: the new weighted sum over the new normaliser. -/
theorem summary_apply (hx : RealValued x) (hk : RealValued k) (m l : Vec Ideal S2x128x1 .f32) (a : Vec Ideal S2x128x128 .f32)
    (h : Fin 2) (q e : Fin 128) :
    join2 (q0 x k m l a) (q1 x k m l a) (ix3 h q e)
      = Ideal.div (stepA (m (ix3 h q 0)) (a (ix3 h q e)) (sc x k h q) (fun j => x (ix3 h e j)))
          (stepL (m (ix3 h q 0)) (l (ix3 h q 0)) (sc x k h q)) := by
  match h with
  | ⟨0, _⟩ =>
    show join2 (q0 x k m l a) (q1 x k m l a) (ix3 0 q e) = Ideal.div (stepA (m (ix3 0 q 0)) (a (ix3 0 q e)) (sc x k 0 q) (fun j => x (ix3 0 e j)))
          (stepL (m (ix3 0 q 0)) (l (ix3 0 q 0)) (sc x k 0 q))
    rw [join2_zero]; unfold q0
    rw [PayAcc.pay3_apply, a0_apply x k hx hk]
    have hn := norm_apply x k hx hk m l 0 q
    rw [join2_zero] at hn
    rw [hn]
  | ⟨1, _⟩ =>
    show join2 (q0 x k m l a) (q1 x k m l a) (ix3 1 q e) = Ideal.div (stepA (m (ix3 1 q 0)) (a (ix3 1 q e)) (sc x k 1 q) (fun j => x (ix3 1 e j)))
          (stepL (m (ix3 1 q 0)) (l (ix3 1 q 0)) (sc x k 1 q))
    rw [join2_one]; unfold q1
    rw [PayAcc.pay4_apply, a1_apply x k hx hk]
    have hn := norm_apply x k hx hk m l 1 q
    rw [join2_one] at hn
    rw [hn]

/-- The reset's contents. -/
theorem mInit_apply (i : S2x128x1.Idx) : (mInit (F := Ideal)) i = (⊥ : EReal) := PaySoft.pay5_apply i
theorem lInit_apply (i : S2x128x1.Idx) : (lInit (F := Ideal)) i = (0 : EReal) := PaySoft.pay6_apply i
theorem aInit_apply (i : S2x128x128.Idx) : (aInit (F := Ideal)) i = (0 : EReal) := PaySoft.pay7_apply i

end Cert.KernelIdeal.StepAt

end
-- ==== Proof.KBlocks.lean ====
/-
  The blocks a grid point finds, read off the arrays.

  Point `t` of the 4 × 12 grid works on batch pair `t / 12` and column tile `t % 12`: its feature block is rows
  `2·(t/12)`, `2·(t/12)+1` of the flattened feature map at columns `2560·(t%12) … 2560·(t%12)+2559`, and its query block the same
  two batches' query matrices. The flattened feature map is the host's reshape of `x`; the queries reach the region as launched.
-/
import proofs.«403087_j20770461844117_3_alg».proof.Proof.Gen.KernelIdeal.Frame
import proofs.«403087_j20770461844117_3_alg».proof.Proof.Spec
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The flattened feature map and the queries, as the region finds them. -/
abbrev xf (c : Dev nD) : Vec F S8x128x30720 .f32 := V m c main_v0
abbrev kq (c : Dev nD) : Vec F S8x128x128 .f32 := V m c main_arg1
/-- The feature block and the query block at point `t`, at their literal types. -/
abbrev xblk (c : Dev nD) (t : Fin cfg0.N) : Vec F S2x128x2560 .f32 := iblk m c 0 t
abbrev kblk (c : Dev nD) (t : Fin cfg0.N) : Vec F S2x128x128 .f32 := iblk m c 1 t

/-- Batch `2·(t / 12) + h`: half `h` of point `t`'s pair. -/
def bat (t : Fin cfg0.N) (h : Fin 2) : Fin 8 :=
  ⟨2 * (t.val / 12) + h.val, by have := t.isLt; have hN : cfg0.N = 48 := N_0; have := h.isLt; omega⟩
/-- Column tile `t % 12`. -/
def tile (t : Fin cfg0.N) : Fin 12 := ⟨t.val % 12, Nat.mod_lt _ (by decide)⟩

/-- Where the feature window sits at point `t`, in blocks: the window's index map sends grid coordinates `(i₀, i₁)` to
    block `(i₀, 0, i₁)`, and point `t` of the row-major 4 × 12 grid has coordinates `(t / 12, t % 12)`. Checked point by
    point over the 48 grid points. -/
theorem xwin_index : ∀ t : Fin cfg0.N,
    win0_0.index t 0 = t.val / 12 ∧ win0_0.index t 1 = 0 ∧ win0_0.index t 2 = t.val % 12 :=
  (by decide +kernel : ∀ t : Fin grid0.N, _)

/-- Where the query window sits at point `t`, in blocks: its index map sends `(i₀, i₁)` to block `(i₀, 0, 0)` — the column
    tile does not move it. Checked point by point over the 48 grid points. -/
theorem kwin_index : ∀ t : Fin cfg0.N,
    win0_1.index t 0 = t.val / 12 ∧ win0_1.index t 1 = 0 ∧ win0_1.index t 2 = 0 :=
  (by decide +kernel : ∀ t : Fin grid0.N, _)

/-- Entry `(h, e, j)` of the feature block at point `t` is entry `(2·(t/12) + h, e, 2560·(t%12) + j)` of the flattened feature
    map. A block of extents `2 × 128 × 2560` at block index `(b₀, b₁, b₂)` reads the array at
    `(2·b₀ + h, 128·b₁ + e, 2560·b₂ + j)` (on each axis: block index × block extent + 1 × coordinate inside the block, the
    stride being 1); with `(b₀, b₁, b₂) = (t/12, 0, t%12)` that is the batch `bat t h`, the feature `e`, and column `j` of tile
    `tile t`. Both sides read the same array, so it is enough that the two indices agree axis by axis. -/
theorem xblk_apply (c : Dev nD) (t : Fin cfg0.N) (h : Fin 2) (e : Fin 128) (j : Fin 2560) :
    xblk m c t (ix3 h e j) = xf m c (ix3 (bat t h) e (AttnSpec.col (tile t) j)) := by
  obtain ⟨h0, h1, h2⟩ := xwin_index t
  unfold xblk iblk
  -- reading through the block's view is reading the array at the view's embedding of the index
  rw [View.read_apply]
  show V m c main_v0 _ = V m c main_v0 _
  congr 1
  funext a
  apply Fin.ext
  match a with
  | ⟨0, _⟩ =>
    -- batch axis: 2 · (t / 12) + h
    show win0_0.index t 0 * 2 + 1 * h.val = 2 * (t.val / 12) + h.val
    rw [h0]; omega
  | ⟨1, _⟩ =>
    -- feature axis: the one block spans all 128 features
    show win0_0.index t 1 * 128 + 1 * e.val = e.val
    rw [h1]; omega
  | ⟨2, _⟩ =>
    -- column axis: 2560 · (t % 12) + j
    show win0_0.index t 2 * 2560 + 1 * j.val = 2560 * (t.val % 12) + j.val
    rw [h2]; omega

/-- Entry `(h, q, e)` of the query block at point `t` is entry `(2·(t/12) + h, q, e)` of the queries: the block of extents
    `2 × 128 × 128` at block index `(t/12, 0, 0)` reads the array at `(2·(t/12) + h, q, e)`, whatever the column tile. -/
theorem kblk_apply (c : Dev nD) (t : Fin cfg0.N) (h : Fin 2) (q e : Fin 128) :
    kblk m c t (ix3 h q e) = kq m c (ix3 (bat t h) q e) := by
  obtain ⟨h0, h1, h2⟩ := kwin_index t
  unfold kblk iblk
  rw [View.read_apply]
  show V m c main_arg1 _ = V m c main_arg1 _
  congr 1
  funext a
  apply Fin.ext
  match a with
  | ⟨0, _⟩ =>
    -- batch axis: 2 · (t / 12) + h
    show win0_1.index t 0 * 2 + 1 * h.val = 2 * (t.val / 12) + h.val
    rw [h0]; omega
  | ⟨1, _⟩ =>
    -- query axis: the one block spans all 128 queries
    show win0_1.index t 1 * 128 + 1 * q.val = q.val
    rw [h1]; omega
  | ⟨2, _⟩ =>
    -- feature axis: the one block spans all 128 features
    show win0_1.index t 2 * 128 + 1 * e.val = e.val
    rw [h2]; omega

/-- The flattened feature map is the host's reshape of the launched `x`; -/
theorem xf_eq (c : Dev nD) :
    xf m c = shapeCast S8x128x30720 (m ((c : Thread nD τ).loc main_arg0)) shapeCasts_S8x128x96x320_S8x128x30720 := by
  -- Before the region the host runs one operation: the reshape of `x` (8 × 128 × 96 × 320) into the buffer of the
  -- flattened map (8 × 128 × 30720). The contents after a list of operations, read at the buffer the last one wrote, are
  -- that operation's result on the contents before it; the reshape's operand is the launched `x`, which nothing wrote
  -- earlier, and a reshape's result is the row-major recast of its operand.
  have e : (V m c main_v0 : S8x128x30720.Idx → Elt F .f32)
      = shapeCast S8x128x30720 (m ((c : Thread nD τ).loc main_arg0)) shapeCasts_S8x128x96x320_S8x128x30720 := by
    -- the contents at region entry are the contents after the host's one operation before it
    dsimp only [Gen.V, Gen.V0]
    simp only [Gen.hostOps0, List.flatten_cons, List.flatten_nil, List.append_nil]
    -- run that one operation from the launched contents
    simp only [StableHlo.after_cons, StableHlo.after_nil]
    -- at its own result buffer a reshape leaves the row-major recast of its operand's contents
    rw [StableHlo.reshape_result]
    rfl
  exact e

/-- the queries are the launched `K`. -/
theorem kq_eq (c : Dev nD) : kq m c = m ((c : Thread nD τ).loc main_arg1) := V_main_arg1 m c

end Cert.KernelIdeal.Blocks

end
-- ==== Proof.KInv.lean ====
/-
  What the buffers hold after every grid point.

  By induction on the point, within each batch pair: after tile `s` of pair `p`, at (h, q, ·), the carried maxima, normalisers
  and weighted sums are the streaming softmax of row `q` of batch `2p + h` run over tiles `0 … s` (`OnlineSoftmax.runM / runL /
  runA` of the row's score tiles and the feature's value tiles); the energy block is that tile's scores; and after the twelfth
  tile the summary block is the summary array's rows for the pair.
-/
import proofs.«403087_j20770461844117_3_alg».proof.Proof.Gen.KernelIdeal.Frame
import proofs.«403087_j20770461844117_3_alg».proof.Proof.KPieces
import proofs.«403087_j20770461844117_3_alg».proof.Proof.KStep
import proofs.«403087_j20770461844117_3_alg».proof.Proof.KBlocks

noncomputable section

namespace Cert.KernelIdeal.Inv

open Idealize.ShloMosaic Idealize.ShloMosaic.TcCoe Idealize.ShloMosaic.ValueIdx Idealize.ShloMosaic.Halves Idealize.SL.Sem
open Cert.KernelIdeal Cert.KernelIdeal.Gen Cert.KernelIdeal.Step Cert.KernelIdeal.Blocks AttnSpec OnlineSoftmax

variable (m : (ℓ : Loc nD τ sig) → Buf (Elt Ideal) ℓ) (c : Dev nD)

theorem tile_lt (t : Fin cfg0.N) : t.val % 12 < 12 := Nat.mod_lt _ (by decide)

/-! ## The streaming recursion, read at an arbitrary tile number

  `runM`, `runL`, `runA` recurse on the tile number: tile `0` is one step from (`-∞`, `0`, `0`), tile `b + 1` is one step
  from what tile `b` left. Here the tile number is `t % 12`, not a numeral, so both clauses are restated for a number known
  only through an equation (the bound is a proposition, so any two proofs of it give the same value). -/

section Runs
variable {T C : ℕ}

/-- Tile `0`: one step from `-∞`. -/
private theorem runM_first (y : Fin T → Fin C → EReal) (a : ℕ) (ha : a < T) (h0 : a = 0) :
    runM y a ha = stepM ⊥ (y ⟨a, ha⟩) := by
  subst h0; rfl

/-- Tile `0`: one step from maximum `-∞` and normaliser `0`. -/
private theorem runL_first (y : Fin T → Fin C → EReal) (a : ℕ) (ha : a < T) (h0 : a = 0) :
    runL y a ha = stepL ⊥ 0 (y ⟨a, ha⟩) := by
  subst h0; rfl

/-- Tile `0`: one step from maximum `-∞` and weighted sum `0`. -/
private theorem runA_first (y x : Fin T → Fin C → EReal) (a : ℕ) (ha : a < T) (h0 : a = 0) :
    runA y x a ha = stepA ⊥ 0 (y ⟨a, ha⟩) (x ⟨a, ha⟩) := by
  subst h0; rfl

/-- Tile `b + 1`: one step from the maximum after tile `b`. -/
private theorem runM_succ (y : Fin T → Fin C → EReal) {a b : ℕ} (hab : a = b + 1) (ha : a < T) (hb : b < T) :
    runM y a ha = stepM (runM y b hb) (y ⟨a, ha⟩) := by
  subst hab; rfl

/-- Tile `b + 1`: one step from the maximum and the normaliser after tile `b`. -/
private theorem runL_succ (y : Fin T → Fin C → EReal) {a b : ℕ} (hab : a = b + 1) (ha : a < T) (hb : b < T) :
    runL y a ha = stepL (runM y b hb) (runL y b hb) (y ⟨a, ha⟩) := by
  subst hab; rfl

/-- Tile `b + 1`: one step from the maximum and the weighted sum after tile `b`. -/
private theorem runA_succ (y x : Fin T → Fin C → EReal) {a b : ℕ} (hab : a = b + 1) (ha : a < T) (hb : b < T) :
    runA y x a ha = stepA (runM y b hb) (runA y x b hb) (y ⟨a, ha⟩) (x ⟨a, ha⟩) := by
  subst hab; rfl

/-- Equal tile numbers, equal values. -/
private theorem runL_congr (y : Fin T → Fin C → EReal) {a b : ℕ} (hab : a = b) (ha : a < T) (hb : b < T) :
    runL y a ha = runL y b hb := by
  subst hab; rfl

private theorem runA_congr (y x : Fin T → Fin C → EReal) {a b : ℕ} (hab : a = b) (ha : a < T) (hb : b < T) :
    runA y x a ha = runA y x b hb := by
  subst hab; rfl

end Runs

/-! ## The blocks of point `t`, in terms of the arrays

  Entry (h, e, j) of the feature block is `xf[2·(t/12)+h, e, 2560·(t%12)+j]` and entry (h, q, e) of the query block is
  `K[2·(t/12)+h, q, e]`. So the blocks are real where the arrays are, half `h`'s scores within the block are tile `t % 12` of
  the scores of batch `2·(t/12)+h`, and row `e` of half `h` of the feature block is tile `t % 12` of that batch's feature `e`. -/

/-- A feature block of a real feature map is real. -/
private theorem xblk_real (hx : RealValued (xf m c)) (t : Fin cfg0.N) : RealValued (xblk m c t) := by
  intro i
  obtain ⟨h, e, j, rfl⟩ : ∃ (h : Fin 2) (e : Fin 128) (j : Fin 2560), i = ix3 h e j := ⟨i 0, i 1, i 2, eq_ix3 i⟩
  rw [xblk_apply]
  exact hx _

/-- A query block of real queries is real. -/
private theorem kblk_real (hk : RealValued (kq m c)) (t : Fin cfg0.N) : RealValued (kblk m c t) := by
  intro i
  obtain ⟨h, q, e, rfl⟩ : ∃ (h : Fin 2) (q e : Fin 128), i = ix3 h q e := ⟨i 0, i 1, i 2, eq_ix3 i⟩
  rw [kblk_apply]
  exact hk _

/-- The block's scores of query `q` of half `h` are the row's score tile: the same sum over the 128 features, term by term. -/
private theorem sc_blk (t : Fin cfg0.N) (h : Fin 2) (q : Fin 128) :
    sc (xblk m c t) (kblk m c t) h q = scoreTiles (xf m c) (kq m c) (bat t h) q (tile t) := by
  funext j
  unfold sc scoreTiles score
  refine Finset.sum_congr rfl fun e _ => ?_
  rw [kblk_apply, xblk_apply]

/-- Row `e` of half `h` of the feature block is the feature's value tile. -/
private theorem row_blk (t : Fin cfg0.N) (h : Fin 2) (e : Fin 128) :
    (fun j => xblk m c t (ix3 h e j)) = valueTiles (xf m c) (bat t h) e (tile t) := by
  funext j
  unfold valueTiles
  rw [xblk_apply]

/-! ## Each buffer after point `t`, as the join of the point's two slab payloads

  The point's case is read off `t % 12`: `0` is the first tile of a pair (the carried buffers restart from the reset),
  `11` the last (the summary block is written), anything else a middle tile. The carried buffers and the energy block are
  written the same way in every case that applies to them, so the middle and last tiles are stated together. -/

/-- The point before `t` is a point of the grid. -/
private theorem pred_lt (t : Fin cfg0.N) : t.val - 1 < cfg0.N := Nat.lt_of_le_of_lt (Nat.sub_le _ _) t.isLt

/-- First tile: the maxima are one step from the reset's `-∞`. -/
private theorem max_first (t : Fin cfg0.N) (h0 : t.val % 12 = 0) :
    (outsAt0 m c t.val t.isLt).2.2.1
      = join2 (sm0 (xblk m c t) (kblk m c t) mInit) (sm1 (xblk m c t) (kblk m c t) mInit) := by
  have h1 : ¬ t.val % 12 = 11 := by omega
  rw [outsAt0_A m c t h0 h1]
  dsimp only
  exact Pieces.max_A c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) _ _
    (iblk m c 0 t) (iblk m c 1 t)

/-- First tile: the normalisers are one step from the reset's `-∞` and `0`. -/
private theorem norm_first (t : Fin cfg0.N) (h0 : t.val % 12 = 0) :
    (outsAt0 m c t.val t.isLt).2.2.2.1
      = join2 (sl0 (xblk m c t) (kblk m c t) mInit lInit) (sl1 (xblk m c t) (kblk m c t) mInit lInit) := by
  have h1 : ¬ t.val % 12 = 11 := by omega
  rw [outsAt0_A m c t h0 h1]
  dsimp only
  exact Pieces.norm_A c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) _ _
    (iblk m c 0 t) (iblk m c 1 t)

/-- First tile: the weighted sums are one step from the reset's `-∞` and `0`. -/
private theorem acc_first (t : Fin cfg0.N) (h0 : t.val % 12 = 0) :
    (outsAt0 m c t.val t.isLt).2.2.2.2
      = join2 (a0 (xblk m c t) (kblk m c t) mInit aInit) (a1 (xblk m c t) (kblk m c t) mInit aInit) := by
  have h1 : ¬ t.val % 12 = 11 := by omega
  rw [outsAt0_A m c t h0 h1]
  dsimp only
  exact Pieces.acc_A c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) _ _
    (iblk m c 0 t) (iblk m c 1 t)

/-- A later tile: the maxima are one step from what the point before left. -/
private theorem max_next (t : Fin cfg0.N) (h0 : ¬ t.val % 12 = 0) :
    (outsAt0 m c t.val t.isLt).2.2.1
      = join2 (sm0 (xblk m c t) (kblk m c t) (outsAt0 m c (t.val - 1) (pred_lt t)).2.2.1)
          (sm1 (xblk m c t) (kblk m c t) (outsAt0 m c (t.val - 1) (pred_lt t)).2.2.1) := by
  by_cases h1 : t.val % 12 = 11
  · rw [outsAt0_C m c t h0 h1]
    dsimp only
    exact Pieces.max_C c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t) _ _ _
  · rw [outsAt0_B m c t h0 h1]
    dsimp only
    exact Pieces.max_B c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t) _ _ _

/-- A later tile: the normalisers are one step from the maxima and normalisers the point before left. -/
private theorem norm_next (t : Fin cfg0.N) (h0 : ¬ t.val % 12 = 0) :
    (outsAt0 m c t.val t.isLt).2.2.2.1
      = join2 (sl0 (xblk m c t) (kblk m c t) (outsAt0 m c (t.val - 1) (pred_lt t)).2.2.1
            (outsAt0 m c (t.val - 1) (pred_lt t)).2.2.2.1)
          (sl1 (xblk m c t) (kblk m c t) (outsAt0 m c (t.val - 1) (pred_lt t)).2.2.1
            (outsAt0 m c (t.val - 1) (pred_lt t)).2.2.2.1) := by
  by_cases h1 : t.val % 12 = 11
  · rw [outsAt0_C m c t h0 h1]
    dsimp only
    exact Pieces.norm_C c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t) _ _ _
  · rw [outsAt0_B m c t h0 h1]
    dsimp only
    exact Pieces.norm_B c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t) _ _ _

/-- A later tile: the weighted sums are one step from the maxima and weighted sums the point before left. -/
private theorem acc_next (t : Fin cfg0.N) (h0 : ¬ t.val % 12 = 0) :
    (outsAt0 m c t.val t.isLt).2.2.2.2
      = join2 (a0 (xblk m c t) (kblk m c t) (outsAt0 m c (t.val - 1) (pred_lt t)).2.2.1
            (outsAt0 m c (t.val - 1) (pred_lt t)).2.2.2.2)
          (a1 (xblk m c t) (kblk m c t) (outsAt0 m c (t.val - 1) (pred_lt t)).2.2.1
            (outsAt0 m c (t.val - 1) (pred_lt t)).2.2.2.2) := by
  by_cases h1 : t.val % 12 = 11
  · rw [outsAt0_C m c t h0 h1]
    dsimp only
    exact Pieces.acc_C c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t) _ _ _
  · rw [outsAt0_B m c t h0 h1]
    dsimp only
    exact Pieces.acc_B c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t) _ _ _

/-- Every tile: the energy block is the two halves' score tiles (it depends on the point's blocks alone). -/
private theorem energy_blk (t : Fin cfg0.N) :
    (outsAt0 m c t.val t.isLt).1 = join2 (e0 (xblk m c t) (kblk m c t)) (e1 (xblk m c t) (kblk m c t)) := by
  by_cases h0 : t.val % 12 = 0
  · have h1 : ¬ t.val % 12 = 11 := by omega
    rw [outsAt0_A m c t h0 h1]
    dsimp only
    exact Pieces.energy_A c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _) _ _
      (iblk m c 0 t) (iblk m c 1 t)
  · by_cases h1 : t.val % 12 = 11
    · rw [outsAt0_C m c t h0 h1]
      dsimp only
      exact Pieces.energy_C c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _) _ _
        (iblk m c 0 t) (iblk m c 1 t) _ _ _
    · rw [outsAt0_B m c t h0 h1]
      dsimp only
      exact Pieces.energy_B c (grid0.coords t) (ms0_0 t) (hs0_0 t) (ms0_1 t) (hs0_1 t) (ms0_2 t) (hs0_2 t) (ms0_3 t) (hs0_3 t)
        scM0_0 (Memref.isWhole_whole _) scM0_1 (Memref.isWhole_whole _) scM0_2 (Memref.isWhole_whole _) _ _
        (iblk m c 0 t) (iblk m c 1 t) _ _ _

/-- Last tile: the summary block is the new weighted sums over the new normalisers, from what the point before left. -/
private theorem summary_blk (t : Fin cfg0.N) (hl : t.val % 12 = 11) :
    (outsAt0 m c t.val t.isLt).2.1
      = join2 (q0 (xblk m c t) (kblk m c t) (outsAt0 m c (t.val - 1) (pred_lt t)).2.2.1
            (outsAt0 m c (t.val - 1) (pred_lt t)).2.2.2.1 (outsAt0 m c (t.val - 1) (pred_lt t)).2.2.2.2)
          (q1 (xblk m c t) (kblk m c t) (outsAt0 m c (t.val - 1) (pred_lt t)).2.2.1
            (outsAt0 m c (t.val - 1) (pred_lt t)).2.2.2.1 (outsAt0 m c (t.val - 1) (pred_lt t)).2.2.2.2) := by
  have h0 : ¬ t.val % 12 = 0 := by omega
  rw [outsAt0_C m c t h0 hl]
  dsimp only
  exact Pieces.summary_C c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) _ _
    (iblk m c 0 t) (iblk m c 1 t) _ _ _

/-! ## One point, at (h, q, ·): a step of the streaming softmax of row `q` of batch `2·(t/12)+h` on tile `t % 12`

  The joins read at (h, q, ·) are `stepM`, `stepL`, `stepA` of the entries (h, q, ·) of the buffers the payloads were computed
  from, on the block's scores and feature row, which are the row's score tile and the feature's value tile. -/

section At
variable (hx : RealValued (xf m c)) (hk : RealValued (kq m c))
include hx hk

private theorem max_first_at (t : Fin cfg0.N) (h0 : t.val % 12 = 0) (h : Fin 2) (q : Fin 128) :
    (outsAt0 m c t.val t.isLt).2.2.1 (ix3 h q 0)
      = stepM ⊥ (scoreTiles (xf m c) (kq m c) (bat t h) q (tile t)) := by
  rw [max_first m c t h0, StepAt.max_apply _ _ (xblk_real m c hx t) (kblk_real m c hk t), StepAt.mInit_apply, sc_blk]

private theorem norm_first_at (t : Fin cfg0.N) (h0 : t.val % 12 = 0) (h : Fin 2) (q : Fin 128) :
    (outsAt0 m c t.val t.isLt).2.2.2.1 (ix3 h q 0)
      = stepL ⊥ 0 (scoreTiles (xf m c) (kq m c) (bat t h) q (tile t)) := by
  rw [norm_first m c t h0, StepAt.norm_apply _ _ (xblk_real m c hx t) (kblk_real m c hk t), StepAt.mInit_apply,
    StepAt.lInit_apply, sc_blk]

private theorem acc_first_at (t : Fin cfg0.N) (h0 : t.val % 12 = 0) (h : Fin 2) (q e : Fin 128) :
    (outsAt0 m c t.val t.isLt).2.2.2.2 (ix3 h q e)
      = stepA ⊥ 0 (scoreTiles (xf m c) (kq m c) (bat t h) q (tile t)) (valueTiles (xf m c) (bat t h) e (tile t)) := by
  rw [acc_first m c t h0, StepAt.acc_apply _ _ (xblk_real m c hx t) (kblk_real m c hk t), StepAt.mInit_apply,
    StepAt.aInit_apply, sc_blk, row_blk]

private theorem max_next_at (t : Fin cfg0.N) (h0 : ¬ t.val % 12 = 0) (h : Fin 2) (q : Fin 128) :
    (outsAt0 m c t.val t.isLt).2.2.1 (ix3 h q 0)
      = stepM ((outsAt0 m c (t.val - 1) (pred_lt t)).2.2.1 (ix3 h q 0))
          (scoreTiles (xf m c) (kq m c) (bat t h) q (tile t)) := by
  rw [max_next m c t h0, StepAt.max_apply _ _ (xblk_real m c hx t) (kblk_real m c hk t), sc_blk]

private theorem norm_next_at (t : Fin cfg0.N) (h0 : ¬ t.val % 12 = 0) (h : Fin 2) (q : Fin 128) :
    (outsAt0 m c t.val t.isLt).2.2.2.1 (ix3 h q 0)
      = stepL ((outsAt0 m c (t.val - 1) (pred_lt t)).2.2.1 (ix3 h q 0))
          ((outsAt0 m c (t.val - 1) (pred_lt t)).2.2.2.1 (ix3 h q 0))
          (scoreTiles (xf m c) (kq m c) (bat t h) q (tile t)) := by
  rw [norm_next m c t h0, StepAt.norm_apply _ _ (xblk_real m c hx t) (kblk_real m c hk t), sc_blk]

private theorem acc_next_at (t : Fin cfg0.N) (h0 : ¬ t.val % 12 = 0) (h : Fin 2) (q e : Fin 128) :
    (outsAt0 m c t.val t.isLt).2.2.2.2 (ix3 h q e)
      = stepA ((outsAt0 m c (t.val - 1) (pred_lt t)).2.2.1 (ix3 h q 0))
          ((outsAt0 m c (t.val - 1) (pred_lt t)).2.2.2.2 (ix3 h q e))
          (scoreTiles (xf m c) (kq m c) (bat t h) q (tile t)) (valueTiles (xf m c) (bat t h) e (tile t)) := by
  rw [acc_next m c t h0, StepAt.acc_apply _ _ (xblk_real m c hx t) (kblk_real m c hk t), sc_blk, row_blk]

/-! ## The induction on the point

  All three carried buffers together, since a step of the normaliser or of the weighted sum needs the maximum of the tile
  before. At the first tile of a pair (`n % 12 = 0`) each is the recursion's first clause. At a later tile, point `n - 1`
  belongs to the same pair (`(n - 1) / 12 = n / 12`, so the same batch) and is the tile before (`n % 12 = (n - 1) % 12 + 1`), so
  the induction hypothesis at `n - 1` turns the step into the recursion's second clause. -/

theorem carried_at : ∀ (n : ℕ) (hn : n < cfg0.N) (h : Fin 2) (q : Fin 128),
    (outsAt0 m c n hn).2.2.1 (ix3 h q 0)
        = runM (scoreTiles (xf m c) (kq m c) (bat ⟨n, hn⟩ h) q) (n % 12) (tile_lt ⟨n, hn⟩)
      ∧ (outsAt0 m c n hn).2.2.2.1 (ix3 h q 0)
        = runL (scoreTiles (xf m c) (kq m c) (bat ⟨n, hn⟩ h) q) (n % 12) (tile_lt ⟨n, hn⟩)
      ∧ ∀ e : Fin 128, (outsAt0 m c n hn).2.2.2.2 (ix3 h q e)
        = runA (scoreTiles (xf m c) (kq m c) (bat ⟨n, hn⟩ h) q) (valueTiles (xf m c) (bat ⟨n, hn⟩ h) e)
            (n % 12) (tile_lt ⟨n, hn⟩) := by
  intro n
  induction n using Nat.strong_induction_on with
  | _ n ih =>
    intro hn h q
    by_cases h0 : n % 12 = 0
    · -- the first tile of a pair: one step from (-∞, 0, 0)
      exact ⟨(max_first_at m c hx hk ⟨n, hn⟩ h0 h q).trans (runM_first _ _ _ h0).symm,
        (norm_first_at m c hx hk ⟨n, hn⟩ h0 h q).trans (runL_first _ _ _ h0).symm,
        fun e => (acc_first_at m c hx hk ⟨n, hn⟩ h0 h q e).trans (runA_first _ _ _ _ h0).symm⟩
    · -- a later tile: one step from point n - 1, which is the tile before of the same batch
      have hp : n - 1 < cfg0.N := pred_lt ⟨n, hn⟩
      have hb : bat ⟨n - 1, hp⟩ h = bat ⟨n, hn⟩ h :=
        Fin.ext (show 2 * ((n - 1) / 12) + h.val = 2 * (n / 12) + h.val by omega)
      have hs : n % 12 = (n - 1) % 12 + 1 := by omega
      obtain ⟨iM, iL, iA⟩ := ih (n - 1) (by omega) hp h q
      rw [hb] at iM iL iA
      refine ⟨?_, ?_, fun e => ?_⟩
      · refine (max_next_at m c hx hk ⟨n, hn⟩ h0 h q).trans ?_
        rw [runM_succ _ hs (tile_lt ⟨n, hn⟩) (tile_lt ⟨n - 1, hp⟩)]
        exact congrArg (fun z => stepM z _) iM
      · refine (norm_next_at m c hx hk ⟨n, hn⟩ h0 h q).trans ?_
        rw [runL_succ _ hs (tile_lt ⟨n, hn⟩) (tile_lt ⟨n - 1, hp⟩), ← iM, ← iL]
        rfl
      · refine (acc_next_at m c hx hk ⟨n, hn⟩ h0 h q e).trans ?_
        rw [runA_succ _ _ hs (tile_lt ⟨n, hn⟩) (tile_lt ⟨n - 1, hp⟩), ← iM, ← iA e]
        rfl

end At

/-! ## The five statements -/

/-- The running maxima after point `t`. -/
theorem max_at (hx : RealValued (xf m c)) (hk : RealValued (kq m c)) (t : Fin cfg0.N) (h : Fin 2) (q : Fin 128) :
    (outsAt0 m c t.val t.isLt).2.2.1 (ix3 h q 0)
      = runM (scoreTiles (xf m c) (kq m c) (bat t h) q) (t.val % 12) (tile_lt t) := by
  exact (carried_at m c hx hk t.val t.isLt h q).1

/-- The running normalisers after point `t`. -/
theorem norm_at (hx : RealValued (xf m c)) (hk : RealValued (kq m c)) (t : Fin cfg0.N) (h : Fin 2) (q : Fin 128) :
    (outsAt0 m c t.val t.isLt).2.2.2.1 (ix3 h q 0)
      = runL (scoreTiles (xf m c) (kq m c) (bat t h) q) (t.val % 12) (tile_lt t) := by
  exact (carried_at m c hx hk t.val t.isLt h q).2.1

/-- The running weighted sums after point `t`. -/
theorem acc_at (hx : RealValued (xf m c)) (hk : RealValued (kq m c)) (t : Fin cfg0.N) (h : Fin 2) (q e : Fin 128) :
    (outsAt0 m c t.val t.isLt).2.2.2.2 (ix3 h q e)
      = runA (scoreTiles (xf m c) (kq m c) (bat t h) q) (valueTiles (xf m c) (bat t h) e) (t.val % 12) (tile_lt t) := by
  exact (carried_at m c hx hk t.val t.isLt h q).2.2 e

/-- The energy block after point `t`: its tile of scores. -/
theorem energy_at (hx : RealValued (xf m c)) (hk : RealValued (kq m c)) (t : Fin cfg0.N) (h : Fin 2) (q : Fin 128) (j : Fin 2560) :
    (outsAt0 m c t.val t.isLt).1 (ix3 h q j) = score (xf m c) (kq m c) (bat t h) q (col (tile t) j) := by
  -- entry (h, q, j) of the block is the block's score, which is entry j of the row's score tile
  rw [energy_blk m c t, StepAt.energy_apply _ _ (xblk_real m c hx t) (kblk_real m c hk t), sc_blk]
  rfl

/-- The summary block after a pair's last tile. -/
theorem summary_at (hx : RealValued (xf m c)) (hk : RealValued (kq m c)) (t : Fin cfg0.N) (hl : t.val % 12 = 11)
    (h : Fin 2) (q e : Fin 128) :
    (outsAt0 m c t.val t.isLt).2.1 (ix3 h q e) = summary (xf m c) (kq m c) (ix3 (bat t h) q e) := by
  have h0 : ¬ t.val % 12 = 0 := by omega
  -- the step the quotient is taken of is the one that made this point's own weighted sums and normalisers,
  -- which are the streaming values after tile 11
  have hA := acc_at m c hx hk t h q e
  have hL := norm_at m c hx hk t h q
  rw [acc_next_at m c hx hk t h0 h q e] at hA
  rw [norm_next_at m c hx hk t h0 h q] at hL
  rw [summary_blk m c t hl, StepAt.summary_apply _ _ (xblk_real m c hx t) (kblk_real m c hk t), sc_blk, row_blk, hA, hL,
    runA_congr _ _ hl (tile_lt t) (by decide), runL_congr _ hl (tile_lt t) (by decide)]
  rfl

end Cert.KernelIdeal.Inv

end
-- ==== Proof.KFinal.lean ====
/-
  The kernel's two result arrays, and its run.

  Every point writes its energy block back, and the 48 blocks tile the 8 × 128 × 30720 energy array (block `t` is batches
  `2·(t/12)`, `2·(t/12)+1`, columns of tile `t % 12`); the summary block is written back after each pair's last tile, and those
  4 blocks tile the 8 × 128 × 128 summary array. So the arrays end at `energy` and `summary` of the flattened feature map and the
  queries; the host's closing reshape gives the energy its four axes.
-/
import proofs.«403087_j20770461844117_3_alg».proof.Proof.Gen.KernelIdeal.Frame
import proofs.«403087_j20770461844117_3_alg».proof.Proof.KInv
import Idealize.ShloMosaic.Lib.Pipeline.Value
import Idealize.ShloMosaic.Lib.StableHlo.Run

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks AttnSpec

variable (m : (ℓ : Loc nD τ sig) → Buf (Elt Ideal) ℓ) (ρ : Dev nD → PrngReg)

/-! ## Which block a point writes

Point `t` of the 4 × 12 grid (row-major: pair `t / 12`, tile `t % 12`) writes, of the energy array cut into blocks of
2 × 128 × 2560, the block with indices `(t / 12, 0, t % 12)`; of the summary array cut into blocks of 2 × 128 × 128, the block
`(t / 12, 0, 0)`. Both maps are finite tables over the 48 points. -/

/-- The energy window's block indices at point `t`: pair `t / 12` on the batch axis, tile `t % 12` on the column axis. -/
theorem energy_index : ∀ t : Fin cfg0.N,
    win0_2.index t 0 = t.val / 12 ∧ win0_2.index t 1 = 0 ∧ win0_2.index t 2 = t.val % 12 :=
  (by decide +kernel : ∀ t : Fin grid0.N,
    win0_2.index t 0 = t.val / 12 ∧ win0_2.index t 1 = 0 ∧ win0_2.index t 2 = t.val % 12)

/-- The summary window's block indices at point `t`: pair `t / 12` on the batch axis, nothing else moves. -/
theorem summary_index : ∀ t : Fin cfg0.N,
    win0_3.index t 0 = t.val / 12 ∧ win0_3.index t 1 = 0 ∧ win0_3.index t 2 = 0 :=
  (by decide +kernel : ∀ t : Fin grid0.N,
    win0_3.index t 0 = t.val / 12 ∧ win0_3.index t 1 = 0 ∧ win0_3.index t 2 = 0)

/-! ## What a point writes back is its block of the result

Entry `(h, q, j)` of block `(p, 0, s)` of the energy array is the array's entry `(2p + h, q, 2560·s + j)`: block index times
block extent plus the coordinate inside the block, axis by axis. With `p = t / 12`, `s = t % 12` that is
`(bat t h, q, col (tile t) j)`, where the staging buffer holds `score … (bat t h) q (col (tile t) j)` after point `t`. -/

/-- WHAT POINT `t` WRITES BACK TO THE ENERGY ARRAY is block `t` of `energy`. -/
theorem written_energy (c : Dev nD) (hx : RealValued (xf m c)) (hk : RealValued (kq m c)) (t : Fin cfg0.N) :
    (dats m 0 c).flushed 2 t = ((cfg0.win 2).blk t).view.read (Elt Ideal) (energy (xf m c) (kq m c)) := by
  show (cfg0.win 2).cut (grid0.coords t) ((dats m 0 c).after 2 t) = _
  rw [after0_2]
  funext y
  -- the block's index by its three coordinates: half `h`, query `q`, column `j` within the tile
  have hy : ∃ (h : Fin 2) (q : Fin 128) (j : Fin 2560), y = ix3 h q j :=
    ⟨y 0, y 1, y 2, eq_ix3 (n0 := 2) (n1 := 128) (n2 := 2560) y⟩
  obtain ⟨h, q, j, rfl⟩ := hy
  show (outsAt0 m c t.val t.isLt).1 (ix3 h q j)
    = energy (xf m c) (kq m c) (((cfg0.win 2).blk t).view.emb (ix3 h q j))
  -- left: the staging buffer holds the tile's scores
  rw [Inv.energy_at m c hx hk t h q j]
  -- right: where `(h, q, j)` of block `t` sits in the array, axis by axis
  obtain ⟨e0, e1, e2⟩ := energy_index t
  have hb : ((cfg0.win 2).blk t).view.emb (ix3 h q j) 0 = bat t h := by
    apply Fin.ext
    show win0_2.index t 0 * 2 + 1 * h.val = 2 * (t.val / 12) + h.val
    omega
  have hq : ((cfg0.win 2).blk t).view.emb (ix3 h q j) 1 = q := by
    apply Fin.ext
    show win0_2.index t 1 * 128 + 1 * q.val = q.val
    omega
  have hc : ((cfg0.win 2).blk t).view.emb (ix3 h q j) 2 = col (tile t) j := by
    apply Fin.ext
    show win0_2.index t 2 * 2560 + 1 * j.val = 2560 * (t.val % 12) + j.val
    omega
  -- `energy` at an index is the score at its three coordinates
  show _ = score (xf m c) (kq m c) (((cfg0.win 2).blk t).view.emb (ix3 h q j) 0)
    (((cfg0.win 2).blk t).view.emb (ix3 h q j) 1) (((cfg0.win 2).blk t).view.emb (ix3 h q j) 2)
  rw [hb, hq, hc]

/-- WHAT A POINT THAT WRITES THE SUMMARY BACK WRITES is its block of `summary`: such a point is a pair's last tile
    (`t % 12 = 11`), where the staging buffer holds the summary's rows for the pair; entry `(h, q, e)` of block `(t / 12, 0, 0)`
    is the array's entry `(2·(t/12) + h, q, e)`. -/
theorem written_summary (c : Dev nD) (hx : RealValued (xf m c)) (hk : RealValued (kq m c)) (t : Fin cfg0.N)
    (hf : (cfg0.win 3).flush t = true) :
    (dats m 0 c).flushed 3 t = ((cfg0.win 3).blk t).view.read (Elt Ideal) (summary (xf m c) (kq m c)) := by
  have hl : t.val % 12 = 11 := (flush0_3 t).mp hf
  show (cfg0.win 3).cut (grid0.coords t) ((dats m 0 c).after 3 t) = _
  rw [after0_3]
  funext y
  have hy : ∃ (h : Fin 2) (q e : Fin 128), y = ix3 h q e :=
    ⟨y 0, y 1, y 2, eq_ix3 (n0 := 2) (n1 := 128) (n2 := 128) y⟩
  obtain ⟨h, q, e, rfl⟩ := hy
  show (outsAt0 m c t.val t.isLt).2.1 (ix3 h q e)
    = summary (xf m c) (kq m c) (((cfg0.win 3).blk t).view.emb (ix3 h q e))
  rw [Inv.summary_at m c hx hk t hl h q e]
  -- the two indices of the summary array agree coordinate by coordinate
  congr 1
  obtain ⟨e0, e1, e2⟩ := summary_index t
  funext a
  apply Fin.ext
  match a with
  | ⟨0, _⟩ => show 2 * (t.val / 12) + h.val = win0_3.index t 0 * 2 + 1 * h.val; omega
  | ⟨1, _⟩ => show q.val = win0_3.index t 1 * 128 + 1 * q.val; omega
  | ⟨2, _⟩ => show e.val = win0_3.index t 2 * 128 + 1 * e.val; omega

/-! ## The blocks tile the arrays -/

/-- An index of the energy array is in point `t`'s block iff each coordinate is in the block's range on its axis. -/
theorem mem_energy_block (t : Fin cfg0.N) (i : S8x128x30720.Idx) :
    i ∈ ((cfg0.win 2).blk t).view.set ↔ ∀ a : Fin 3, win0_2.index t a * S2x128x2560.size a ≤ (i a).val
      ∧ (i a).val < win0_2.index t a * S2x128x2560.size a + S2x128x2560.size a := by
  show i ∈ ((View.whole main_v1_0).slice (win0_2.rect t)).set ↔ _
  rw [View.set_slice_whole, Rect.mem_set_unit]
  exact Iff.rfl

/-- The same for the summary array. -/
theorem mem_summary_block (t : Fin cfg0.N) (i : S8x128x128.Idx) :
    i ∈ ((cfg0.win 3).blk t).view.set ↔ ∀ a : Fin 3, win0_3.index t a * S2x128x128.size a ≤ (i a).val
      ∧ (i a).val < win0_3.index t a * S2x128x128.size a + S2x128x128.size a := by
  show i ∈ ((View.whole main_v1_1).slice (win0_3.rect t)).set ↔ _
  rw [View.set_slice_whole, Rect.mem_set_unit]
  exact Iff.rfl

/-- Every index `(b, q, s)` of the energy array is in the block of point `12·(b / 2) + s / 2560`: batch `b` is in pair `b / 2`,
    column `s` in tile `s / 2560`; and every point writes its energy block back. -/
theorem energy_covered (i : S8x128x30720.Idx) :
    ∃ t : Fin cfg0.N, (cfg0.win 2).flush t = true ∧ i ∈ ((cfg0.win 2).blk t).view.set := by
  have hN : cfg0.N = 48 := N_0
  have h0 : (i 0).val < 8 := (i 0).isLt
  have h1 : (i 1).val < 128 := (i 1).isLt
  have h2 : (i 2).val < 30720 := (i 2).isLt
  let t : Fin cfg0.N := ⟨12 * ((i 0).val / 2) + (i 2).val / 2560, by omega⟩
  have htv : t.val = 12 * ((i 0).val / 2) + (i 2).val / 2560 := rfl
  refine ⟨t, flush0_2 t, ?_⟩
  rw [mem_energy_block]
  obtain ⟨e0, e1, e2⟩ := energy_index t
  intro a
  match a with
  | ⟨0, _⟩ => show win0_2.index t 0 * 2 ≤ (i 0).val ∧ (i 0).val < win0_2.index t 0 * 2 + 2; omega
  | ⟨1, _⟩ => show win0_2.index t 1 * 128 ≤ (i 1).val ∧ (i 1).val < win0_2.index t 1 * 128 + 128; omega
  | ⟨2, _⟩ => show win0_2.index t 2 * 2560 ≤ (i 2).val ∧ (i 2).val < win0_2.index t 2 * 2560 + 2560; omega

/-- Every index `(b, q, e)` of the summary array is in the block of point `12·(b / 2) + 11`, the last tile of batch `b`'s
    pair, which is a point that writes the summary back. -/
theorem summary_covered (i : S8x128x128.Idx) :
    ∃ t : Fin cfg0.N, (cfg0.win 3).flush t = true ∧ i ∈ ((cfg0.win 3).blk t).view.set := by
  have hN : cfg0.N = 48 := N_0
  have h0 : (i 0).val < 8 := (i 0).isLt
  have h1 : (i 1).val < 128 := (i 1).isLt
  have h2 : (i 2).val < 128 := (i 2).isLt
  let t : Fin cfg0.N := ⟨12 * ((i 0).val / 2) + 11, by omega⟩
  have htv : t.val = 12 * ((i 0).val / 2) + 11 := rfl
  refine ⟨t, (flush0_3 t).mpr (by omega), ?_⟩
  rw [mem_summary_block]
  obtain ⟨e0, e1, e2⟩ := summary_index t
  intro a
  match a with
  | ⟨0, _⟩ => show win0_3.index t 0 * 2 ≤ (i 0).val ∧ (i 0).val < win0_3.index t 0 * 2 + 2; omega
  | ⟨1, _⟩ => show win0_3.index t 1 * 128 ≤ (i 1).val ∧ (i 1).val < win0_3.index t 1 * 128 + 128; omega
  | ⟨2, _⟩ => show win0_3.index t 2 * 128 ≤ (i 2).val ∧ (i 2).val < win0_3.index t 2 * 128 + 128; omega

/-! ## The arrays after the run

Each point that writes back writes its block of one fixed array, and the blocks cover the array: so the array ends
holding it (a block written more than once is written the same values). -/

/-- The energy array after the run. -/
theorem final_energy (c : Dev nD) (hx : RealValued (xf m c)) (hk : RealValued (kq m c)) :
    (dats m 0 c).arrAt 2 cfg0.N = energy (xf m c) (kq m c) := by
  exact (dats m 0 c).arrAt_eq_of_cover 2 (energy (xf m c) (kq m c))
    (fun t _ => written_energy m c hx hk t) energy_covered

/-- The summary array after the run. -/
theorem final_summary (c : Dev nD) (hx : RealValued (xf m c)) (hk : RealValued (kq m c)) :
    (dats m 0 c).arrAt 3 cfg0.N = summary (xf m c) (kq m c) := by
  exact (dats m 0 c).arrAt_eq_of_cover 3 (summary (xf m c) (kq m c))
    (fun t hf => written_summary m c hx hk t hf) summary_covered

/-! ## The run -/

/-- After the region the host reshapes the energy array into the first result: the one operation after the region reads
    the energy array, which the region left at `energy`, and gives its 30720 columns the two axes 96 × 320. -/
theorem reshaped_energy (c : Dev nD) (hx : RealValued (xf m c)) (hk : RealValued (kq m c)) :
    Pipeline.afterTail₀ cfgs (dats m) 0 (V0 m) [hostOps1] c main_v2
      = shapeCast S8x128x96x320 (energy (xf m c) (kq m c)) shapeCasts_S8x128x30720_S8x128x96x320 := by
  unfold Pipeline.afterTail₀
  show StableHlo.after hostOps1 _ (Proc.devRef .tc main_v2) = _
  after_results
  -- what the reshape reads: the region's third array, at what the run leaves in it
  have hE : Pipeline.withArrays (cfgs 0).spec c (V0 m c) (fun w => (dats m 0 c).arrAt w (cfgs 0).N)
      (Proc.devRef .tc main_v1_0) = energy (xf m c) (kq m c) :=
    (Pipeline.withArrays_arr spec0 launch0.win.arr_inj c _ _ 2).trans (final_energy m c hx hk)
  rw [hE]
  rfl

/-- The run, read: with real inputs every weakly fair execution ends with the energy result at the reshaped energy array,
    the summary result at the summary array, and the arguments unchanged. -/
theorem run (hfin : ∀ c : Dev nD, RealValued (xf m c) ∧ RealValued (kq m c)) :
    θ_run defs (onTc (τ := τ) (main (F := Ideal))) ⟨m, fun _ => 0, ρ⟩ fun r => ∀ c : Dev nD,
      r.2.mem ((c.tc : Thread nD τ).loc main_v2)
          = shapeCast S8x128x96x320 (energy (xf m c) (kq m c)) shapeCasts_S8x128x30720_S8x128x96x320
      ∧ r.2.mem ((c.tc : Thread nD τ).loc main_v1_1) = summary (xf m c) (kq m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  -- The frame run ends with every array of the region at what its write-backs leave and every other buffer as the host
  -- operation after the region leaves it. Read it at the four buffers: the first result is no array of the region (the
  -- closing reshape writes it); the summary is the region's fourth array; the feature map argument is no array of the
  -- region and no operation writes it; the queries are the region's second array, an input, which ends as it was found.
  exact (θ_run defs _ _).mono (fun r h c =>
    ⟨((h c).2 main_v2 (Pipeline.mem_restRefs_of main_v2 (by decide) (by decide))).trans
        (reshaped_energy m c (hfin c).1 (hfin c).2),
     ((h c).1 3).trans (final_summary m c (hfin c).1 (hfin c).2),
     ((h c).2 main_arg0 (Pipeline.mem_restRefs_of main_arg0 (by decide) (by decide))).trans
        (W_main_arg0 m (dats m) c),
     ((h c).1 1).trans (((dats m 0 c).arrAt_in 1 rfl _).trans ((A_eq m c 1).trans (V_main_arg1 m c)))⟩)
    (run_main m ρ)

end Cert.KernelIdeal.Value

end
-- ==== Proof.RefVal.lean ====
/-
  The reference's two results, as the same functions of the flattened feature map and the queries.

  The energy is the transposed score matrix: `Σ_e xf[b,e,s] · K[b,q,e]`, the kernel's `Σ_e K[b,q,e] · xf[b,e,s]` with the factors
  in the other order. The summary is the textbook softmax over the 30720 columns — subtract the row maximum (taken from `-∞`,
  and once more against `-∞`), exponentiate, divide by the sum (taken from `0`), and contract with the features — which for
  real inputs is the streaming form's quotient (`OnlineSoftmax.run_div_eq_softmax`), the 30720 columns read as 12 tiles of 2560.
-/
import proofs.«403087_j20770461844117_3_alg».proof.Proof.Gen.ReferenceIdeal.Read
import proofs.«403087_j20770461844117_3_alg».proof.Proof.Spec
import Idealize.ShloMosaic.Lib.ReduceAll

noncomputable section

namespace Cert.ReferenceIdeal.RefValue

open Idealize.ShloMosaic Idealize.ShloMosaic.ValueIdx Idealize.SL.Sem
open Cert.ReferenceIdeal Cert.ReferenceIdeal.Gen Cert.ReferenceIdeal.Read AttnSpec

/-- The transposed score matrix is the energy array. -/
theorem energy_eq (x0 : (⟨S8x128x96x320, .f32⟩ : BufTy).Contents (Elt Ideal)) (x1 : (⟨S8x128x128, .f32⟩ : BufTy).Contents (Elt Ideal)) :
    val_main_v14 (F := Ideal) x0 x1 = energy (val_main_v0 (F := Ideal) x0) x1 := by
  funext i
  -- the transpose reads the score matrix at (b, s, q); that entry is the contraction over the features
  rw [val_main_v14_apply, val_main_v1_apply]
  generalize val_main_v0 (F := Ideal) x0 = xf
  unfold energy score
  refine Finset.sum_congr rfl fun k _ => ?_
  have el : lidx_main_v1 (idx_main_v14 i) k = ix3 (i 0) k (i 2) :=
    funext fun a => Fin.ext (by match a with | ⟨0, _⟩ => rfl | ⟨1, _⟩ => rfl | ⟨2, _⟩ => rfl)
  have er : ridx_main_v1 (idx_main_v14 i) k = ix3 (i 0) (i 1) k :=
    funext fun a => Fin.ext (by match a with | ⟨0, _⟩ => rfl | ⟨1, _⟩ => rfl | ⟨2, _⟩ => rfl)
  rw [el, er]
  -- `xf[b,k,s] · K[b,q,k] = K[b,q,k] · xf[b,k,s]`
  exact mul_comm _ _

/-! ## The reference's stages read at one entry -/

/-- The bit pattern of the reduction's and the comparison's initial value denotes `-∞`. -/
private theorem ofBits_negInf : (FloatOps.ofBits (F := Ideal) .f32 0xFF800000#32) = (⊥ : EReal) := by
  show Ideal.ofBits .f32 0xFF800000#32 = ⊥
  simp [Ideal.ofBits, Ideal.ieee]

/-- The score matrix at (b, s, q) is the score of query `q` against column `s`: the contraction over the features
    with its two factors in the other order. -/
private theorem v1_at (x0 : (⟨S8x128x96x320, .f32⟩ : BufTy).Contents (Elt Ideal)) (x1 : (⟨S8x128x128, .f32⟩ : BufTy).Contents (Elt Ideal))
    (b : Fin 8) (s : Fin 30720) (q : Fin 128) :
    val_main_v1 (F := Ideal) x0 x1 (ix3 b s q) = score (val_main_v0 (F := Ideal) x0) x1 b q s := by
  rw [val_main_v1_apply]
  generalize val_main_v0 (F := Ideal) x0 = xf
  unfold score
  refine Finset.sum_congr rfl fun k _ => ?_
  have el : lidx_main_v1 (ix3 b s q) k = ix3 b k s :=
    funext fun a => Fin.ext (by match a with | ⟨0, _⟩ => rfl | ⟨1, _⟩ => rfl | ⟨2, _⟩ => rfl)
  have er : ridx_main_v1 (ix3 b s q) k = ix3 b q k :=
    funext fun a => Fin.ext (by match a with | ⟨0, _⟩ => rfl | ⟨1, _⟩ => rfl | ⟨2, _⟩ => rfl)
  rw [el, er]
  exact mul_comm _ _

/-- The maximum-reduction over the column axis, at (b, q): the fold of `max` from `-∞` over the 30720 columns of the
    score matrix. The source index over (b, q) with column `s` inserted on the dropped axis is (b, s, q). -/
private theorem v2_at (x0 : (⟨S8x128x96x320, .f32⟩ : BufTy).Contents (Elt Ideal)) (x1 : (⟨S8x128x128, .f32⟩ : BufTy).Contents (Elt Ideal))
    (b : Fin 8) (q : Fin 128) :
    val_main_v2 (F := Ideal) x0 x1 (ix2 b q)
      = (Finset.univ : Finset (Fin 30720)).fold max (⊥ : EReal) (fun s => val_main_v1 (F := Ideal) x0 x1 (ix3 b s q)) := by
  unfold val_main_v2
  generalize val_main_v1 (F := Ideal) x0 x1 = y
  have h : S8x30720x128.Reduces [1] S8x128 := by decide
  refine (Host.reduce_eq_fold_single (FloatOps.maximumf (F := Ideal) (φ := .f32)) y (val_main_cst (F := Ideal))
    reducesTo_S8x30720x128_S8x128_d1 h h_S_ (ix2 b q)).trans ?_
  have hl : (y ∘ h.lift (ix2 b q)) = fun s : Fin 30720 => y (ix3 b s q) :=
    funext fun k => congrArg y (funext fun c => Fin.ext (by match c with | ⟨0, _⟩ => rfl | ⟨1, _⟩ => rfl | ⟨2, _⟩ => rfl))
  have h0 : val_main_cst (F := Ideal) (Shape.Idx.first h_S_) = (⊥ : EReal) := ofBits_negInf
  exact congrArg₂ (fun (m : EReal) (f : Fin 30720 → EReal) => (Finset.univ : Finset (Fin 30720)).fold max m f) h0 hl

/-- The row maximum as the reference takes it: the fold of `max` from `-∞` over the 30720 columns, compared once
    more with `-∞`. -/
private def rowMax (Y : Fin 30720 → EReal) : EReal := max ⊥ ((Finset.univ : Finset (Fin 30720)).fold max ⊥ Y)

/-- The maximum against the broadcast `-∞`, at (b, q): the row maximum of the scores of query `q`. -/
private theorem v4_at (x0 : (⟨S8x128x96x320, .f32⟩ : BufTy).Contents (Elt Ideal)) (x1 : (⟨S8x128x128, .f32⟩ : BufTy).Contents (Elt Ideal))
    (b : Fin 8) (q : Fin 128) :
    val_main_v4 (F := Ideal) x0 x1 (ix2 b q) = rowMax (score (val_main_v0 (F := Ideal) x0) x1 b q) := by
  have hf : (fun s => val_main_v1 (F := Ideal) x0 x1 (ix3 b s q)) = score (val_main_v0 (F := Ideal) x0) x1 b q :=
    funext fun s => v1_at x0 x1 b s q
  rw [val_main_v4_apply, val_main_v3_apply, val_main_cst_0_apply, ofBits_negInf, v2_at, hf]
  rfl

/-- The row maximum broadcast back along the columns: at (b, s, q) it is the row maximum of (b, q), whatever `s`. -/
private theorem v6_at (x0 : (⟨S8x128x96x320, .f32⟩ : BufTy).Contents (Elt Ideal)) (x1 : (⟨S8x128x128, .f32⟩ : BufTy).Contents (Elt Ideal))
    (b : Fin 8) (s : Fin 30720) (q : Fin 128) :
    val_main_v6 (F := Ideal) x0 x1 (ix3 b s q) = rowMax (score (val_main_v0 (F := Ideal) x0) x1 b q) := by
  have e : idx_main_v5 (idx_main_v6 (ix3 b s q)) = ix2 b q :=
    funext fun a => Fin.ext (by match a with | ⟨0, _⟩ => rfl | ⟨1, _⟩ => rfl)
  rw [val_main_v6_apply, val_main_v5_apply, e, v4_at]

/-- The exponential of the score less the row maximum. -/
private theorem v8_at (x0 : (⟨S8x128x96x320, .f32⟩ : BufTy).Contents (Elt Ideal)) (x1 : (⟨S8x128x128, .f32⟩ : BufTy).Contents (Elt Ideal))
    (b : Fin 8) (s : Fin 30720) (q : Fin 128) :
    val_main_v8 (F := Ideal) x0 x1 (ix3 b s q)
      = Ideal.exp (score (val_main_v0 (F := Ideal) x0) x1 b q s - rowMax (score (val_main_v0 (F := Ideal) x0) x1 b q)) := by
  rw [val_main_v8_apply, val_main_v7_apply, v1_at, v6_at]
  rfl

/-- The normaliser, at (b, q): from `0`, the sum of the exponentials over the 30720 columns. -/
private theorem v9_at (x0 : (⟨S8x128x96x320, .f32⟩ : BufTy).Contents (Elt Ideal)) (x1 : (⟨S8x128x128, .f32⟩ : BufTy).Contents (Elt Ideal))
    (b : Fin 8) (q : Fin 128) :
    val_main_v9 (F := Ideal) x0 x1 (ix2 b q)
      = 0 + ∑ k : Fin 30720,
          Ideal.exp (score (val_main_v0 (F := Ideal) x0) x1 b q k - rowMax (score (val_main_v0 (F := Ideal) x0) x1 b q)) := by
  have z : (FloatOps.ofBits (F := Ideal) .f32 0x00000000#32) = (0 : EReal) := Ideal.ofBits_zero_f32
  rw [val_main_v9_apply, val_main_cst_1_apply, z]
  refine congrArg (0 + ·) (Finset.sum_congr rfl fun k _ => ?_)
  have e : idx_main_v9 (ix2 b q) k = ix3 b k q :=
    funext fun a => Fin.ext (by match a with | ⟨0, _⟩ => rfl | ⟨1, _⟩ => rfl | ⟨2, _⟩ => rfl)
  rw [e, v8_at]

/-- The normaliser broadcast back along the columns. -/
private theorem v11_at (x0 : (⟨S8x128x96x320, .f32⟩ : BufTy).Contents (Elt Ideal)) (x1 : (⟨S8x128x128, .f32⟩ : BufTy).Contents (Elt Ideal))
    (b : Fin 8) (s : Fin 30720) (q : Fin 128) :
    val_main_v11 (F := Ideal) x0 x1 (ix3 b s q)
      = 0 + ∑ k : Fin 30720,
          Ideal.exp (score (val_main_v0 (F := Ideal) x0) x1 b q k - rowMax (score (val_main_v0 (F := Ideal) x0) x1 b q)) := by
  have e : idx_main_v10 (idx_main_v11 (ix3 b s q)) = ix2 b q :=
    funext fun a => Fin.ext (by match a with | ⟨0, _⟩ => rfl | ⟨1, _⟩ => rfl)
  rw [val_main_v11_apply, val_main_v10_apply, e, v9_at]

/-- The second contraction, at (b, q, e): the softmax weights of row (b, q) against feature `e`, over the columns. -/
private theorem v13_at (x0 : (⟨S8x128x96x320, .f32⟩ : BufTy).Contents (Elt Ideal)) (x1 : (⟨S8x128x128, .f32⟩ : BufTy).Contents (Elt Ideal))
    (b : Fin 8) (q : Fin 128) (e : Fin 128) :
    val_main_v13 (F := Ideal) x0 x1 (ix3 b q e)
      = ∑ s : Fin 30720,
          Ideal.div (Ideal.exp (score (val_main_v0 (F := Ideal) x0) x1 b q s - rowMax (score (val_main_v0 (F := Ideal) x0) x1 b q)))
              (0 + ∑ k : Fin 30720,
                Ideal.exp (score (val_main_v0 (F := Ideal) x0) x1 b q k - rowMax (score (val_main_v0 (F := Ideal) x0) x1 b q)))
            * (val_main_v0 (F := Ideal) x0) (ix3 b e s) := by
  rw [val_main_v13_apply]
  refine Finset.sum_congr rfl fun s _ => ?_
  have el : lidx_main_v13 (ix3 b q e) s = ix3 b s q :=
    funext fun a => Fin.ext (by match a with | ⟨0, _⟩ => rfl | ⟨1, _⟩ => rfl | ⟨2, _⟩ => rfl)
  have er : ridx_main_v13 (ix3 b q e) s = ix3 b e s :=
    funext fun a => Fin.ext (by match a with | ⟨0, _⟩ => rfl | ⟨1, _⟩ => rfl | ⟨2, _⟩ => rfl)
  rw [el, er, val_main_v12_apply, v8_at, v11_at]
  rfl

/-! ## Real inputs: real scores, the row maximum attained, and the columns read as 12 tiles of 2560 -/

/-- The reals embed in the extended reals additively, so a finite sum of reals, embedded, is the sum of the embedded
    terms (induction on the index set: the empty sum is `0`, and one more term is one more addition). -/
private theorem coe_sum {ι : Type} (S : Finset ι) (f : ι → ℝ) :
    ((∑ i ∈ S, f i : ℝ) : EReal) = ∑ i ∈ S, (f i : EReal) := by
  classical
  induction S using Finset.induction_on with
  | empty => rw [Finset.sum_empty, Finset.sum_empty, EReal.coe_zero]
  | insert a S ha ih => rw [Finset.sum_insert ha, Finset.sum_insert ha, EReal.coe_add, ih]

/-- For real features and real queries every score is a real number: the real contraction, embedded. -/
private theorem score_real (xf : SXF.Idx → EReal) (k : SK.Idx → EReal) (xr : SXF.Idx → ℝ) (kr : SK.Idx → ℝ)
    (hxr : ∀ i, xf i = (xr i : EReal)) (hkr : ∀ i, k i = (kr i : EReal)) (b : Fin 8) (q : Fin 128) (s : Fin 30720) :
    score xf k b q s = ((∑ e : Fin 128, kr (ix3 b q e) * xr (ix3 b e s) : ℝ) : EReal) := by
  unfold score
  rw [coe_sum]
  refine Finset.sum_congr rfl fun e _ => ?_
  rw [hkr, hxr, EReal.coe_mul]

/-- The 30720 columns are the 12 tiles of 2560 columns: column `s` is column `s % 2560` of tile `s / 2560`, and
    column `j` of tile `t` is column `2560 · t + j`. -/
private def colEquiv : Fin 12 × Fin 2560 ≃ Fin 30720 where
  toFun p := col p.1 p.2
  invFun s := (⟨s.val / 2560, by have := s.isLt; omega⟩, ⟨s.val % 2560, Nat.mod_lt _ (by decide)⟩)
  left_inv p := by
    obtain ⟨t, j⟩ := p
    have ht := t.isLt
    have hj := j.isLt
    refine Prod.ext (Fin.ext ?_) (Fin.ext ?_)
    · show (2560 * t.val + j.val) / 2560 = t.val
      omega
    · show (2560 * t.val + j.val) % 2560 = j.val
      omega
  right_inv s := Fin.ext (by
    show 2560 * (s.val / 2560) + s.val % 2560 = s.val
    omega)

/-- So a sum over the columns is the sum over the tiles of the sums over each tile's columns. -/
private theorem sum_col {A : Type} [AddCommMonoid A] (f : Fin 30720 → A) :
    ∑ s : Fin 30720, f s = ∑ t : Fin 12, ∑ j : Fin 2560, f (col t j) := by
  rw [← Equiv.sum_comp colEquiv f, Fintype.sum_prod_type]
  rfl

/-- For real scores the row maximum bounds every score and is one of them. -/
private theorem rowMax_spec (Yr : Fin 30720 → ℝ) :
    (∀ s, (Yr s : EReal) ≤ rowMax fun s => (Yr s : EReal)) ∧ ∃ s, rowMax (fun s => (Yr s : EReal)) = (Yr s : EReal) := by
  haveI : Nonempty (Fin 30720) := ⟨⟨0, by decide⟩⟩
  exact OnlineSoftmax.fold_max_spec Yr

/-- THE SOFTMAX OVER THE COLUMNS IS THE STREAMING QUOTIENT. For real scores `Yr` and real values `Xr` over the 30720
    columns, the textbook form — each exponential of a score less the row maximum, over the sum of all of them from `0`,
    times the value, summed — is the weighted sum over the normaliser that the streaming recurrences reach after the
    twelfth tile of 2560 columns. Both sums are re-indexed by (tile, column in the tile); the row maximum bounds every
    score and is attained, which is what the telescoping asks of it. -/
private theorem softmax_cols (Yr Xr : Fin 30720 → ℝ) :
    ∑ s : Fin 30720,
        Ideal.div (Ideal.exp ((Yr s : EReal) - rowMax fun s => (Yr s : EReal)))
            (0 + ∑ k : Fin 30720, Ideal.exp ((Yr k : EReal) - rowMax fun s => (Yr s : EReal)))
          * (Xr s : EReal)
      = Ideal.div
          (OnlineSoftmax.runA (fun t j => (Yr (col t j) : EReal)) (fun t j => (Xr (col t j) : EReal)) 11 (by decide))
          (OnlineSoftmax.runL (fun t j => (Yr (col t j) : EReal)) 11 (by decide)) := by
  obtain ⟨hub, s0, hs0⟩ := rowMax_spec Yr
  generalize rowMax (fun s => (Yr s : EReal)) = M at hub hs0 ⊢
  -- the column where the maximum is attained, as (tile, column in the tile)
  have hatt : ∃ (t : Fin 12) (j : Fin 2560), M = (Yr (col t j) : EReal) :=
    ⟨(colEquiv.symm s0).1, (colEquiv.symm s0).2, by
      rw [hs0]
      exact congrArg (fun s => (Yr s : EReal)) (colEquiv.apply_symm_apply s0).symm⟩
  have key := OnlineSoftmax.run_div_eq_softmax (T := 12) (C := 2560) (by decide) (by decide)
    (fun t j => Yr (col t j)) (fun t j => Xr (col t j)) M (fun t j => hub (col t j)) hatt
  refine Eq.trans ?_ key.symm
  have hD : (∑ k : Fin 30720, Ideal.exp ((Yr k : EReal) - M))
      = ∑ t' : Fin 12, ∑ j' : Fin 2560, Ideal.exp ((Yr (col t' j') : EReal) - M) :=
    sum_col fun k => Ideal.exp ((Yr k : EReal) - M)
  rw [hD]
  exact sum_col fun s =>
    Ideal.div (Ideal.exp ((Yr s : EReal) - M))
        (0 + ∑ t' : Fin 12, ∑ j' : Fin 2560, Ideal.exp ((Yr (col t' j') : EReal) - M))
      * (Xr s : EReal)

/-- The softmax-weighted contraction is the summary array, for real inputs. -/
theorem summary_eq (x0 : (⟨S8x128x96x320, .f32⟩ : BufTy).Contents (Elt Ideal)) (x1 : (⟨S8x128x128, .f32⟩ : BufTy).Contents (Elt Ideal))
    (hx : RealValued (val_main_v0 (F := Ideal) x0)) (hk : RealValued x1) :
    val_main_v13 (F := Ideal) x0 x1 = summary (val_main_v0 (F := Ideal) x0) x1 := by
  funext i
  obtain ⟨b, q, e, rfl⟩ : ∃ (b : Fin 8) (q : Fin 128) (e : Fin 128), i = ix3 b q e := ⟨i 0, i 1, i 2, eq_ix3 i⟩
  rw [v13_at]
  generalize val_main_v0 (F := Ideal) x0 = xf at hx ⊢
  -- the real numbers behind the features and the queries
  have hx' : ∀ i, ∃ r : ℝ, xf i = (r : EReal) := hx
  have hk' : ∀ i, ∃ r : ℝ, x1 i = (r : EReal) := hk
  choose xr hxr using hx'
  choose kr hkr using hk'
  -- row (b, q)'s real scores, and feature `e`'s real values, over the columns
  have hY : score xf x1 b q = fun s => ((∑ e' : Fin 128, kr (ix3 b q e') * xr (ix3 b e' s) : ℝ) : EReal) :=
    funext fun s => score_real xf x1 xr kr hxr hkr b q s
  have hS : scoreTiles xf x1 b q
      = fun t j => ((∑ e' : Fin 128, kr (ix3 b q e') * xr (ix3 b e' (col t j)) : ℝ) : EReal) :=
    funext fun t => funext fun j => score_real xf x1 xr kr hxr hkr b q (col t j)
  have hV : valueTiles xf b e = fun t j => (xr (ix3 b e (col t j)) : EReal) :=
    funext fun t => funext fun j => hxr _
  show _ = Ideal.div (OnlineSoftmax.runA (scoreTiles xf x1 b q) (valueTiles xf b e) 11 (by decide))
    (OnlineSoftmax.runL (scoreTiles xf x1 b q) 11 (by decide))
  rw [hY, hS, hV]
  refine Eq.trans (Finset.sum_congr rfl fun s _ => ?_)
    (softmax_cols (fun s => ∑ e' : Fin 128, kr (ix3 b q e') * xr (ix3 b e' s)) (fun s => xr (ix3 b e s)))
  rw [hxr]

end Cert.ReferenceIdeal.RefValue

end
-- ==== Proof.Finite.lean ====
/-
  The precondition says every entry of `x` and of `K` is finite: `|v| < +∞` for every entry, all of them conjoined. An extended
  real whose absolute value `max v (-v)` is below `+∞` is neither infinity, so it is a real number. A reshape only re-indexes.
-/
import proofs.«403087_j20770461844117_3_alg».proof.Proof.Gen.Pre_finite_inputs
import proofs.«403087_j20770461844117_3_alg».proof.Proof.Spec
import Idealize.ShloMosaic.Lib.ReduceAll
import Idealize.ShloMosaic.PureOps.Ideal.Laws

noncomputable section

namespace Cert.Finite

open Idealize.ShloMosaic Idealize.SL.Sem AttnSpec

/-! ## One entry -/

/-- The pattern `0x7F800000` (sign 0, exponent all ones, significand 0) denotes `+∞`. -/
theorem ofBits_posInf : Ideal.ofBits .f32 0x7F800000#32 = (⊤ : EReal) := by
  simp [Ideal.ofBits, Ideal.ieee]

/-- An extended real `v` with `|v| = max v (-v) < +∞` is a real number: for `v = -∞` the maximum is `-(-∞) = +∞`,
    for `v = +∞` it is `+∞` itself, and neither is below `+∞`; the remaining case is a real. -/
theorem exists_real_of_abs_lt_top (v : EReal) (hv : max v (-v) < ⊤) : ∃ r : ℝ, v = (r : EReal) := by
  induction v using EReal.rec with
  | bot => simp at hv
  | coe r => exact ⟨r, rfl⟩
  | top => simp at hv

/-- The comparison the precondition makes on one entry: if `|v| < 0x7F800000` came out true, `v` is a real number.
    The comparison is the order's `<` on extended reals, its right side is `+∞`; were `|v| < +∞` false, the
    comparison would have produced 0, not 1. -/
theorem exists_real_of_abs_olt_inf (v : Ideal .f32)
    (h : FloatOps.cmpf .olt (FloatOps.hostAbsf v) (FloatOps.ofBits (F := Ideal) .f32 0x7F800000#32) = 1#1) :
    ∃ r : ℝ, (v : EReal) = (r : EReal) := by
  -- over the extended reals the absolute value is `max v (-v)` and the comparison is the order's
  have h' : Ideal.cmp .olt (max (v : EReal) (-(v : EReal))) (Ideal.ofBits .f32 0x7F800000#32) = 1#1 := h
  rw [ofBits_posInf] at h'
  unfold Ideal.cmp at h'
  by_cases hlt : max (v : EReal) (-(v : EReal)) < ⊤
  · exact exists_real_of_abs_lt_top v hlt
  · -- a false `<` is the bit 0, which is not 1
    simp [hlt] at h'

/-! ## The whole arrays -/

/-- The rank-0 shape has exactly one index (the empty one): the conjunction over all axes lands in a single cell. -/
theorem subsingleton_scalarIdx : Subsingleton Cert.Pre_finite_inputs.S_.Idx :=
  ⟨fun a b => funext fun d => d.elim0⟩

/-- Under the precondition both inputs are real-valued. -/
theorem real_of_pre (a0 : FVec Ideal Cert.Pre_finite_inputs.S8x128x96x320 .f32) (a1 : FVec Ideal Cert.Pre_finite_inputs.S8x128x128 .f32)
    (h : Cert.Pre_finite_inputs.fn (F := Ideal) a0 a1 = fun _ => 1#1) : RealValued a0 ∧ RealValued a1 := by
  haveI := subsingleton_scalarIdx
  -- the predicate's one cell: (all entries of `x` finite) and (all entries of `K` finite) is 1
  have h0 := congrFun h ValueIdx.ix0
  dsimp only [Cert.Pre_finite_inputs.fn] at h0
  -- a conjunction of two bits is 1 only when both are
  obtain ⟨hx, hk⟩ := IntOp.andi_eq_one.1 h0
  refine ⟨fun i => ?_, fun i => ?_⟩
  · -- a conjunction over all entries that is 1 met a 1 at entry `i`; that entry is `|x i| < +∞`
    have hi := Host.reduce_andi_all _ _ _ _ _ hx i
    exact exists_real_of_abs_olt_inf (a0 i) hi
  · -- the same for `K`
    have hi := Host.reduce_andi_all _ _ _ _ _ hk i
    exact exists_real_of_abs_olt_inf (a1 i) hi

/-- A reshape of a real-valued array is real-valued: the entry at `i` of the reshaped array is the entry of the original
    at the index with the same row-major position, and every entry of the original is real. -/
theorem realValued_shapeCast {S T : Shape} (f : S.Idx → EReal) (h : S.ShapeCasts T) (hf : RealValued f) :
    RealValued (shapeCast T f h) := by
  intro i
  exact hf (Shape.reshapeEquiv h i)

end Cert.Finite

end
-- ==== Proof.lean ====
/-
  The certificate of the paired-batch streaming attention kernel against the plain attention reference.

  THE KERNEL. Per batch `b` it treats the 128 queries `K[b]` against the 30720 columns of the flattened feature map `xf[b]`
  (128 features each) as a streaming softmax: the score of query `q` against column `s` is `Σ_e K[b,q,e] · xf[b,e,s]`; the scores
  are written out as the energy, and a running maximum, normaliser and weighted sum are carried across 12 tiles of 2560 columns,
  the summary being the last weighted sum over the last normaliser. Two batches share a grid point (their query matrices stacked
  block-diagonally, their feature tiles stacked), and each matrix product is computed as leading × leading + leading × remainder +
  remainder × leading of a split that is exact over the extended reals: the remainders are `v - v = 0` for real `v`.

  THE REFERENCE computes the whole score matrix, its softmax over the columns, and the contraction with the features.

  WHY THEY AGREE over the extended reals, for finite inputs: the zero blocks and the zero remainders drop out of the kernel's
  products (`0 · r = 0`, `r - r = 0` for real `r`), so its scores are the reference's with the factors commuted; and the streaming
  softmax telescopes — `exp (s - m) · exp (m - m') = exp (s - m')` — to `Σ exp (s - M) · v / Σ exp (s - M)` with `M` the row's
  largest score, which is the reference's `Σ (exp (s - M) / Σ exp (s' - M)) · v` because a quotient by a positive real distributes
  over a finite sum of reals. Finiteness of the inputs is what makes every quantity a real number.

  The three frames are the generated ones (the reference's is its generated run with the results dropped); the three
  `preserves` conjuncts are the format round trips the idealization removed, each the rule's own statement.
-/
import proofs.«403087_j20770461844117_3_alg».proof.Defs
import proofs.«403087_j20770461844117_3_alg».proof.Proof.Gen.Kernel
import proofs.«403087_j20770461844117_3_alg».proof.Proof.Gen.Kernel.Skeleton
import proofs.«403087_j20770461844117_3_alg».proof.Proof.Gen.Kernel.Launch
import proofs.«403087_j20770461844117_3_alg».proof.Proof.Gen.Kernel.Points
import proofs.«403087_j20770461844117_3_alg».proof.Proof.Gen.Kernel.Frame
import proofs.«403087_j20770461844117_3_alg».proof.Proof.Gen.KernelIdeal
import proofs.«403087_j20770461844117_3_alg».proof.Proof.Gen.KernelIdeal.Skeleton
import proofs.«403087_j20770461844117_3_alg».proof.Proof.Gen.KernelIdeal.Launch
import proofs.«403087_j20770461844117_3_alg».proof.Proof.Gen.KernelIdeal.Points
import proofs.«403087_j20770461844117_3_alg».proof.Proof.Gen.KernelIdeal.Frame
import proofs.«403087_j20770461844117_3_alg».proof.Proof.Gen.ReferenceIdeal
import proofs.«403087_j20770461844117_3_alg».proof.Proof.Gen.ReferenceIdeal.Run
import proofs.«403087_j20770461844117_3_alg».proof.Proof.Gen.ReferenceIdeal.Read
import proofs.«403087_j20770461844117_3_alg».proof.Proof.Gen.Pre_finite_inputs
import proofs.«403087_j20770461844117_3_alg».proof.Proof.KFinal
import proofs.«403087_j20770461844117_3_alg».proof.Proof.RefVal
import proofs.«403087_j20770461844117_3_alg».proof.Proof.Finite
import Idealize.ShloMosaic.Adequacy
import Idealize.ShloMosaic.Init

noncomputable section

namespace Cert.Proof

open Idealize.ShloMosaic Idealize.ShloMosaic.TcCoe Idealize.SL.Sem AttnSpec

/-! ## The frames -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-! ## The idealization's three rewrites: a float narrowed and widened again is itself at the ideal values -/

theorem preserves : Cert.preserves_Kernel_KernelIdeal :=
  ⟨IdealRules.truncf_extf.statement _ _ _, IdealRules.truncf_extf.statement _ _ _, IdealRules.truncf_extf.statement _ _ _⟩

/-! ## The two programs compute the same energy and the same summary -/

/-- Under the precondition the flattened feature map and the queries the region finds are real-valued. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) :
    RealValued (Cert.KernelIdeal.Blocks.xf m c) ∧ RealValued (Cert.KernelIdeal.Blocks.kq m c) := by
  obtain ⟨h0, h1⟩ := Cert.Finite.real_of_pre _ _ (hpre c)
  refine ⟨?_, ?_⟩
  · rw [Cert.KernelIdeal.Blocks.xf_eq]
    exact Cert.Finite.realValued_shapeCast _ _ h0
  · rw [Cert.KernelIdeal.Blocks.kq_eq]
    exact h1

theorem algebraic : Cert.algebraic_KernelIdeal_ReferenceIdeal := by
  intro m ρ m' ρ' hpre hagree
  have hfin := real_inputs m hpre
  refine ⟨fun c => shapeCast Cert.KernelIdeal.S8x128x96x320
      (energy (Cert.KernelIdeal.Blocks.xf m c) (Cert.KernelIdeal.Blocks.kq m c)) Cert.KernelIdeal.Gen.shapeCasts_S8x128x30720_S8x128x96x320,
    fun c => summary (Cert.KernelIdeal.Blocks.xf m c) (Cert.KernelIdeal.Blocks.kq m c),
    Cert.KernelIdeal.Value.run m ρ hfin, ?_⟩
  refine (θ_run Cert.ReferenceIdeal.defs _ _).mono (fun _ h c => ?_) (Cert.ReferenceIdeal.Value.run (F := Ideal) m' ρ')
  obtain ⟨he, hs, ha0, ha1⟩ := h c
  have hxf : Cert.ReferenceIdeal.Read.val_main_v0 (F := Ideal) (m ((c.tc : Thread Cert.KernelIdeal.nD Cert.KernelIdeal.τ).loc Cert.KernelIdeal.main_arg0))
      = Cert.KernelIdeal.Blocks.xf m c := (Cert.KernelIdeal.Blocks.xf_eq m c).symm
  have hkq : m ((c.tc : Thread Cert.KernelIdeal.nD Cert.KernelIdeal.τ).loc Cert.KernelIdeal.main_arg1)
      = Cert.KernelIdeal.Blocks.kq m c := (Cert.KernelIdeal.Blocks.kq_eq m c).symm
  refine ⟨he.trans ?_, hs.trans ?_, ha0, ha1⟩
  · rw [Cert.ReferenceIdeal.Read.val_main_v15_eq, (hagree c).1, (hagree c).2]
    unfold Cert.ReferenceIdeal.Read.val_main_v15
    rw [Cert.ReferenceIdeal.RefValue.energy_eq, hxf, hkq]
  · rw [Cert.ReferenceIdeal.Read.val_main_v13_eq, (hagree c).1, (hagree c).2]
    rw [Cert.ReferenceIdeal.RefValue.summary_eq _ _ (by rw [hxf]; exact (hfin c).1) (by rw [hkq]; exact (hfin c).2), hxf, hkq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
